-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S2097152x3 : Shape := ⟨2, ![2097152, 3]⟩
abbrev S2097152x1 : Shape := ⟨2, ![2097152, 1]⟩
abbrev S2097152 : Shape := ⟨1, ![2097152]⟩
abbrev S12582912 : Shape := ⟨1, ![12582912]⟩
abbrev S_ : Shape := ⟨0, ![]⟩
abbrev S262144 : Shape := ⟨1, ![262144]⟩
abbrev S12582912x1 : Shape := ⟨2, ![12582912, 1]⟩

class Facts : Prop where
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  concatenates_S2097152_S2097152_S2097152_S2097152_S2097152_S2097152_S12582912_d0 : Shape.Concatenates [S2097152, S2097152, S2097152, S2097152, S2097152, S2097152] S12582912 0
  bcast_S_S12582912 : S_.BroadcastsInDim S12582912 (![] : Fin 0 → Fin S12582912.rank)
  bcast_S_S262144 : S_.BroadcastsInDim S262144 (![] : Fin 0 → Fin S262144.rank)
  bcast_S12582912_S12582912x1_0 : S12582912.BroadcastsInDim S12582912x1 (![0] : Fin 1 → Fin S12582912x1.rank)
  bcast_S_S262144x3 : S_.BroadcastsInDim S262144x3 (![] : Fin 0 → Fin S262144x3.rank)
  reducesTo_S262144x3_S_d0_1 : S262144x3.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  reducesTo_S262144_S_d0 : S262144.ReducesTo [0] S_
  scatter_S262144_S12582912x1_S12582912_n_0_0_1_wf : ScatterDims.WF S262144 S12582912x1 S12582912 [] [0] [0] 1

variable [Facts]

def scatter_S262144_S12582912x1_S12582912_n_0_0_1 : ScatterDims S262144 S12582912x1 S12582912 where
  updateWindowDims := []
  insertedWindowDims := [0]
  scatterDimsToOperandDims := [0]
  indexVectorDim := 1
  wf := scatter_S262144_S12582912x1_S12582912_n_0_0_1_wf
def fn_part1 {F : FTy → Type} [FloatOps F] (main_arg1 : IVec S2097152x3 32) (main_v10 : FVec F S262144 .f32) (main_v14 : IVec S_ 1) (main_v16 : IVec S2097152x3 1) (main_v17 : IVec S2097152x3 32) : IVec S_ 1 :=
  let main_v18 : IVec S2097152x3 1 := cmpi .slt main_arg1 main_v17
  let main_v19 : IVec S2097152x3 1 := andi main_v16 main_v18
  let main_c_4 : IVec S_ 1 := constantI S_ 1 1#1
  let main_v20 : IVec S_ 1 := (fun x v => Host.reduce IntOp.andi x v reducesTo_S2097152x3_S_d0_1 h_S_) main_v19 main_c_4
  let main_v21 : IVec S_ 1 := andi main_v14 main_v20
  let main_cst_5 : FVec F S_ .f32 := constant S_ .f32 0x00000000#32
  let main_v22 : FVec F S262144 .f32 := broadcastInDim S262144 ![] bcast_S_S262144 main_cst_5
  let main_v23 : IVec S262144 1 := cmpf .ogt main_v10 main_v22
  let main_c_6 : IVec S_ 1 := constantI S_ 1 1#1
  let main_v24 : IVec S_ 1 := (fun x v => Host.reduce IntOp.andi x v reducesTo_S262144_S_d0 h_S_) main_v23 main_c_6
  let main_v25 : IVec S_ 1 := andi main_v21 main_v24
  main_v25

def fn {F : FTy → Type} [FloatOps F] (main_arg0 : FVec F S262144x3 .f32) (main_arg1 : IVec S2097152x3 32) : IVec S_ 1 :=
  let main_v0 : IVec S2097152x1 32 := (extractStridedSlice S2097152x1 ![0, 0] · slices_S2097152x3_S2097152x1_0_0) main_arg1
  let main_v1 : IVec S2097152 32 := shapeCast S2097152 main_v0 shapeCasts_S2097152x1_S2097152
  let main_v2 : IVec S2097152x1 32 := (extractStridedSlice S2097152x1 ![0, 1] · slices_S2097152x3_S2097152x1_0_1) main_arg1
  let main_v3 : IVec S2097152 32 := shapeCast S2097152 main_v2 shapeCasts_S2097152x1_S2097152
  let main_v4 : IVec S2097152x1 32 := (extractStridedSlice S2097152x1 ![0, 2] · slices_S2097152x3_S2097152x1_0_2) main_arg1
  let main_v5 : IVec S2097152 32 := shapeCast S2097152 main_v4 shapeCasts_S2097152x1_S2097152
  let main_v6 : IVec S12582912 32 := concatenate S12582912 0 [⟨S2097152, main_v1⟩, ⟨S2097152, main_v1⟩, ⟨S2097152, main_v3⟩, ⟨S2097152, main_v3⟩, ⟨S2097152, main_v5⟩, ⟨S2097152, main_v5⟩] concatenates_S2097152_S2097152_S2097152_S2097152_S2097152_S2097152_S12582912_d0
  let main_cst : FVec F S_ .f32 := constant S_ .f32 0x3F800000#32
  let main_v7 : FVec F S12582912 .f32 := broadcastInDim S12582912 ![] bcast_S_S12582912 main_cst
  let main_cst_0 : FVec F S_ .f32 := constant S_ .f32 0x00000000#32
  let main_v8 : FVec F S262144 .f32 := broadcastInDim S262144 ![] bcast_S_S262144 main_cst_0
  let main_v9 : IVec S12582912x1 32 := broadcastInDim S12582912x1 ![0] bcast_S12582912_S12582912x1_0 main_v6
  let main_v10 : FVec F S262144 .f32 := (fun x i u => Host.scatterAdd scatter_S262144_S12582912x1_S12582912_n_0_0_1 x i u) main_v8 main_v9 main_v7
  let main_v11 : FVec F S262144x3 .f32 := Host.absf main_arg0
  let main_cst_1 : FVec F S_ .f32 := constant S_ .f32 0x7F800000#32
  let main_v12 : FVec F S262144x3 .f32 := broadcastInDim S262144x3 ![] bcast_S_S262144x3 main_cst_1
  let main_v13 : IVec S262144x3 1 := cmpf .olt main_v11 main_v12
  let main_c : IVec S_ 1 := constantI S_ 1 1#1
  let main_v14 : IVec S_ 1 := (fun x v => Host.reduce IntOp.andi x v reducesTo_S262144x3_S_d0_1 h_S_) main_v13 main_c
  let main_c_2 : IVec S_ 32 := constantI S_ 32 0#32
  let main_v15 : IVec S2097152x3 32 := broadcastInDim S2097152x3 ![] bcast_S_S2097152x3 main_c_2
  let main_v16 : IVec S2097152x3 1 := cmpi .sge main_arg1 main_v15
  let main_c_3 : IVec S_ 32 := constantI S_ 32 262144#32
  let main_v17 : IVec S2097152x3 32 := broadcastInDim S2097152x3 ![] bcast_S_S2097152x3 main_c_3
  fn_part1 (F := F) main_arg1 main_v10 main_v14 main_v16 main_v17
-- ==== Kernel.lean ====
abbrev S262144x3 : Shape := ⟨2, ![262144, 3]⟩
abbrev S2097152x3 : Shape := ⟨2, ![2097152, 3]⟩
abbrev S2097152x1 : Shape := ⟨2, ![2097152, 1]⟩
abbrev S2097152 : Shape := ⟨1, ![2097152]⟩
abbrev S3x262144 : Shape := ⟨2, ![3, 262144]⟩
abbrev S_ : Shape := ⟨0, ![]⟩
abbrev S1 : Shape := ⟨1, ![1]⟩
abbrev S1x1 : Shape := ⟨2, ![1, 1]⟩
abbrev S3x2097152 : Shape := ⟨2, ![3, 2097152]⟩
abbrev S9x2097152 : Shape := ⟨2, ![9, 2097152]⟩
abbrev S3x32768 : Shape := ⟨2, ![3, 32768]⟩
abbrev S9x32768 : Shape := ⟨2, ![9, 32768]⟩
abbrev S32768 : Shape := ⟨1, ![32768]⟩
abbrev S1x32768 : Shape := ⟨2, ![1, 32768]⟩
abbrev S1x2097152 : Shape := ⟨2, ![1, 2097152]⟩
abbrev S2097152x5 : Shape := ⟨2, ![2097152, 5]⟩
abbrev S262144x5 : Shape := ⟨2, ![262144, 5]⟩
abbrev S5x262144 : Shape := ⟨2, ![5, 262144]⟩
abbrev S2x262144 : Shape := ⟨2, ![2, 262144]⟩
abbrev S2x32768 : Shape := ⟨2, ![2, 32768]⟩

abbrev nBuf : Space → Nat
  | .hbm => 123
  | .vmem => 18
  | .smem => 0
  | _ => 0

abbrev bufTy : (tb : Table) → Fin (tcTables nBuf tb) → BufTy
  | .hbm, ⟨0, _⟩ => ⟨S262144x3, .f32⟩
  | .hbm, ⟨1, _⟩ => ⟨S2097152x3, .i32⟩
  | .hbm, ⟨2, _⟩ => ⟨S2097152x1, .i32⟩
  | .hbm, ⟨3, _⟩ => ⟨S2097152, .i32⟩
  | .hbm, ⟨4, _⟩ => ⟨S2097152x1, .i32⟩
  | .hbm, ⟨5, _⟩ => ⟨S2097152, .i32⟩
  | .hbm, ⟨6, _⟩ => ⟨S2097152x1, .i32⟩
  | .hbm, ⟨7, _⟩ => ⟨S2097152, .i32⟩
  | .hbm, ⟨8, _⟩ => ⟨S3x262144, .f32⟩
  | .hbm, ⟨9, _⟩ => ⟨S_, .i32⟩
  | .hbm, ⟨10, _⟩ => ⟨S2097152, .i32⟩
  | .hbm, ⟨11, _⟩ => ⟨S2097152, .i1⟩
  | .hbm, ⟨12, _⟩ => ⟨S_, .i32⟩
  | .hbm, ⟨13, _⟩ => ⟨S2097152, .i32⟩
  | .hbm, ⟨14, _⟩ => ⟨S2097152, .i32⟩
  | .hbm, ⟨15, _⟩ => ⟨S2097152, .i32⟩
  | .hbm, ⟨16, _⟩ => ⟨S2097152x1, .i32⟩
  | .hbm, ⟨17, _⟩ => ⟨S1, .i32⟩
  | .hbm, ⟨18, _⟩ => ⟨S_, .i32⟩
  | .hbm, ⟨19, _⟩ => ⟨S2097152x1, .i32⟩
  | .hbm, ⟨20, _⟩ => ⟨S2097152x1, .i1⟩
  | .hbm, ⟨21, _⟩ => ⟨S1x1, .i32⟩
  | .hbm, ⟨22, _⟩ => ⟨S2097152x1, .i32⟩
  | .hbm, ⟨23, _⟩ => ⟨S2097152x1, .i1⟩
  | .hbm, ⟨24, _⟩ => ⟨S2097152x1, .i1⟩
  | .hbm, ⟨25, _⟩ => ⟨S_, .i1⟩
  | .hbm, ⟨26, _⟩ => ⟨S2097152, .i1⟩
  | .hbm, ⟨27, _⟩ => ⟨S3x2097152, .f32⟩
  | .hbm, ⟨28, _⟩ => ⟨S3x2097152, .i1⟩
  | .hbm, ⟨29, _⟩ => ⟨S_, .f32⟩
  | .hbm, ⟨30, _⟩ => ⟨S3x2097152, .f32⟩
  | .hbm, ⟨31, _⟩ => ⟨S3x2097152, .f32⟩
  | .hbm, ⟨32, _⟩ => ⟨S_, .i32⟩
  | .hbm, ⟨33, _⟩ => ⟨S2097152, .i32⟩
  | .hbm, ⟨34, _⟩ => ⟨S2097152, .i1⟩
  | .hbm, ⟨35, _⟩ => ⟨S_, .i32⟩
  | .hbm, ⟨36, _⟩ => ⟨S2097152, .i32⟩
  | .hbm, ⟨37, _⟩ => ⟨S2097152, .i32⟩
  | .hbm, ⟨38, _⟩ => ⟨S2097152, .i32⟩
  | .hbm, ⟨39, _⟩ => ⟨S2097152x1, .i32⟩
  | .hbm, ⟨40, _⟩ => ⟨S1, .i32⟩
  | .hbm, ⟨41, _⟩ => ⟨S_, .i32⟩
  | .hbm, ⟨42, _⟩ => ⟨S2097152x1, .i32⟩
  | .hbm, ⟨43, _⟩ => ⟨S2097152x1, .i1⟩
  | .hbm, ⟨44, _⟩ => ⟨S1x1, .i32⟩
  | .hbm, ⟨45, _⟩ => ⟨S2097152x1, .i32⟩
  | .hbm, ⟨46, _⟩ => ⟨S2097152x1, .i1⟩
  | .hbm, ⟨47, _⟩ => ⟨S2097152x1, .i1⟩
  | .hbm, ⟨48, _⟩ => ⟨S_, .i1⟩
  | .hbm, ⟨49, _⟩ => ⟨S2097152, .i1⟩
  | .hbm, ⟨50, _⟩ => ⟨S3x2097152, .f32⟩
  | .hbm, ⟨51, _⟩ => ⟨S3x2097152, .i1⟩
  | .hbm, ⟨52, _⟩ => ⟨S_, .f32⟩
  | .hbm, ⟨53, _⟩ => ⟨S3x2097152, .f32⟩
  | .hbm, ⟨54, _⟩ => ⟨S3x2097152, .f32⟩
  | .hbm, ⟨55, _⟩ => ⟨S_, .i32⟩
  | .hbm, ⟨56, _⟩ => ⟨S2097152, .i32⟩
  | .hbm, ⟨57, _⟩ => ⟨S2097152, .i1⟩
  | .hbm, ⟨58, _⟩ => ⟨S_, .i32⟩
  | .hbm, ⟨59, _⟩ => ⟨S2097152, .i32⟩
  | .hbm, ⟨60, _⟩ => ⟨S2097152, .i32⟩
  | .hbm, ⟨61, _⟩ => ⟨S2097152, .i32⟩
  | .hbm, ⟨62, _⟩ => ⟨S2097152x1, .i32⟩
  | .hbm, ⟨63, _⟩ => ⟨S1, .i32⟩
  | .hbm, ⟨64, _⟩ => ⟨S_, .i32⟩
  | .hbm, ⟨65, _⟩ => ⟨S2097152x1, .i32⟩
  | .hbm, ⟨66, _⟩ => ⟨S2097152x1, .i1⟩
  | .hbm, ⟨67, _⟩ => ⟨S1x1, .i32⟩
  | .hbm, ⟨68, _⟩ => ⟨S2097152x1, .i32⟩
  | .hbm, ⟨69, _⟩ => ⟨S2097152x1, .i1⟩
  | .hbm, ⟨70, _⟩ => ⟨S2097152x1, .i1⟩
  | .hbm, ⟨71, _⟩ => ⟨S_, .i1⟩
  | .hbm, ⟨72, _⟩ => ⟨S2097152, .i1⟩
  | .hbm, ⟨73, _⟩ => ⟨S3x2097152, .f32⟩
  | .hbm, ⟨74, _⟩ => ⟨S3x2097152, .i1⟩
  | .hbm, ⟨75, _⟩ => ⟨S_, .f32⟩
  | .hbm, ⟨76, _⟩ => ⟨S3x2097152, .f32⟩
  | .hbm, ⟨77, _⟩ => ⟨S3x2097152, .f32⟩
  | .hbm, ⟨78, _⟩ => ⟨S9x2097152, .f32⟩
  | .hbm, ⟨79, _⟩ => ⟨S3x2097152, .f32⟩
  | .hbm, ⟨80, _⟩ => ⟨S3x2097152, .f32⟩
  | .hbm, ⟨81, _⟩ => ⟨S2097152x3, .f32⟩
  | .hbm, ⟨82, _⟩ => ⟨S_, .f32⟩
  | .hbm, ⟨83, _⟩ => ⟨S2097152x1, .f32⟩
  | .hbm, ⟨84, _⟩ => ⟨S1x2097152, .f32⟩
  | .hbm, ⟨85, _⟩ => ⟨S2097152, .f32⟩
  | .hbm, ⟨86, _⟩ => ⟨S2097152x1, .f32⟩
  | .hbm, ⟨87, _⟩ => ⟨S2097152x5, .f32⟩
  | .hbm, ⟨88, _⟩ => ⟨S_, .f32⟩
  | .hbm, ⟨89, _⟩ => ⟨S262144x5, .f32⟩
  | .hbm, ⟨90, _⟩ => ⟨S2097152x1, .i32⟩
  | .hbm, ⟨91, _⟩ => ⟨S262144x5, .f32⟩
  | .hbm, ⟨92, _⟩ => ⟨S3x2097152, .f32⟩
  | .hbm, ⟨93, _⟩ => ⟨S2097152x3, .f32⟩
  | .hbm, ⟨94, _⟩ => ⟨S_, .f32⟩
  | .hbm, ⟨95, _⟩ => ⟨S2097152x1, .f32⟩
  | .hbm, ⟨96, _⟩ => ⟨S1x2097152, .f32⟩
  | .hbm, ⟨97, _⟩ => ⟨S2097152, .f32⟩
  | .hbm, ⟨98, _⟩ => ⟨S2097152x1, .f32⟩
  | .hbm, ⟨99, _⟩ => ⟨S2097152x5, .f32⟩
  | .hbm, ⟨100, _⟩ => ⟨S_, .f32⟩
  | .hbm, ⟨101, _⟩ => ⟨S262144x5, .f32⟩
  | .hbm, ⟨102, _⟩ => ⟨S2097152x1, .i32⟩
  | .hbm, ⟨103, _⟩ => ⟨S262144x5, .f32⟩
  | .hbm, ⟨104, _⟩ => ⟨S262144x5, .f32⟩
  | .hbm, ⟨105, _⟩ => ⟨S3x2097152, .f32⟩
  | .hbm, ⟨106, _⟩ => ⟨S2097152x3, .f32⟩
  | .hbm, ⟨107, _⟩ => ⟨S_, .f32⟩
  | .hbm, ⟨108, _⟩ => ⟨S2097152x1, .f32⟩
  | .hbm, ⟨109, _⟩ => ⟨S1x2097152, .f32⟩
  | .hbm, ⟨110, _⟩ => ⟨S2097152, .f32⟩
  | .hbm, ⟨111, _⟩ => ⟨S2097152x1, .f32⟩
  | .hbm, ⟨112, _⟩ => ⟨S2097152x5, .f32⟩
  | .hbm, ⟨113, _⟩ => ⟨S_, .f32⟩
  | .hbm, ⟨114, _⟩ => ⟨S262144x5, .f32⟩
  | .hbm, ⟨115, _⟩ => ⟨S2097152x1, .i32⟩
  | .hbm, ⟨116, _⟩ => ⟨S262144x5, .f32⟩
  | .hbm, ⟨117, _⟩ => ⟨S262144x5, .f32⟩
  | .hbm, ⟨118, _⟩ => ⟨S5x262144, .f32⟩
  | .hbm, ⟨119, _⟩ => ⟨S3x262144, .f32⟩
  | .hbm, ⟨120, _⟩ => ⟨S2x262144, .f32⟩
  | .hbm, ⟨121, _⟩ => ⟨S1x1, .f32⟩
  | .hbm, ⟨122, _⟩ => ⟨S_, .f32⟩
  | .local _ .vmem, ⟨0, _⟩ => ⟨S3x32768, .f32⟩
  | .local _ .vmem, ⟨1, _⟩ => ⟨S3x32768, .f32⟩
  | .local _ .vmem, ⟨2, _⟩ => ⟨S3x32768, .f32⟩
  | .local _ .vmem, ⟨3, _⟩ => ⟨S3x32768, .f32⟩
  | .local _ .vmem, ⟨4, _⟩ => ⟨S3x32768, .f32⟩
  | .local _ .vmem, ⟨5, _⟩ => ⟨S3x32768, .f32⟩
  | .local _ .vmem, ⟨6, _⟩ => ⟨S9x32768, .f32⟩
  | .local _ .vmem, ⟨7, _⟩ => ⟨S9x32768, .f32⟩
  | .local _ .vmem, ⟨8, _⟩ => ⟨S3x32768, .f32⟩
  | .local _ .vmem, ⟨9, _⟩ => ⟨S3x32768, .f32⟩
  | .local _ .vmem, ⟨10, _⟩ => ⟨S3x32768, .f32⟩
  | .local _ .vmem, ⟨11, _⟩ => ⟨S3x32768, .f32⟩
  | .local _ .vmem, ⟨12, _⟩ => ⟨S3x32768, .f32⟩
  | .local _ .vmem, ⟨13, _⟩ => ⟨S3x32768, .f32⟩
  | .local _ .vmem, ⟨14, _⟩ => ⟨S2x32768, .f32⟩
  | .local _ .vmem, ⟨15, _⟩ => ⟨S2x32768, .f32⟩
  | .local _ .vmem, ⟨16, _⟩ => ⟨S1x1, .f32⟩
  | .local _ .vmem, ⟨17, _⟩ => ⟨S1x1, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v7 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v8 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v9 : Ref sig .tc := ⟨.hbm, 77, rfl⟩
abbrev main_v10_0 : Ref sig .tc := ⟨.hbm, 78, rfl⟩
abbrev main_v10_1 : Ref sig .tc := ⟨.hbm, 79, rfl⟩
abbrev main_v11 : Ref sig .tc := ⟨.hbm, 80, rfl⟩
abbrev main_v12 : Ref sig .tc := ⟨.hbm, 81, rfl⟩
abbrev main_cst : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_cst_0 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩
abbrev main_v22 : Ref sig .tc := ⟨.hbm, 93, rfl⟩
abbrev main_cst_1 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_cst_2 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_cst_3 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_cst_4 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S9x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v29 : BitVec 1 := Scalar.cmpi .eq arg0 c7_i32
  let v30 : BitVec 32 := Scalar.extui v29
  let c0_i32_13 : BitVec 32 := 0#32
  let v31 : BitVec 1 := Scalar.cmpi .ne v30 c0_i32_13
  v31

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  transposes_S262144x3_S3x262144_1_0 : S262144x3.Transposes [1, 0] S3x262144
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S3x2097152_1 : S2097152.BroadcastsInDim S3x2097152 (![1] : Fin 1 → Fin S3x2097152.rank)
  bcast_S_S3x2097152 : S_.BroadcastsInDim S3x2097152 (![] : Fin 0 → Fin S3x2097152.rank)
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  reduces_S3x32768_S32768 : S3x32768.Reduces [0] S32768
  shapeCasts_S32768_S1x32768 : S32768.ShapeCasts S1x32768
  inb_S9x32768_S3x32768_0_0 : ∀ a, (![0, 0] : Fin 2 → Nat) a + S3x32768.size a ≤ S9x32768.size a
  inb_S9x32768_S3x32768_3_0 : ∀ a, (![3, 0] : Fin 2 → Nat) a + S3x32768.size a ≤ S9x32768.size a
  inb_S9x32768_S3x32768_6_0 : ∀ a, (![6, 0] : Fin 2 → Nat) a + S3x32768.size a ≤ S9x32768.size a
  inb_S3x32768_S1x32768_0_0 : ∀ a, (![0, 0] : Fin 2 → Nat) a + S1x32768.size a ≤ S3x32768.size a
  h_S1x32768 : 0 < S1x32768.numel
  inb_S3x32768_S1x32768_1_0 : ∀ a, (![1, 0] : Fin 2 → Nat) a + S1x32768.size a ≤ S3x32768.size a
  inb_S3x32768_S1x32768_2_0 : ∀ a, (![2, 0] : Fin 2 → Nat) a + S1x32768.size a ≤ S3x32768.size a
  slices_S9x2097152_S3x2097152_0_0 : S9x2097152.Slices ![0, 0] S3x2097152
  transposes_S3x2097152_S2097152x3_1_0 : S3x2097152.Transposes [1, 0] S2097152x3
  slices_S3x2097152_S1x2097152_0_0 : S3x2097152.Slices ![0, 0] S1x2097152
  shapeCasts_S1x2097152_S2097152 : S1x2097152.ShapeCasts S2097152
  concatenates_S2097152x3_S2097152x1_S2097152x1_S2097152x5_d1 : Shape.Concatenates [S2097152x3, S2097152x1, S2097152x1] S2097152x5 1
  bcast_S_S262144x5 : S_.BroadcastsInDim S262144x5 (![] : Fin 0 → Fin S262144x5.rank)
  slices_S9x2097152_S3x2097152_3_0 : S9x2097152.Slices ![3, 0] S3x2097152
  slices_S3x2097152_S1x2097152_1_0 : S3x2097152.Slices ![1, 0] S1x2097152
  slices_S9x2097152_S3x2097152_6_0 : S9x2097152.Slices ![6, 0] S3x2097152
  slices_S3x2097152_S1x2097152_2_0 : S3x2097152.Slices ![2, 0] S1x2097152
  transposes_S262144x5_S5x262144_1_0 : S262144x5.Transposes [1, 0] S5x262144
  slices_S5x262144_S3x262144_0_0 : S5x262144.Slices ![0, 0] S3x262144
  slices_S5x262144_S2x262144_3_0 : S5x262144.Slices ![3, 0] S2x262144
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x32768_S1x32768_0_0 : ∀ a, (![0, 0] : Fin 2 → Nat) a + S1x32768.size a ≤ S2x32768.size a
  shapeCasts_S1x32768_S1x32768 : S1x32768.ShapeCasts S1x32768
  inb_S2x32768_S1x32768_1_0 : ∀ a, (![1, 0] : Fin 2 → Nat) a + S1x32768.size a ≤ S2x32768.size a
  broadcasts_S1x32768_S3x32768 : S1x32768.Broadcasts S3x32768
  reduces_S1x32768_S1 : S1x32768.Reduces [1] S1
  shapeCasts_S1_S1x1 : S1.ShapeCasts S1x1
  shapeCasts_S1x1_S_ : S1x1.ShapeCasts S_
  gather_S3x262144_S2097152x1_S3x2097152_0_1_n_n_1_1_31_wf : GatherDims.WF S3x262144 S2097152x1 S3x2097152 [0] [1] [] [1] [] 1 ![3, 1]
  scatter_S262144x5_S2097152x1_S2097152x5_1_0_0_1_wf : ScatterDims.WF S262144x5 S2097152x1 S2097152x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x2097152.size a
  hwx0_0 : ∀ i : grid0.Coords, EltTy.bits .f32 = 32 ∨ (Rect.block (s := S3x2097152) S3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x2097152.size a
  hwx0_1 : ∀ i : grid0.Coords, EltTy.bits .f32 = 32 ∨ (Rect.block (s := S3x2097152) S3x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x32768.size a ≤ S3x2097152.size a
  hwx0_2 : ∀ i : grid0.Coords, EltTy.bits .f32 = 32 ∨ (Rect.block (s := S3x2097152) S3x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S9x32768.size a ≤ S9x2097152.size a
  hwx0_3 : ∀ i : grid0.Coords, EltTy.bits .f32 = 32 ∨ (Rect.block (s := S9x2097152) S9x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x32768.size a ≤ S3x2097152.size a
  hwx0_4 : ∀ i : grid0.Coords, EltTy.bits .f32 = 32 ∨ (Rect.block (s := S3x2097152) S3x32768.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x32768.size a ≤ S3x262144.size a
  hwx1_0 : ∀ i : grid1.Coords, EltTy.bits .f32 = 32 ∨ (Rect.block (s := S3x262144) S3x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x32768.size a ≤ S3x262144.size a
  hwx1_1 : ∀ i : grid1.Coords, EltTy.bits .f32 = 32 ∨ (Rect.block (s := S3x262144) S3x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x32768.size a ≤ S2x262144.size a
  hwx1_2 : ∀ i : grid1.Coords, EltTy.bits .f32 = 32 ∨ (Rect.block (s := S2x262144) S2x32768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def gather_S3x262144_S2097152x1_S3x2097152_0_1_n_n_1_1_31 : GatherDims S3x262144 S2097152x1 S3x2097152 where
  offsetDims := [0]
  collapsedSliceDims := [1]
  operandBatchingDims := []
  startIndicesBatchingDims := []
  startIndexMap := [1]
  indexVectorDim := 1
  sliceSizes := ![3, 1]
  wf := gather_S3x262144_S2097152x1_S3x2097152_0_1_n_n_1_1_31_wf
def scatter_S262144x5_S2097152x1_S2097152x5_1_0_0_1 : ScatterDims S262144x5 S2097152x1 S2097152x5 where
  updateWindowDims := [1]
  insertedWindowDims := [0]
  scatterDimsToOperandDims := [0]
  indexVectorDim := 1
  wf := scatter_S262144x5_S2097152x1_S2097152x5_1_0_0_1_wf

abbrev win0_0 : Pipeline.Window sig grid0 :=
  Pipeline.Window.ofSpec (Memref.whole main_v7) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S9x32768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S3x32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S3x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S3x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2x32768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S262144x3 : Shape := ⟨2, ![262144, 3]⟩
abbrev S2097152x3 : Shape := ⟨2, ![2097152, 3]⟩
abbrev S2097152x1 : Shape := ⟨2, ![2097152, 1]⟩
abbrev S2097152 : Shape := ⟨1, ![2097152]⟩
abbrev S_ : Shape := ⟨0, ![]⟩
abbrev S12582912 : Shape := ⟨1, ![12582912]⟩
abbrev S12582912x3 : Shape := ⟨2, ![12582912, 3]⟩
abbrev S12582912x1 : Shape := ⟨2, ![12582912, 1]⟩
abbrev S262144 : Shape := ⟨1, ![262144]⟩
abbrev S262144x1 : Shape := ⟨2, ![262144, 1]⟩

abbrev nBuf : Space → Nat
  | .hbm => 93
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S2097152x3, .i32⟩
  | .hbm, ⟨2, _⟩ => ⟨S2097152x1, .i32⟩
  | .hbm, ⟨3, _⟩ => ⟨S2097152, .i32⟩
  | .hbm, ⟨4, _⟩ => ⟨S2097152x1, .i32⟩
  | .hbm, ⟨5, _⟩ => ⟨S2097152, .i32⟩
  | .hbm, ⟨6, _⟩ => ⟨S2097152x1, .i32⟩
  | .hbm, ⟨7, _⟩ => ⟨S2097152, .i32⟩
  | .hbm, ⟨8, _⟩ => ⟨S_, .i32⟩
  | .hbm, ⟨9, _⟩ => ⟨S2097152, .i32⟩
  | .hbm, ⟨10, _⟩ => ⟨S2097152, .i1⟩
  | .hbm, ⟨11, _⟩ => ⟨S_, .i32⟩
  | .hbm, ⟨12, _⟩ => ⟨S2097152, .i32⟩
  | .hbm, ⟨13, _⟩ => ⟨S2097152, .i32⟩
  | .hbm, ⟨14, _⟩ => ⟨S2097152, .i32⟩
  | .hbm, ⟨15, _⟩ => ⟨S2097152x1, .i32⟩
  | .hbm, ⟨16, _⟩ => ⟨S2097152x3, .f32⟩
  | .hbm, ⟨17, _⟩ => ⟨S_, .i32⟩
  | .hbm, ⟨18, _⟩ => ⟨S2097152, .i32⟩
  | .hbm, ⟨19, _⟩ => ⟨S2097152, .i1⟩
  | .hbm, ⟨20, _⟩ => ⟨S_, .i32⟩
  | .hbm, ⟨21, _⟩ => ⟨S2097152, .i32⟩
  | .hbm, ⟨22, _⟩ => ⟨S2097152, .i32⟩
  | .hbm, ⟨23, _⟩ => ⟨S2097152, .i32⟩
  | .hbm, ⟨24, _⟩ => ⟨S2097152x1, .i32⟩
  | .hbm, ⟨25, _⟩ => ⟨S2097152x3, .f32⟩
  | .hbm, ⟨26, _⟩ => ⟨S_, .i32⟩
  | .hbm, ⟨27, _⟩ => ⟨S2097152, .i32⟩
  | .hbm, ⟨28, _⟩ => ⟨S2097152, .i1⟩
  | .hbm, ⟨29, _⟩ => ⟨S_, .i32⟩
  | .hbm, ⟨30, _⟩ => ⟨S2097152, .i32⟩
  | .hbm, ⟨31, _⟩ => ⟨S2097152, .i32⟩
  | .hbm, ⟨32, _⟩ => ⟨S2097152, .i32⟩
  | .hbm, ⟨33, _⟩ => ⟨S2097152x1, .i32⟩
  | .hbm, ⟨34, _⟩ => ⟨S2097152x3, .f32⟩
  | .hbm, ⟨35, _⟩ => ⟨S12582912, .i32⟩
  | .hbm, ⟨36, _⟩ => ⟨S12582912x3, .f32⟩
  | .hbm, ⟨37, _⟩ => ⟨S_, .f32⟩
  | .hbm, ⟨38, _⟩ => ⟨S262144x3, .f32⟩
  | .hbm, ⟨39, _⟩ => ⟨S12582912x1, .i32⟩
  | .hbm, ⟨40, _⟩ => ⟨S262144x3, .f32⟩
  | .hbm, ⟨41, _⟩ => ⟨S_, .f32⟩
  | .hbm, ⟨42, _⟩ => ⟨S12582912, .f32⟩
  | .hbm, ⟨43, _⟩ => ⟨S_, .f32⟩
  | .hbm, ⟨44, _⟩ => ⟨S262144, .f32⟩
  | .hbm, ⟨45, _⟩ => ⟨S12582912x1, .i32⟩
  | .hbm, ⟨46, _⟩ => ⟨S262144, .f32⟩
  | .hbm, ⟨47, _⟩ => ⟨S262144x1, .f32⟩
  | .hbm, ⟨48, _⟩ => ⟨S262144x3, .f32⟩
  | .hbm, ⟨49, _⟩ => ⟨S262144x3, .f32⟩
  | .hbm, ⟨50, _⟩ => ⟨S2097152x3, .f32⟩
  | .hbm, ⟨51, _⟩ => ⟨S2097152x3, .f32⟩
  | .hbm, ⟨52, _⟩ => ⟨S_, .f32⟩
  | .hbm, ⟨53, _⟩ => ⟨S2097152, .f32⟩
  | .hbm, ⟨54, _⟩ => ⟨S2097152, .f32⟩
  | .hbm, ⟨55, _⟩ => ⟨S2097152x3, .f32⟩
  | .hbm, ⟨56, _⟩ => ⟨S2097152x3, .f32⟩
  | .hbm, ⟨57, _⟩ => ⟨S_, .f32⟩
  | .hbm, ⟨58, _⟩ => ⟨S2097152, .f32⟩
  | .hbm, ⟨59, _⟩ => ⟨S2097152, .f32⟩
  | .hbm, ⟨60, _⟩ => ⟨S2097152x3, .f32⟩
  | .hbm, ⟨61, _⟩ => ⟨S2097152x3, .f32⟩
  | .hbm, ⟨62, _⟩ => ⟨S_, .f32⟩
  | .hbm, ⟨63, _⟩ => ⟨S2097152, .f32⟩
  | .hbm, ⟨64, _⟩ => ⟨S2097152, .f32⟩
  | .hbm, ⟨65, _⟩ => ⟨S12582912, .i32⟩
  | .hbm, ⟨66, _⟩ => ⟨S12582912, .f32⟩
  | .hbm, ⟨67, _⟩ => ⟨S_, .f32⟩
  | .hbm, ⟨68, _⟩ => ⟨S262144, .f32⟩
  | .hbm, ⟨69, _⟩ => ⟨S12582912x1, .i32⟩
  | .hbm, ⟨70, _⟩ => ⟨S262144, .f32⟩
  | .hbm, ⟨71, _⟩ => ⟨S_, .f32⟩
  | .hbm, ⟨72, _⟩ => ⟨S12582912, .f32⟩
  | .hbm, ⟨73, _⟩ => ⟨S_, .f32⟩
  | .hbm, ⟨74, _⟩ => ⟨S262144, .f32⟩
  | .hbm, ⟨75, _⟩ => ⟨S12582912x1, .i32⟩
  | .hbm, ⟨76, _⟩ => ⟨S262144, .f32⟩
  | .hbm, ⟨77, _⟩ => ⟨S262144, .f32⟩
  | .hbm, ⟨78, _⟩ => ⟨S262144x3, .f32⟩
  | .hbm, ⟨79, _⟩ => ⟨S_, .f32⟩
  | .hbm, ⟨80, _⟩ => ⟨S262144x3, .f32⟩
  | .hbm, ⟨81, _⟩ => ⟨S262144x3, .f32⟩
  | .hbm, ⟨82, _⟩ => ⟨S262144x1, .f32⟩
  | .hbm, ⟨83, _⟩ => ⟨S262144x3, .f32⟩
  | .hbm, ⟨84, _⟩ => ⟨S262144x3, .f32⟩
  | .hbm, ⟨85, _⟩ => ⟨S262144x3, .f32⟩
  | .hbm, ⟨86, _⟩ => ⟨S_, .f32⟩
  | .hbm, ⟨87, _⟩ => ⟨S262144, .f32⟩
  | .hbm, ⟨88, _⟩ => ⟨S262144, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩

abbrev nD : Nat := 1
abbrev τ : Topo := Topo.v7x

variable {F : FTy → Type} [FloatOps F]

class Facts₀ : Prop where
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152_S2097152_S2097152_S2097152_S2097152_S2097152_S12582912_d0 : Shape.Concatenates [S2097152, S2097152, S2097152, S2097152, S2097152, S2097152] S12582912 0
  concatenates_S2097152x3_S2097152x3_S2097152x3_S2097152x3_S2097152x3_S2097152x3_S12582912x3_d0 : Shape.Concatenates [S2097152x3, S2097152x3, S2097152x3, S2097152x3, S2097152x3, S2097152x3] S12582912x3 0
  bcast_S_S262144x3 : S_.BroadcastsInDim S262144x3 (![] : Fin 0 → Fin S262144x3.rank)
  bcast_S12582912_S12582912x1_0 : S12582912.BroadcastsInDim S12582912x1 (![0] : Fin 1 → Fin S12582912x1.rank)
  bcast_S_S12582912 : S_.BroadcastsInDim S12582912 (![] : Fin 0 → Fin S12582912.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)
  reducesTo_S2097152x3_S2097152_d1 : S2097152x3.ReducesTo [1] S2097152
  h_S_ : 0 < S_.numel
  reducesTo_S262144x3_S262144_d1 : S262144x3.ReducesTo [1] S262144
  reducesTo_S262144_S_d0 : S262144.ReducesTo [0] S_
  gather_S262144x3_S2097152x1_S2097152x3_1_0_n_n_0_1_13_wf : GatherDims.WF S262144x3 S2097152x1 S2097152x3 [1] [0] [] [0] [] 1 ![1, 3]
  scatter_S262144x3_S12582912x1_S12582912x3_1_0_0_1_wf : ScatterDims.WF S262144x3 S12582912x1 S12582912x3 [1] [0] [0] 1
  scatter_S262144_S12582912x1_S12582912_n_0_0_1_wf : ScatterDims.WF S262144 S12582912x1 S12582912 [] [0] [0] 1

variable [Facts₀]

def gather_S262144x3_S2097152x1_S2097152x3_1_0_n_n_0_1_13 : GatherDims S262144x3 S2097152x1 S2097152x3 where
  offsetDims := [1]
  collapsedSliceDims := [0]
  operandBatchingDims := []
  startIndicesBatchingDims := []
  startIndexMap := [0]
  indexVectorDim := 1
  sliceSizes := ![1, 3]
  wf := gather_S262144x3_S2097152x1_S2097152x3_1_0_n_n_0_1_13_wf
def scatter_S262144x3_S12582912x1_S12582912x3_1_0_0_1 : ScatterDims S262144x3 S12582912x1 S12582912x3 where
  updateWindowDims := [1]
  insertedWindowDims := [0]
  scatterDimsToOperandDims := [0]
  indexVectorDim := 1
  wf := scatter_S262144x3_S12582912x1_S12582912x3_1_0_0_1_wf
def scatter_S262144_S12582912x1_S12582912_n_0_0_1 : ScatterDims S262144 S12582912x1 S12582912 where
  updateWindowDims := []
  insertedWindowDims := [0]
  scatterDimsToOperandDims := [0]
  indexVectorDim := 1
  wf := scatter_S262144_S12582912x1_S12582912_n_0_0_1_wf

class Facts : Prop extends Facts₀ where

variable [Facts]
-- ==== Proof.Spec.lean ====
/-
  The mathematics both programs compute, as plain functions on the extended reals.

  A mesh has 262144 vertices in space and 2097152 triangular faces, a face naming its three corner vertices
  (slots 0, 1, 2). Every corner of a face receives the other two corners' positions (the mesh Laplacian's
  neighbour total) and the lengths of the two edges that meet at it; per vertex these are totalled over all
  faces, together with how many contributions arrived. A vertex's error is the Euclidean norm of its offset
  from its neighbours' mean, measured in units of the mean length of its edges; the result is the mean error.

  The two programs organise the totals differently. One (prefix k) totals, slot by slot, a face's PAIR sums
  (the two other corners added first; a count of two; the two edge lengths added first) and forms the error as
  (v * count - total) / edgeTotal. The other (prefix r) totals single contributions in six passes and forms
  (v - total / count) / (edgeTotal / edgeCount). Indices are in range here: a face's corner is a Fin 262144.
-/
import Idealize.ShloMosaic.PureOps.Ideal

noncomputable section

open scoped BigOperators

namespace Cert.Spec

open Idealize.ShloMosaic

/-- Number of vertices. -/
abbrev NV : ℕ := 262144
/-- Number of faces. -/
abbrev NF : ℕ := 2097152

/-- The float words the programs carry, read as extended reals: 1, 2, 2^18 and 2^-18. -/
def cOne : EReal := Ideal.ofBits .f32 0x3F800000#32
def cTwo : EReal := Ideal.ofBits .f32 0x40000000#32
def cN : EReal := Ideal.ofBits .f32 0x48800000#32
def cInvN : EReal := Ideal.ofBits .f32 0x36800000#32

variable (vtx : Fin NV → Fin 3 → EReal) (idx : Fin NF → Fin 3 → Fin NV)

/-- Coordinate `k` of the vertex at corner `s` of face `f`. -/
def vert (s : Fin 3) (f : Fin NF) (k : Fin 3) : EReal := vtx (idx f s) k

/-- Length of the edge of face `f` from corner `a` to corner `b`. -/
def elen (a b : Fin 3) (f : Fin NF) : EReal :=
  Ideal.sqrt (∑ k : Fin 3, (vert vtx idx b f k - vert vtx idx a f k) * (vert vtx idx b f k - vert vtx idx a f k))

/-- Total of `val f` over the faces whose corner `s` is vertex `n`. -/
def ssum (s : Fin 3) (val : Fin NF → EReal) (n : Fin NV) : EReal :=
  ∑ f : Fin NF, if idx f s = n then val f else 0

/-! ## Totals of pair sums, slot by slot -/

def ktot (n : Fin NV) (k : Fin 3) : EReal :=
  ssum idx 0 (fun f => vert vtx idx 1 f k + vert vtx idx 2 f k) n
    + ssum idx 1 (fun f => vert vtx idx 0 f k + vert vtx idx 2 f k) n
    + ssum idx 2 (fun f => vert vtx idx 0 f k + vert vtx idx 1 f k) n

def kcnt (n : Fin NV) : EReal :=
  ssum idx 0 (fun _ => cTwo) n + ssum idx 1 (fun _ => cTwo) n + ssum idx 2 (fun _ => cTwo) n

def kel (n : Fin NV) : EReal :=
  ssum idx 0 (fun f => elen vtx idx 0 1 f + elen vtx idx 0 2 f) n
    + ssum idx 1 (fun f => elen vtx idx 0 1 f + elen vtx idx 1 2 f) n
    + ssum idx 2 (fun f => elen vtx idx 0 2 f + elen vtx idx 1 2 f) n

def kscaled (n : Fin NV) (k : Fin 3) : EReal :=
  Ideal.div (vtx n k * kcnt idx n - ktot vtx idx n k) (kel vtx idx n) * cOne

def kerr (n : Fin NV) : EReal := Ideal.sqrt (∑ k : Fin 3, kscaled vtx idx n k * kscaled vtx idx n k)

def kloss : EReal := (∑ n : Fin NV, kerr vtx idx n) * cInvN

/-! ## Totals of single contributions, six passes -/

def rtot (n : Fin NV) (k : Fin 3) : EReal :=
  ssum idx 0 (fun f => vert vtx idx 1 f k) n + ssum idx 0 (fun f => vert vtx idx 2 f k) n
    + ssum idx 1 (fun f => vert vtx idx 0 f k) n + ssum idx 1 (fun f => vert vtx idx 2 f k) n
    + ssum idx 2 (fun f => vert vtx idx 0 f k) n + ssum idx 2 (fun f => vert vtx idx 1 f k) n

def rcnt (n : Fin NV) : EReal :=
  ssum idx 0 (fun _ => cOne) n + ssum idx 0 (fun _ => cOne) n
    + ssum idx 1 (fun _ => cOne) n + ssum idx 1 (fun _ => cOne) n
    + ssum idx 2 (fun _ => cOne) n + ssum idx 2 (fun _ => cOne) n

def rel (n : Fin NV) : EReal :=
  ssum idx 0 (elen vtx idx 0 1) n + ssum idx 1 (elen vtx idx 0 1) n
    + ssum idx 0 (elen vtx idx 0 2) n + ssum idx 2 (elen vtx idx 0 2) n
    + ssum idx 1 (elen vtx idx 1 2) n + ssum idx 2 (elen vtx idx 1 2) n

def relcnt (n : Fin NV) : EReal :=
  ssum idx 0 (fun _ => cOne) n + ssum idx 1 (fun _ => cOne) n
    + ssum idx 0 (fun _ => cOne) n + ssum idx 2 (fun _ => cOne) n
    + ssum idx 1 (fun _ => cOne) n + ssum idx 2 (fun _ => cOne) n

def rlap (n : Fin NV) (k : Fin 3) : EReal := Ideal.div (rtot vtx idx n k) (rcnt idx n)

def ravg (n : Fin NV) : EReal := Ideal.div (rel vtx idx n) (relcnt idx n)

def rlossv (n : Fin NV) (k : Fin 3) : EReal :=
  Ideal.div ((vtx n k - rlap vtx idx n k) * cOne) (ravg vtx idx n)

def rerr (n : Fin NV) : EReal := Ideal.sqrt (∑ k : Fin 3, rlossv vtx idx n k * rlossv vtx idx n k)

def rloss : EReal := Ideal.div (∑ n : Fin NV, rerr vtx idx n) cN

/-! ## From buffer contents to the functions above -/

/-- The vertex array's contents as a function of vertex and coordinate. -/
def vtxOf (a : (⟨2, ![262144, 3]⟩ : Shape).Idx → EReal) : Fin NV → Fin 3 → EReal :=
  fun n k => a (fun d => match d with | ⟨0, _⟩ => n | ⟨1, _⟩ => k)

/-- Every word of the face array names a vertex. -/
def InRange (b : (⟨2, ![2097152, 3]⟩ : Shape).Idx → BitVec 32) : Prop := ∀ i, (b i).toNat < NV

/-- The face array's contents, in range, as a function of face and corner. -/
def idxOf (b : (⟨2, ![2097152, 3]⟩ : Shape).Idx → BitVec 32) (h : InRange b) : Fin NF → Fin 3 → Fin NV :=
  fun f s => ⟨(b (fun d => match d with | ⟨0, _⟩ => f | ⟨1, _⟩ => s)).toNat, h _⟩

end Cert.Spec

end
-- ==== Proof.KI.Args.lean ====
/-
  The vertex positions and the faces' corners as the specification's arguments, read from a core's two argument arrays.
-/
import proofs.«429528_j48808008352295_3_alg».proof.KernelIdeal
import proofs.«429528_j48808008352295_3_alg».proof.Proof.Spec

noncomputable section

namespace Cert.KernelIdeal.Hand

open Cert.KernelIdeal Cert.Spec
open Idealize.ShloMosaic Idealize.ShloMosaic.TcCoe Idealize.SL.Sem

variable (m : (ℓ : Loc nD τ sig) → Buf (Elt Ideal) ℓ)

/-- The vertex positions, from core `c`'s vertex array. -/
abbrev vtxA (c : Dev nD) : Fin NV → Fin 3 → EReal := vtxOf (m ((c.tc : Thread nD τ).loc main_arg0))
/-- The faces' corners, from core `c`'s face array (corners in range). -/
abbrev idxA (c : Dev nD) (hr : InRange (m ((c.tc : Thread nD τ).loc main_arg1))) : Fin NF → Fin 3 → Fin NV :=
  idxOf (m ((c.tc : Thread nD τ).loc main_arg1)) hr

end Cert.KernelIdeal.Hand

end
-- ==== Proof.KI.Defs0.lean ====
/-
  Region 0 (the per-face pair-sum kernel): the input blocks at a grid point, the rectangles the body loads and stores
  through, and what the two output blocks hold after the body as functions of the three input blocks. The output block
  of nine rows is three bands of three rows, each band one store (the sum of two input blocks); the output block of three
  rows is three single rows, each one store (the sum of two edge-length rows).
-/
import proofs.«429528_j48808008352295_3_alg».proof.Proof.Gen.KernelIdeal.Launch
import proofs.«429528_j48808008352295_3_alg».proof.Proof.Gen.KernelIdeal.Skeleton
import proofs.«429528_j48808008352295_3_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- An input block, whole. -/
abbrev rIn0 : Rect S3x32768 := Rect.unit (s := S3x32768) ![0, 0] S3x32768.size inb_S3x32768_S3x32768_0_0
/-- The three bands of the nine-row output block. -/
abbrev rPos0 : Rect S9x32768 := Rect.unit (s := S9x32768) ![0, 0] S3x32768.size inb_S9x32768_S3x32768_0_0
abbrev rPos3 : Rect S9x32768 := Rect.unit (s := S9x32768) ![3, 0] S3x32768.size inb_S9x32768_S3x32768_3_0
abbrev rPos6 : Rect S9x32768 := Rect.unit (s := S9x32768) ![6, 0] S3x32768.size inb_S9x32768_S3x32768_6_0
/-- The three rows of the three-row output block. -/
abbrev rEdge0 : Rect S3x32768 := Rect.unit (s := S3x32768) ![0, 0] S1x32768.size inb_S3x32768_S1x32768_0_0
abbrev rEdge1 : Rect S3x32768 := Rect.unit (s := S3x32768) ![1, 0] S1x32768.size inb_S3x32768_S1x32768_1_0
abbrev rEdge2 : Rect S3x32768 := Rect.unit (s := S3x32768) ![2, 0] S1x32768.size inb_S3x32768_S1x32768_2_0

/-! ## What the body leaves in each output window's buffer -/

/-- The nine-row output block after the body: its three band stores as pieces, last first. -/
def out0_3 (x0 x1 x2 : Vec F S3x32768 .f32) : Vec F S9x32768 .f32 :=
  View.canon [⟨rPos6, k0_pay9 (View.ld x0 rIn0) (View.ld x1 rIn0)⟩,
    ⟨rPos3, k0_pay8 (View.ld x0 rIn0) (View.ld x2 rIn0)⟩,
    ⟨rPos0, k0_pay7 (View.ld x1 rIn0) (View.ld x2 rIn0)⟩]

/-- The three-row output block after the body: its three row stores as pieces, last first. -/
def out0_4 (x0 x1 x2 : Vec F S3x32768 .f32) : Vec F S3x32768 .f32 :=
  View.canon [⟨rEdge2, k0_pay12 (View.ld x0 rIn0) (View.ld x1 rIn0) (View.ld x2 rIn0)⟩,
    ⟨rEdge1, k0_pay11 (View.ld x0 rIn0) (View.ld x1 rIn0) (View.ld x2 rIn0)⟩,
    ⟨rEdge0, k0_pay10 (View.ld x0 rIn0) (View.ld x1 rIn0) (View.ld x2 rIn0)⟩]

end Cert.KernelIdeal.Hand

end
-- ==== Proof.KI.Region0.lean ====
/-
  Region 0 (the per-face pair-sum kernel), at any float instance: what its two output blocks hold after the body
  at a grid point, as functions of the three input blocks; the body's triple; the pipeline's proof data and the body
  obligation. The output block of nine rows is three bands of three rows, each band one store (the sum of two input
  blocks); the output block of three rows is three single rows, each one store (the sum of two edge-length rows).
-/
import proofs.«429528_j48808008352295_3_alg».proof.Proof.KI.Defs0
import proofs.«429528_j48808008352295_3_alg».proof.Proof.Gen.KernelIdeal.Launch
import proofs.«429528_j48808008352295_3_alg».proof.Proof.Gen.KernelIdeal.Skeleton
import proofs.«429528_j48808008352295_3_alg».proof.Proof.Gen.KernelIdeal.Points
import proofs.«429528_j48808008352295_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The pipeline's proof data -/

/-- The proof data of pipeline 0 on core `c`: the arrays as the region finds them; after the body at point `t` each
    input's buffer at its block and each output's at `out0_W` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The inputs' staging buffers before the body -/

/-- Input window 0's current staging buffer holds its block at every point, fetched there or not, for any proof
    data whose array is the region-entry contents and whose body leaves the block in place: the window is uncut and
    never idle, so an unfetched point finds the block the point before left, which is the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The stores tile the output blocks -/

/-- The three bands of three rows tile the nine-row block, so they cover it. -/
theorem cover0_3 (p0 p1 p2 : Vec F S3x32768 .f32) (y : S9x32768.Idx) :
    ∃ pc ∈ ([⟨rPos6, p0⟩, ⟨rPos3, p1⟩, ⟨rPos0, p2⟩] : List (View.Piece (Elt F) S9x32768 .f32)), y ∈ pc.1.set :=
  View.cover_of_tiled [⟨rPos6, p0⟩, ⟨rPos3, p1⟩, ⟨rPos0, p2⟩] S3x32768.size (by rfl) y

/-- The three single rows tile the three-row block, so they cover it. -/
theorem cover0_4 (p0 p1 p2 : Vec F S1x32768 .f32) (y : S3x32768.Idx) :
    ∃ pc ∈ ([⟨rEdge2, p0⟩, ⟨rEdge1, p1⟩, ⟨rEdge0, p2⟩] : List (View.Piece (Elt F) S3x32768 .f32)), y ∈ pc.1.set :=
  View.cover_of_tiled [⟨rEdge2, p0⟩, ⟨rEdge1, p1⟩, ⟨rEdge0, p2⟩] S1x32768.size (by rfl) y

/-! ## The body's triple -/

set_option maxHeartbeats 4000000 in
/-- The kernel body on whole staging memrefs, the inputs' at read contents `x0 x1 x2` and the outputs' at anything,
    runs to the continuation holding the inputs' as they were and each output's at `out0_W` of the inputs': the body
    loads the three input blocks whole, and stores each band and each row once, so each output block reads as the
    canon of its three stores. -/
theorem sound_kernel0 (c : Dev nD) (E : Set ℕ) (i : grid0.Coords)
    (arg1 : Memref sig .tc .vmem S3x32768 .f32) (harg1 : arg1.IsWhole) (arg2 : Memref sig .tc .vmem S3x32768 .f32) (harg2 : arg2.IsWhole)
    (arg3 : Memref sig .tc .vmem S3x32768 .f32) (harg3 : arg3.IsWhole) (arg4 : Memref sig .tc .vmem S9x32768 .f32) (harg4 : arg4.IsWhole)
    (arg5 : Memref sig .tc .vmem S3x32768 .f32) (harg5 : arg5.IsWhole)
    (x0 x1 x2 : Vec F S3x32768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__face_kernel i arg1 harg1 arg2 harg2 arg3 harg3 arg4 harg4 arg5 harg5) K := by
  simp only [cc0__face_kernel_eq_skeleton]; unfold cc0__face_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _ _ _)
  iexists _; isplitr
  swap; · iexact H4
  ipureintro
  exact View.read_writes_eq_canon _ _ _ (cover0_4 _ _ _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Defs1.lean ====
/-
  Region 1 (the per-vertex error kernel with its running total): the input blocks at a grid point, the rectangles the
  body loads through, one point's step of the running total, the total after each point, and the scaled total the last
  point stores into the one-word output block.
-/
import proofs.«429528_j48808008352295_3_alg».proof.Proof.Gen.KernelIdeal.Launch
import proofs.«429528_j48808008352295_3_alg».proof.Proof.Gen.KernelIdeal.Skeleton
import proofs.«429528_j48808008352295_3_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- A three-row input block, whole. -/
abbrev rIn1 : Rect S3x32768 := Rect.unit (s := S3x32768) ![0, 0] S3x32768.size inb_S3x32768_S3x32768_0_0
/-- The two rows of the two-row input block (counts; edge totals). -/
abbrev rRow0 : Rect S2x32768 := Rect.unit (s := S2x32768) ![0, 0] S1x32768.size inb_S2x32768_S1x32768_0_0
abbrev rRow1 : Rect S2x32768 := Rect.unit (s := S2x32768) ![1, 0] S1x32768.size inb_S2x32768_S1x32768_1_0
/-- The one word of the scratch total and of the output block. -/
abbrev rWord : Rect S1x1 := Rect.unit (s := S1x1) ![0, 0] S1x1.size inb_S1x1_S1x1_0_0

/-! ## The running total -/

/-- One point's step: the total `a` found in the scratch plus the point's partial sum of vertex errors. -/
def step1 (x0 x1 : Vec F S3x32768 .f32) (x2 : Vec F S2x32768 .f32) (a : Vec F S1x1 .f32) : Vec F S1x1 .f32 :=
  k1_pay2 (View.ld x0 rIn1) (View.ld x1 rIn1) (View.ld x2 rRow0) (View.ld x2 rRow1) a

/-- The scratch total after point `n`: cleared before the first point's step, carried between points. -/
def accC (c : Dev nD) : (n : ℕ) → n < cfg1.N → Vec F S1x1 .f32
  | 0, h => step1 (iblk1 V c 0 ⟨0, h⟩) (iblk1 V c 1 ⟨0, h⟩) (iblk1 V c 2 ⟨0, h⟩) (k1_pay1 (F := F))
  | n + 1, h => step1 (iblk1 V c 0 ⟨n + 1, h⟩) (iblk1 V c 1 ⟨n + 1, h⟩) (iblk1 V c 2 ⟨n + 1, h⟩) (accC c n (Nat.lt_of_succ_lt h))

/-- What the last point stores into the output block: the final total, scaled. -/
def finC (c : Dev nD) : Vec F S1x1 .f32 := k1_pay3 (accC V c 7 (by rw [show cfg1.N = 8 from N_1]; decide))

end Cert.KernelIdeal.Hand

end
-- ==== Proof.KI.Region1.lean ====
/-
  Region 1 (the per-vertex error kernel with its running total), at any float instance. The kernel keeps a one-word
  scratch total across its eight grid points: cleared at the first point, increased at every point by the point's
  partial sum of vertex errors, and at the last point scaled into the one-word output block, which is written back
  only there. The proof data carries the scratch's contents after each point in the region invariant.
-/
import proofs.«429528_j48808008352295_3_alg».proof.Proof.KI.Defs1
import proofs.«429528_j48808008352295_3_alg».proof.Proof.Gen.KernelIdeal.Launch
import proofs.«429528_j48808008352295_3_alg».proof.Proof.Gen.KernelIdeal.Skeleton
import proofs.«429528_j48808008352295_3_alg».proof.Proof.Gen.KernelIdeal.Points
import proofs.«429528_j48808008352295_3_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-shape rectangle of rank two, as a function. -/
theorem hz2 : (![0, 0] : Fin 2 → Nat) = fun _ => 0 := funext fun a => by fin_cases a <;> rfl

/-- A store of the whole word, made last, leaves its payload there, regardless of the earlier stores and of what the
    buffer held before them. -/
theorem read_word_store {κ : Kind} {sp : Space} (v : View sig κ sp S1x1 .f32) (f : v.ty.Contents (Elt F)) (w : Vec F S1x1 .f32)
    (L : List (View.Piece (Elt F) S1x1 .f32)) :
    v.read (Elt F) (v.writes (Elt F) f ((⟨rWord, w⟩ : View.Piece (Elt F) S1x1 .f32) :: L)) = w := by
  have hcov : ∀ y : S1x1.Idx, ∃ p ∈ ((⟨rWord, w⟩ : View.Piece (Elt F) S1x1 .f32) :: L), y ∈ p.1.set :=
    fun y => ⟨⟨rWord, w⟩, List.mem_cons_self, View.mem_set_unit_zero (S := S1x1) hz2 inb_S1x1_S1x1_0_0 y⟩
  rw [View.read_writes_eq_canon v f _ hcov]
  exact View.canon_cons_unit_zero (S := S1x1) hz2 inb_S1x1_S1x1_0_0 w L

/-- The first conditional's test, from the grid coordinate: the point is the first. -/
abbrev cond1_0 (i : grid1.Coords) : Prop := (Scalar.cmpi .ne (Scalar.extui (Scalar.cmpi .eq (BitVec.ofNat 32 (i 0).val) 0#32)) 0#32) = 1#1

/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The second conditional's test holds at point 7 only. -/
theorem hcond1_1 : ∀ t : Fin cfg1.N, k1_cond2 (grid1.coords t) = 1#1 ↔ t.val = 7 :=
  (by decide +kernel : ∀ t : Fin grid1.N, k1_cond2 (grid1.coords t) = 1#1 ↔ t.val = 7)

/-! ## The body on any whole memrefs, case by case -/

set_option maxHeartbeats 1600000 in
/-- A middle point: neither conditional taken. The scratch total `a` becomes `step1 x0 x1 x2 a`; the inputs stay. -/
theorem run_mid (c : Dev nD) (i : grid1.Coords)
    (arg1 : Memref sig .tc .vmem S3x32768 .f32) (harg1 : arg1.IsWhole) (arg2 : Memref sig .tc .vmem S3x32768 .f32) (harg2 : arg2.IsWhole)
    (arg3 : Memref sig .tc .vmem S2x32768 .f32) (harg3 : arg3.IsWhole) (arg4 : Memref sig .tc .vmem S1x1 .f32) (harg4 : arg4.IsWhole)
    (arg5 : Memref sig .tc .vmem S1x1 .f32) (harg5 : arg5.IsWhole)
    (hc0 : ¬ cond1_0 i) (hc1 : ¬ k1_cond2 i = 1#1)
    (x0 x1 : Vec F S3x32768 .f32) (x2 : Vec F S2x32768 .f32) (a : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg5 fullShare (step1 x0 x1 x2 a)) -∗ K ⟨⟩))
      ⊢ wp frame (wpE (defs₀ (F := F)) Variants.none c none) E (cc1__final_kernel i arg1 harg1 arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_word_store]
  unfold step1
  simp only [View.readAt_eq_ld, harg1.read_unread, harg2.read_unread, harg3.read_unread, harg5.read_unread, View.ld_unit_zero (S := S1x1) hz2]

set_option maxHeartbeats 1600000 in
/-- The first point: the first conditional taken, the second not. The scratch, whatever it held, is cleared and
    becomes `step1 x0 x1 x2 k1_pay1`. -/
theorem run_first (c : Dev nD) (i : grid1.Coords)
    (arg1 : Memref sig .tc .vmem S3x32768 .f32) (harg1 : arg1.IsWhole) (arg2 : Memref sig .tc .vmem S3x32768 .f32) (harg2 : arg2.IsWhole)
    (arg3 : Memref sig .tc .vmem S2x32768 .f32) (harg3 : arg3.IsWhole) (arg4 : Memref sig .tc .vmem S1x1 .f32) (harg4 : arg4.IsWhole)
    (arg5 : Memref sig .tc .vmem S1x1 .f32) (harg5 : arg5.IsWhole)
    (hc0 : cond1_0 i) (hc1 : ¬ k1_cond2 i = 1#1)
    (x0 x1 : Vec F S3x32768 .f32) (x2 : Vec F S2x32768 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (step1 x0 x1 x2 (k1_pay1 (F := F)))) -∗ K ⟨⟩))
      ⊢ wp frame (wpE (defs₀ (F := F)) Variants.none c none) E (cc1__final_kernel i arg1 harg1 arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%d, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_word_store]
  sl_unfold_words
  unfold step1
  simp only [View.readAt_eq_ld, harg1.read_unread, harg2.read_unread, harg3.read_unread, View.readCov_unit_zero (S := S1x1) _ hz2]

set_option maxHeartbeats 1600000 in
/-- The last point: the first conditional not taken, the second taken. The scratch total `a` becomes
    `step1 x0 x1 x2 a`, and the output block, whatever it held, that total scaled. -/
theorem run_last (c : Dev nD) (i : grid1.Coords)
    (arg1 : Memref sig .tc .vmem S3x32768 .f32) (harg1 : arg1.IsWhole) (arg2 : Memref sig .tc .vmem S3x32768 .f32) (harg2 : arg2.IsWhole)
    (arg3 : Memref sig .tc .vmem S2x32768 .f32) (harg3 : arg3.IsWhole) (arg4 : Memref sig .tc .vmem S1x1 .f32) (harg4 : arg4.IsWhole)
    (arg5 : Memref sig .tc .vmem S1x1 .f32) (harg5 : arg5.IsWhole)
    (hc0 : ¬ cond1_0 i) (hc1 : k1_cond2 i = 1#1)
    (x0 x1 : Vec F S3x32768 .f32) (x2 : Vec F S2x32768 .f32) (a : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 (step1 x0 x1 x2 a))
            ∗ owns (c : Thread nD τ) arg5 fullShare (step1 x0 x1 x2 a)) -∗ K ⟨⟩))
      ⊢ wp frame (wpE (defs₀ (F := F)) Variants.none c none) E (cc1__final_kernel i arg1 harg1 arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%d, %fo, -, HO⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr
    swap; · iexact HO
    ipureintro
    rw [read_word_store]
    sl_unfold_words
    unfold step1
    simp only [View.readAt_eq_ld, harg1.read_unread, harg2.read_unread, harg3.read_unread, harg5.read_unread, View.ld_unit_zero (S := S1x1) hz2, View.readCov_unit_zero (S := S1x1) _ hz2]
  iexists _; isplitr
  swap; · iexact HS
  ipureintro
  sl_unfold_words
  rw [read_word_store]
  unfold step1
  simp only [View.readAt_eq_ld, harg1.read_unread, harg2.read_unread, harg3.read_unread, harg5.read_unread, View.ld_unit_zero (S := S1x1) hz2]

/-! ## Where the windows are idle, and where the output is written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second conditional is not taken the output window is idle, -/
theorem idleAt1_3 : ∀ t : Fin cfg1.N, ¬ k1_cond2 (grid1.coords t) = 1#1 → cfg1.idle 3 (grid1.coords t) = true := by decide +kernel
/-- and its block is not written back; -/
theorem noFlush1_3 : ∀ t : Fin cfg1.N, ¬ k1_cond2 (grid1.coords t) = 1#1 → (cfg1.win 3).flush t = false := by decide +kernel
/-- where it is taken the window is live. -/
theorem liveAt1_3 : ∀ t : Fin cfg1.N, k1_cond2 (grid1.coords t) = 1#1 → cfg1.idle 3 (grid1.coords t) = false := by decide +kernel

/-! ## The memrefs the body is passed -/

/-- Each window's current staging memref at point `t`, and its wholeness. -/
abbrev ms1_0 (t : Fin cfg1.N) : Memref sig .tc .vmem S3x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x32768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x32768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch operand holding the running total: a whole scoped buffer of the kernel's own. -/
abbrev scM1 : Memref sig .tc .vmem S1x1 .f32 := Memref.whole cc1_scratch0

/-! ## The region invariant -/

/-- The core's scoped buffers that are neither staging buffers of this region nor its scratch total (they are the
    other region's staging buffers), each whole at some contents: the body never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class invariant hands out the scratch total as a memref owned at some contents, beside the other scoped
    buffers and the generator register, -/
theorem PhiA1_split (c : Dev nD) :
    (Pipeline.ΦA spec1 c : sProp 𝕄)
      ⊢ iprop((others1 (F := F) c ∗ (∃ d, owns (c : Thread nD τ) scM1 fullShare d)) ∗ (∃ r, prngReg c r)) := by
  unfold Pipeline.ΦA others1; rw [scopedRest1_eq]; simp only [scM1, owns_whole]
  iintro ⟨⟨H0, H1, H2, H3, H4, H5, H6, H7, H8, H9, HS⟩, Hg⟩
  isplitr [Hg]
  · isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · iexact Hg

/-- and takes them back. -/
theorem PhiA1_join (c : Dev nD) :
    iprop((others1 (F := F) c ∗ (∃ d, owns (c : Thread nD τ) scM1 fullShare d)) ∗ (∃ r, prngReg c r))
      ⊢ (Pipeline.ΦA spec1 c : sProp 𝕄) := by
  unfold Pipeline.ΦA others1; rw [scopedRest1_eq]; simp only [scM1, owns_whole]
  iintro ⟨⟨⟨H0, H1, H2, H3, H4, H5, H6, H7, H8, H9⟩, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  · iexact Hg

/-- So the class invariant is the scratch total at some contents beside the rest. -/
theorem PhiA1_eq (c : Dev nD) :
    (Pipeline.ΦA spec1 c : sProp 𝕄)
      = iprop((others1 (F := F) c ∗ (∃ d, owns (c : Thread nD τ) scM1 fullShare d)) ∗ (∃ r, prngReg c r)) :=
  BI.equiv_iff.mp ⟨PhiA1_split c, PhiA1_join c⟩

/-- The invariant before position `n`: before the first point the class invariant (the scratch at anything);
    afterwards the scratch total at what the point before left in it, the other scoped buffers at anything and the
    generator register at some state. -/
def PhiS (c : Dev nD) : (n : ℕ) → n ≤ cfg1.N → sProp 𝕄
  | 0, _ => Pipeline.ΦA spec1 c
  | n + 1, hn => iprop((others1 (F := F) c ∗ owns (c : Thread nD τ) scM1 fullShare (accC V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others1 (F := F) c ∗ owns (c : Thread nD τ) scM1 fullShare (accC V c n hn)) ∗ (∃ r, prngReg c r)) := rfl

theorem PhiS_pos (c : Dev nD) (n : ℕ) (h : n ≤ cfg1.N) (hz : n ≠ 0) :
    PhiS V c n h = iprop((others1 (F := F) c ∗ owns (c : Thread nD τ) scM1 fullShare (accC V c (n - 1) (by omega))) ∗ (∃ r, prngReg c r)) := by
  cases n with
  | zero => exact absurd rfl hz
  | succ n => rfl

/-! ## The running total, point by point -/

/-- The total after the first point: the cleared word stepped once. -/
theorem accC_zero (c : Dev nD) (t : Fin cfg1.N) (h : t.val = 0) :
    accC V c t.val t.isLt = step1 (iblk1 V c 0 t) (iblk1 V c 1 t) (iblk1 V c 2 t) (k1_pay1 (F := F)) := by
  obtain ⟨n, hn⟩ := t
  cases n with
  | zero => rfl
  | succ n => exact absurd h (Nat.succ_ne_zero n)

/-- The total after a later point: the total the point before left, stepped by this point's blocks. -/
theorem accC_pos (c : Dev nD) (t : Fin cfg1.N) (h : t.val ≠ 0) :
    accC V c t.val t.isLt = step1 (iblk1 V c 0 t) (iblk1 V c 1 t) (iblk1 V c 2 t) (accC V c (t.val - 1) (Nat.lt_of_le_of_lt (Nat.sub_le _ _) t.isLt)) := by
  obtain ⟨n, hn⟩ := t
  cases n with
  | zero => exact absurd rfl h
  | succ n => rfl

/-- What the last point stores is the scaled total after the last point. -/
theorem finC_eq (c : Dev nD) (t : Fin cfg1.N) (h : t.val = 7) : finC V c = k1_pay3 (accC V c t.val t.isLt) := by
  obtain ⟨n, hn⟩ := t
  obtain rfl : n = 7 := h
  rfl

/-! ## The pipeline's proof data -/

/-- The proof data of pipeline 1 on core `c`: the arrays as the region finds them; after the body each input's
    buffer at its block, the output's at the scaled final total (it is looked at only where the block is written
    back, the last point); the invariant carries the scratch total. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => finC V c
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q1 (c : Dev nD) (w : Fin cfg1.W) : (dat1 V c).q w = fullShare := rfl

theorem owed1 (c : Dev nD) (t) : (dat1 V c).owed t = 0 := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = finC V c := by dsimp only [dat1]

/-- What the output's buffer holds after the last point: the final total, scaled. -/
theorem after1_3_last (c : Dev nD) : (dat1 V c).after 3 t1_7 = finC V c := after1_3 V c t1_7

theorem PhiS_castSucc (c : Dev nD) (t : Fin cfg1.N) :
    (dat1 V c).Φ t.castSucc = PhiS V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' memrefs hold their blocks. At the first point the invariant hands over the
    scratch at anything and the body clears it before its step; at a later point it hands over the total the point
    before left. Except at the last point the output window is idle and its buffer goes back as found; at the last
    point the body stores the scaled total into it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 8 := lt_of_lt_of_eq t.isLt (show cfg1.N = 8 from N_1)
  by_cases h0 : t.val = 0
  · have hc0 : cond1_0 (grid1.coords t) := (hcond1_0 t).mpr h0
    have hc1 : ¬ k1_cond2 (grid1.coords t) = 1#1 := fun h => by have := (hcond1_1 t).mp h; omega
    rw [Dat.leavesExact_idle (dat1 V c) 3 t (idleAt1_3 t hc1) (noFlush1_3 t hc1)]
    rw [accC_zero V c t h0]
    rw [PhiS_castSucc V c t, PhiS_zero V c _ _ h0, PhiA1_eq]
    iintro ⟨⟨⟨Hr, HS⟩, Hg⟩, Ho, ⟨%d0, H0⟩, ⟨%d1, H1⟩, ⟨%d2, H2⟩, H3⟩
    iapply (run_first c (grid1.coords t) (ms1_0 t) (hs1_0 t) (ms1_1 t) (hs1_1 t) (ms1_2 t) (hs1_2 t) (ms1_3 t) (hs1_3 t)
      scM1 (Memref.isWhole_whole _) hc0 hc1 (iblk1 V c 0 t) (iblk1 V c 1 t) (iblk1 V c 2 t) Set.univ _)
    isplitl [H0]; · iexact H0
    isplitl [H1]; · iexact H1
    isplitl [H2]; · iexact H2
    isplitl [HS]; · iexact HS
    iintro ⟨H0, H1, H2, HS⟩
    isplitl [Hr HS Hg]
    · isplitr [Hg]
      · isplitl [Hr]; · iexact Hr
        iexact HS
      · iexact Hg
    isplitl [Ho]; · iexact Ho
    isplitl [H0]; · iexact H0
    isplitl [H1]; · iexact H1
    isplitl [H2]; · iexact H2
    iexact H3
  · by_cases h7 : t.val = 7
    · have hc0 : ¬ cond1_0 (grid1.coords t) := fun h => h0 ((hcond1_0 t).mp h)
      have hc1 : k1_cond2 (grid1.coords t) = 1#1 := (hcond1_1 t).mpr h7
      rw [show (dat1 V c).leavesExact 3 t = owns (c : Thread nD τ) (ms1_3 t) fullShare ((dat1 V c).after 3 t) from by
        unfold Dat.leavesExact; rw [liveAt1_3 t hc1], after1_3]
      rw [finC_eq V c t h7, accC_pos V c t h0]
      rw [PhiS_castSucc V c t, PhiS_pos V c _ _ h0]
      iintro ⟨⟨⟨Hr, HS⟩, Hg⟩, Ho, ⟨%d0, H0⟩, ⟨%d1, H1⟩, ⟨%d2, H2⟩, ⟨%d3, H3⟩⟩
      iapply (run_last c (grid1.coords t) (ms1_0 t) (hs1_0 t) (ms1_1 t) (hs1_1 t) (ms1_2 t) (hs1_2 t) (ms1_3 t) (hs1_3 t)
        scM1 (Memref.isWhole_whole _) hc0 hc1 (iblk1 V c 0 t) (iblk1 V c 1 t) (iblk1 V c 2 t)
        (accC V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      iexact H3
    · have hc0 : ¬ cond1_0 (grid1.coords t) := fun h => h0 ((hcond1_0 t).mp h)
      have hc1 : ¬ k1_cond2 (grid1.coords t) = 1#1 := fun h => h7 ((hcond1_1 t).mp h)
      rw [Dat.leavesExact_idle (dat1 V c) 3 t (idleAt1_3 t hc1) (noFlush1_3 t hc1)]
      rw [accC_pos V c t h0]
      rw [PhiS_castSucc V c t, PhiS_pos V c _ _ h0]
      iintro ⟨⟨⟨Hr, HS⟩, Hg⟩, Ho, ⟨%d0, H0⟩, ⟨%d1, H1⟩, ⟨%d2, H2⟩, H3⟩
      iapply (run_mid c (grid1.coords t) (ms1_0 t) (hs1_0 t) (ms1_1 t) (hs1_1 t) (ms1_2 t) (hs1_2 t) (ms1_3 t) (hs1_3 t)
        scM1 (Memref.isWhole_whole _) hc0 hc1 (iblk1 V c 0 t) (iblk1 V c 1 t) (iblk1 V c 2 t)
        (accC V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- The invariant after the last point gives the class invariant back: the total's named contents are forgotten. -/
theorem hout1 (c : Dev nD) : (dat1 V c).Φ (Fin.last cfg1.N) ⊢ Pipeline.ΦA spec1 c := by
  have hN : cfg1.N = 8 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨Hr, HS⟩, Hg⟩
  isplitr [Hg]
  · isplitl [Hr]; · iexact Hr
    iexists _; iexact HS
  · iexact Hg

end Cert.KernelIdeal.Hand

end
-- ==== Proof.KI.Run.lean ====
/-
  The run of the whole program at any float instance: what the two regions leave in the buffers they write, the
  pipelines' proof data at each region's entry contents, each region as a segment between the host stretches, and the
  launch: every weakly fair execution terminates with every unscoped buffer at the last boundary's contents.
-/
import proofs.«429528_j48808008352295_3_alg».proof.Proof.KI.Region0
import proofs.«429528_j48808008352295_3_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's entry contents, read at the TensorCore's references. -/
abbrev E0 : (c : Dev nD) → (b : Ref sig .tc) → Buf (Elt F) ((c : Thread nD τ).loc b) := fun c b => V4 m c b

/-- What region 0 leaves in its two output arrays (every other reference: what was there). -/
def outsA : Outs (F := F) := fun _ r c =>
  if h : r = main_v10_0 then
    cast (by rw [h]) ((dat0 (E0 m) c).arrAt 3 cfg0.N : Buf (Elt F) ((c : Thread nD τ).loc main_v10_0))
  else if h : r = main_v10_1 then
    cast (by rw [h]) ((dat0 (E0 m) c).arrAt 4 cfg0.N : Buf (Elt F) ((c : Thread nD τ).loc main_v10_1))
  else V4 m c r

/-- Region 1's entry contents, read at the TensorCore's references. -/
abbrev E1 : (c : Dev nD) → (b : Ref sig .tc) → Buf (Elt F) ((c : Thread nD τ).loc b) := fun c b => V6 m (outsA m) c b

/-- What the two regions leave in the arrays they write. -/
def outs : Outs (F := F) := fun j r c =>
  if h : r = main_v46 then
    cast (by rw [h]) ((dat1 (E1 m) c).arrAt 3 cfg1.N : Buf (Elt F) ((c : Thread nD τ).loc main_v46))
  else outsA m j r c

theorem outs_eq_A (j : ℕ) (r : Ref sig .tc) (c : Dev nD) (h : r ≠ main_v46) : outs m j r c = outsA m j r c := by
  unfold outs; rw [dif_neg h]
theorem outs_v10_0 (c : Dev nD) : outs m 5 main_v10_0 c = (dat0 (E0 m) c).arrAt 3 cfg0.N := by
  rw [outs_eq_A m 5 main_v10_0 c (by decide)]; unfold outsA; rw [dif_pos rfl]; exact cast_eq _ _
theorem outs_v10_1 (c : Dev nD) : outs m 5 main_v10_1 c = (dat0 (E0 m) c).arrAt 4 cfg0.N := by
  rw [outs_eq_A m 5 main_v10_1 c (by decide)]; unfold outsA; rw [dif_neg (by decide), dif_pos rfl]; exact cast_eq _ _
theorem outs_v46 (c : Dev nD) : outs m 7 main_v46 c = (dat1 (E1 m) c).arrAt 3 cfg1.N := by
  unfold outs; rw [dif_pos rfl]; exact cast_eq _ _
theorem V5_outs (c : Dev nD) : V5 m (outs m) c = V5 m (outsA m) c := by
  show Function.update (Function.update (V4 m c) main_v10_0 (outs m 5 main_v10_0 c)) main_v10_1 (outs m 5 main_v10_1 c)
    = Function.update (Function.update (V4 m c) main_v10_0 (outsA m 5 main_v10_0 c)) main_v10_1 (outsA m 5 main_v10_1 c)
  rw [outs_eq_A m 5 main_v10_0 c (by decide), outs_eq_A m 5 main_v10_1 c (by decide)]
/-- Region 1 is entered from the contents its proof data are stated at. -/
theorem V6_outs (c : Dev nD) : V6 m (outs m) c = V6 m (outsA m) c := by
  show StableHlo.after hostOps1 (V5 m (outs m) c) = StableHlo.after hostOps1 (V5 m (outsA m) c)
  rw [V5_outs]

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-! ## Region 0's arrays at its exit -/

theorem V5_v10_0 (c : Dev nD) : V5 m (outs m) c main_v10_0 = outs m 5 main_v10_0 c := by
  show Function.update (Function.update (V4 m c) main_v10_0 (outs m 5 main_v10_0 c)) main_v10_1 (outs m 5 main_v10_1 c) main_v10_0 = _
  rw [Function.update_of_ne (StableHlo.devRef_ne_of_ne (by decide)), Function.update_self]
theorem V5_v10_1 (c : Dev nD) : V5 m (outs m) c main_v10_1 = outs m 5 main_v10_1 c := by
  show Function.update (Function.update (V4 m c) main_v10_0 (outs m 5 main_v10_0 c)) main_v10_1 (outs m 5 main_v10_1 c) main_v10_1 = _
  rw [Function.update_self]

theorem hF0_in (c : Dev nD) (w : Fin cfg0.W) (hw : (cfg0.win w).isOut = false)
    (hne : Pipeline.arrRef spec0 w ∉ ([main_v10_0, main_v10_1] : List (Ref sig .tc))) :
    (dat0 (E0 m) c).arrAt w cfg0.N = V5 m (outs m) c (Pipeline.arrRef spec0 w) :=
  ((dat0 (E0 m) c).arrAt_in w hw _).trans ((A_eq0 (E0 m) c w).trans (V5_of m (outs m) c (Pipeline.arrRef spec0 w) hne).symm)
theorem hF0_3 (c : Dev nD) : (dat0 (E0 m) c).arrAt 3 cfg0.N = V5 m (outs m) c (Pipeline.arrRef spec0 3) :=
  (outs_v10_0 m c).symm.trans (V5_v10_0 m c).symm
theorem hF0_4 (c : Dev nD) : (dat0 (E0 m) c).arrAt 4 cfg0.N = V5 m (outs m) c (Pipeline.arrRef spec0 4) :=
  (outs_v10_1 m c).symm.trans (V5_v10_1 m c).symm
theorem hF0 (c : Dev nD) (w : Fin cfg0.W) : (dat0 (E0 m) c).arrAt w cfg0.N = V5 m (outs m) c (Pipeline.arrRef spec0 w) := by
  match w with
  | ⟨0, _⟩ => exact hF0_in m c 0 rfl (by decide)
  | ⟨1, _⟩ => exact hF0_in m c 1 rfl (by decide)
  | ⟨2, _⟩ => exact hF0_in m c 2 rfl (by decide)
  | ⟨3, _⟩ => exact hF0_3 m c
  | ⟨4, _⟩ => exact hF0_4 m c

theorem hrest0 (c : Dev nD) : ∀ b, b ∉ Finset.univ.image (Pipeline.arrRef spec0) → V5 m (outs m) c b = V4 m c b :=
  fun b hb => V5_of m (outs m) c b (fun hmem => by
    rcases List.mem_cons.mp hmem with h | h
    · exact hb (Finset.mem_image.mpr ⟨3, Finset.mem_univ _, h.symm⟩)
    · rcases List.mem_cons.mp h with h | h
      · exact hb (Finset.mem_image.mpr ⟨4, Finset.mem_univ _, h.symm⟩)
      · cases h)

/-! ## Region 1's arrays at its exit -/

theorem V7_v46 (c : Dev nD) : V7 m (outs m) c main_v46 = outs m 7 main_v46 c := by
  show Function.update (V6 m (outs m) c) main_v46 (outs m 7 main_v46 c) main_v46 = _
  rw [Function.update_self]

theorem E1_eq (c : Dev nD) (b : Ref sig .tc) : E1 m c b = V6 m (outs m) c b := by
  show V6 m (outsA m) c b = V6 m (outs m) c b
  rw [V6_outs]

theorem hF1_in (c : Dev nD) (w : Fin cfg1.W) (hw : (cfg1.win w).isOut = false)
    (hne : Pipeline.arrRef spec1 w ∉ ([main_v46] : List (Ref sig .tc))) :
    (dat1 (E1 m) c).arrAt w cfg1.N = V7 m (outs m) c (Pipeline.arrRef spec1 w) :=
  ((dat1 (E1 m) c).arrAt_in w hw _).trans ((A_eq1 (E1 m) c w).trans ((E1_eq m c _).trans (V7_of m (outs m) c (Pipeline.arrRef spec1 w) hne).symm))
theorem hF1_3 (c : Dev nD) : (dat1 (E1 m) c).arrAt 3 cfg1.N = V7 m (outs m) c (Pipeline.arrRef spec1 3) :=
  (outs_v46 m c).symm.trans (V7_v46 m c).symm
theorem hF1 (c : Dev nD) (w : Fin cfg1.W) : (dat1 (E1 m) c).arrAt w cfg1.N = V7 m (outs m) c (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_3 m c

theorem hrest1 (c : Dev nD) : ∀ b, b ∉ Finset.univ.image (Pipeline.arrRef spec1) → V7 m (outs m) c b = E1 m c b :=
  fun b hb => (V7_of m (outs m) c b (fun hmem => by
    rcases List.mem_cons.mp hmem with h | h
    · exact hb (Finset.mem_image.mpr ⟨3, Finset.mem_univ _, h.symm⟩)
    · cases h)).trans (E1_eq m c b).symm

/-! ## The class invariant of region 1 taken in and given back -/

theorem hin_A1 (c : Dev nD) (Pf : sProp 𝕄) :
    iprop((∃ r, prngReg c r) ∗ Pf ∗ Pipeline.scopedRest spec1 c) ⊢ (Pipeline.ΦA spec1 c : sProp 𝕄) := by
  unfold Pipeline.ΦA
  iintro ⟨Hp, -, Hr⟩
  isplitl [Hr]; · iexact Hr
  iexact Hp

theorem hout_A1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at its entry contents, left at the next
    boundary's contents. Its arrays split out of the unscoped buffers and put back at the exit contents; the generator
    register into the region invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [show (pdats m 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at its entry contents, left at the next
    boundary's contents. Its arrays split out of the unscoped buffers and put back at the exit contents; the generator
    register into the region invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V6 m (outsA m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hin_A1 c _).trans (hin1 (E1 m) c)
  hout c := by
    rw [Pipeline.ownSems0_none]
    exact (hout1 (E1 m) c).trans (hout_A1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN: every weakly fair execution of @main terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Pipeline.Seg.run_eq_chain,
        show (segs m (outs m) 𝒱₀ L lv (fun _ c => R c) () (pdats m) (reg0 m) (reg1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, .rfl,
      (by
        show iprop(StableHlo.held (c : Thread nD τ) (Pipeline.ucRefs τ sig) (V6 m (outs m) c) ∗ R c)
          ⊢ iprop(StableHlo.held (c : Thread nD τ) (Pipeline.ucRefs τ sig) (V6 m (outsA m) c) ∗ R c)
        rw [V6_outs]), .rfl,
      sep_mono .rfl (by iintro ⟨-, HO⟩; iexact HO)⟩)
    (hinit := ?_) (QY := fun c s => ∀ b ∈ Pipeline.ucRefs τ sig, s.mem (((c : Thread nD τ)).1, b) = V8 m (outs m) c b)
    (hfin := fun c s' => ?_) (hQ := fun _ h => h)
  · -- the launch: the unscoped buffers are held at the launch contents; the generator register and the core's owes ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => (((c : Thread nD τ)).1, b)) (V8 m (outs m) c) s')
    isplitl [Hh] <;> iassumption

end Cert.KernelIdeal.Hand

end
-- ==== Proof.LibRead.lean ====
/-
  Three host operations READ AT AN INDEX, for any sizes: a gather of rows (or of columns) of a table at a column of
  start indices, an accumulating scatter of a vector (or of a table's rows) at a column of scatter indices, and a
  concatenation of six equal parts along the first axis or of parts of widths 3, 1, 1 along the second.

  Sizes: a table has N rows, R rows are gathered or scattered, a row has C columns. Index words have w bits and are
  read signed; with 2 N ≤ 2 ^ w a word whose unsigned value is below N reads the same signed.
-/
import Idealize.ShloMosaic.PureOps.Ideal
import Idealize.ShloMosaic.Lib.ValueIdx
import Idealize.ShloMosaic.Lib.ValueIdxRank1
import Idealize.ShloMosaic.Lib.Pipeline.Value

noncomputable section

open scoped BigOperators

namespace Cert.LibRead

open Idealize.ShloMosaic Idealize.ShloMosaic.ValueIdx

/-! ## Index words -/

/-- A word whose unsigned value is below N, where 2 N ≤ 2 ^ w, has that value when read signed. -/
theorem toInt_eq_toNat_of_lt {w N : Nat} (hN : 2 * N ≤ 2 ^ w) (b : BitVec w) (h : b.toNat < N) :
    b.toInt = (b.toNat : Int) := by
  rw [BitVec.toInt_eq_toNat_cond, if_pos (by omega)]

/-- A word whose signed value lies in [0, N) has unsigned value below N. -/
theorem toNat_lt_of_toInt {w N : Nat} (b : BitVec w) (h0 : 0 ≤ b.toInt) (h1 : b.toInt < (N : Int)) :
    b.toNat < N := by
  have hlt := b.isLt
  rw [BitVec.toInt_eq_toNat_cond] at h0 h1
  split at h0 <;> omega

/-- For n below N and 2 N ≤ 2 ^ w: a word reads n signed exactly when it reads n unsigned. -/
theorem toInt_eq_iff_toNat_eq {w N n : Nat} (hN : 2 * N ≤ 2 ^ w) (hn : n < N) (b : BitVec w) :
    b.toInt = (n : Int) ↔ b.toNat = n := by
  have hlt := b.isLt
  rw [BitVec.toInt_eq_toNat_cond]
  split <;> omega

/-! ## (a) Gather of table rows: table [N, C], start indices [R, 1], result [R, C] -/

section Gather
variable {α : Type}

/-- The dimension numbers of a row gather: offset axis 1 of the result, operand axis 0 collapsed and named by the start
    index, the index vector on axis 1 of the start indices, slices of one row. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at (r, k), for any start index: column k of the table row named by start index r, read signed and
    clamped into [0, N − 1]. -/
theorem rowGather_apply_clamped {N R C w : Nat} (hN0 : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGatherDims N R C wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowGatherDims N R C wf).start (ix2 r k) idx 0 + (rowGatherDims N R C wf).batchCoord (ix2 r k) 0
      + (rowGatherDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r k) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r k) idx 1 + (rowGatherDims N R C wf).batchCoord (ix2 r k) 1
      + (rowGatherDims N R C wf).offCoord (ix2 r k) 1 = k.val
    rw [GatherDims.batchCoord_eq_zero _ _ _ List.not_mem_nil]
    unfold GatherDims.start
    rw [dif_neg (show (1 : Fin 2) ∉ (rowGatherDims N R C wf).startIndexMap by
      show (1 : Fin 2) ∉ [(0 : Fin 2)]; decide)]
    simp only [Nat.add_zero, Nat.zero_add]
    rfl

/-- The row gather at (r, k) when start index r is in range: column k of table row idx[r]. -/
theorem rowGather_apply {N R C w : Nat} (hN : 2 * N ≤ 2 ^ w)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C)
    (h : (idx (ix2 r (0 : Fin 1))).toNat < N) :
    Host.gather (rowGatherDims N R C wf) x idx (ix2 r k) = x (ix2 ⟨(idx (ix2 r (0 : Fin 1))).toNat, h⟩ k) := by
  have e : min (idx (ix2 r (0 : Fin 1))).toInt.toNat (N - 1) = (idx (ix2 r (0 : Fin 1))).toNat := by
    rw [toInt_eq_toNat_of_lt hN _ h, Int.toNat_natCast]; omega
  rw [rowGather_apply_clamped (by omega) wf x idx r k]
  congr 1
  funext a
  refine Fin.ext ?_
  match a with
  | ⟨0, _⟩ => exact e
  | ⟨1, _⟩ => rfl

/-- The same for ANY record of those dimension numbers (each equation holds by reflexivity for a printed record). -/
theorem rowGather_apply_of_eq {N R C w : Nat} (hN : 2 * N ≤ 2 ^ w)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (k : Fin C)
    (h : (idx (ix2 r (0 : Fin 1))).toNat < N) :
    Host.gather d x idx (ix2 r k) = x (ix2 ⟨(idx (ix2 r (0 : Fin 1))).toNat, h⟩ k) := by
  obtain ⟨od, cd, ob, sb, sm, iv, ss, wf⟩ := d
  simp only at hod hcd hob hsb hsim hiv hss
  subst hod hcd hob hsb hsim hiv hss
  exact rowGather_apply hN wf x idx r k h

/-! ## (b) Gather of table columns: table [C, N], start indices [R, 1], result [C, R] -/

/-- The dimension numbers of a column gather: offset axis 0 of the result, operand axis 1 collapsed and named by the
    start index, the index vector on axis 1 of the start indices, slices of one column. -/
abbrev colGatherDims (N R C : Nat)
    (wf : GatherDims.WF ⟨2, ![C, N]⟩ ⟨2, ![R, 1]⟩ ⟨2, ![C, R]⟩ [0] [1] [] [1] [] 1 ![C, 1]) :
    GatherDims ⟨2, ![C, N]⟩ ⟨2, ![R, 1]⟩ ⟨2, ![C, R]⟩ where
  offsetDims := [0]
  collapsedSliceDims := [1]
  operandBatchingDims := []
  startIndicesBatchingDims := []
  startIndexMap := [1]
  indexVectorDim := 1
  sliceSizes := ![C, 1]
  wf := wf

/-- The column gather at (k, r), for any start index: row k of the table column named by start index r, read signed and
    clamped into [0, N − 1]. -/
theorem colGather_apply_clamped {N R C w : Nat} (hN0 : 0 < N)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (k : Fin C) (r : Fin R) :
    Host.gather (colGatherDims N R C wf) x idx (ix2 k r)
      = x (ix2 k ⟨min (idx (ix2 r (0 : Fin 1))).toInt.toNat (N - 1), by omega⟩) := by
  unfold Host.gather
  congr 1
  funext a
  refine Fin.ext ?_
  match a with
  | ⟨0, _⟩ =>
    show (colGatherDims N R C wf).start (ix2 k r) idx 0 + (colGatherDims N R C wf).batchCoord (ix2 k r) 0
      + (colGatherDims N R C wf).offCoord (ix2 k r) 0 = k.val
    rw [GatherDims.batchCoord_eq_zero _ _ _ List.not_mem_nil]
    unfold GatherDims.start
    rw [dif_neg (show (0 : Fin 2) ∉ (colGatherDims N R C wf).startIndexMap by
      show (0 : Fin 2) ∉ [(1 : Fin 2)]; decide)]
    simp only [Nat.add_zero, Nat.zero_add]
    rfl
  | ⟨1, _⟩ =>
    show (colGatherDims N R C wf).start (ix2 k r) idx 1 + (colGatherDims N R C wf).batchCoord (ix2 k r) 1
      + (colGatherDims N R C wf).offCoord (ix2 k r) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims N R C wf).startIndexMap from List.mem_singleton.mpr rfl)]
    have hsi : (colGatherDims N R C wf).siIdx (ix2 k r) ⟨List.idxOf (1 : Fin 2) (colGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-- The column gather at (k, r) when start index r is in range: row k of table column idx[r]. -/
theorem colGather_apply {N R C w : Nat} (hN : 2 * N ≤ 2 ^ w)
    (wf : GatherDims.WF ⟨2, ![C, N]⟩ ⟨2, ![R, 1]⟩ ⟨2, ![C, R]⟩ [0] [1] [] [1] [] 1 ![C, 1])
    (x : (⟨2, ![C, N]⟩ : Shape).Idx → α) (idx : IVec ⟨2, ![R, 1]⟩ w) (k : Fin C) (r : Fin R)
    (h : (idx (ix2 r (0 : Fin 1))).toNat < N) :
    Host.gather (colGatherDims N R C wf) x idx (ix2 k r) = x (ix2 k ⟨(idx (ix2 r (0 : Fin 1))).toNat, h⟩) := by
  have e : min (idx (ix2 r (0 : Fin 1))).toInt.toNat (N - 1) = (idx (ix2 r (0 : Fin 1))).toNat := by
    rw [toInt_eq_toNat_of_lt hN _ h, Int.toNat_natCast]; omega
  rw [colGather_apply_clamped (by omega) wf x idx k r]
  congr 1
  funext a
  refine Fin.ext ?_
  match a with
  | ⟨0, _⟩ => rfl
  | ⟨1, _⟩ => exact e

/-- The same for ANY record of those dimension numbers (each equation holds by reflexivity for a printed record). -/
theorem colGather_apply_of_eq {N R C w : Nat} (hN : 2 * N ≤ 2 ^ w)
    (d : GatherDims ⟨2, ![C, N]⟩ ⟨2, ![R, 1]⟩ ⟨2, ![C, R]⟩)
    (hod : d.offsetDims = [0]) (hcd : d.collapsedSliceDims = [1]) (hob : d.operandBatchingDims = [])
    (hsb : d.startIndicesBatchingDims = []) (hsim : d.startIndexMap = [1]) (hiv : d.indexVectorDim = 1)
    (hss : d.sliceSizes = ![C, 1])
    (x : (⟨2, ![C, N]⟩ : Shape).Idx → α) (idx : IVec ⟨2, ![R, 1]⟩ w) (k : Fin C) (r : Fin R)
    (h : (idx (ix2 r (0 : Fin 1))).toNat < N) :
    Host.gather d x idx (ix2 k r) = x (ix2 k ⟨(idx (ix2 r (0 : Fin 1))).toNat, h⟩) := by
  obtain ⟨od, cd, ob, sb, sm, iv, ss, wf⟩ := d
  simp only at hod hcd hob hsb hsim hiv hss
  subst hod hcd hob hsb hsim hiv hss
  exact colGather_apply hN wf x idx k r h

end Gather

/-! ## (c) Accumulating scatter into a vector: operand [N], scatter indices [R, 1], updates [R] -/

section Scatter
variable {φ : FTy}

/-- The dimension numbers of a scatter of scalars into a vector: no window axes, operand axis 0 inserted and named by the
    scatter index, the index vector on axis 1 of the scatter indices. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update r of the vector scatter lands on the operand's one axis: at its index word read signed (no window). -/
private theorem vecScatter_pos {N R w : Nat} (wf : ScatterDims.WF ⟨1, ![N]⟩ ⟨2, ![R, 1]⟩ ⟨1, ![R]⟩ [] [0] [0] 1)
    (idx : IVec ⟨2, ![R, 1]⟩ w) (r : Fin R) (a : Fin 1) :
    (vecScatterDims N R wf).start (ix1 r) idx a + ((vecScatterDims N R wf).window (ix1 r) a : Int)
      = (idx (ix2 r (0 : Fin 1))).toInt := by
  obtain rfl : a = 0 := Subsingleton.elim _ _
  have hw : (vecScatterDims N R wf).window (ix1 r) 0 = 0 := by
    unfold ScatterDims.window
    rw [dif_neg (show (0 : Fin 1) ∉ (vecScatterDims N R wf).sKept by
      show (0 : Fin 1) ∉ (List.finRange 1).filter (· ∉ [(0 : Fin 1)]); decide)]
  rw [hw]
  unfold ScatterDims.start
  rw [dif_pos (show (0 : Fin 1) ∈ (vecScatterDims N R wf).scatterDimsToOperandDims from List.mem_singleton.mpr rfl)]
  have hsi : (vecScatterDims N R wf).siIdx (ix1 r) ⟨List.idxOf (0 : Fin 1) (vecScatterDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  simp

/-- Update r of the vector scatter lands on element n exactly when its index word reads n signed. -/
private theorem vecScatter_resultIdx_iff {N R w : Nat} (wf : ScatterDims.WF ⟨1, ![N]⟩ ⟨2, ![R, 1]⟩ ⟨1, ![R]⟩ [] [0] [0] 1)
    (idx : IVec ⟨2, ![R, 1]⟩ w) (r : Fin R) (n : Fin N) :
    (vecScatterDims N R wf).resultIdx? (ix1 r) idx = some (ix1 n) ↔ (idx (ix2 r (0 : Fin 1))).toInt = (n.val : Int) := by
  unfold ScatterDims.resultIdx?
  split
  · next hr =>
    rw [Option.some.injEq]
    constructor
    · intro h
      have h1 : ((vecScatterDims N R wf).start (ix1 r) idx 0 + ((vecScatterDims N R wf).window (ix1 r) 0 : Int)).toNat = n.val :=
        congrArg Fin.val (congrFun h 0)
      have h2 := (hr 0).1
      rw [vecScatter_pos] at h1 h2
      omega
    · intro h
      funext a
      obtain rfl : a = 0 := Subsingleton.elim _ _
      refine Fin.ext ?_
      show ((vecScatterDims N R wf).start (ix1 r) idx 0 + ((vecScatterDims N R wf).window (ix1 r) 0 : Int)).toNat = n.val
      rw [vecScatter_pos, h]
      exact Int.toNat_natCast _
  · next hr =>
    constructor
    · intro h; exact absurd h (by simp)
    · intro h
      exfalso
      apply hr
      intro a
      rw [vecScatter_pos, h]
      obtain rfl : a = 0 := Subsingleton.elim _ _
      refine ⟨Int.natCast_nonneg _, ?_⟩
      show (n.val : Int) < ((N : Nat) : Int)
      exact_mod_cast n.isLt

/-- The accumulating vector scatter at n, for any scatter indices: the operand's element plus the updates whose index
    word reads n signed (an index outside [0, N) reads no n and is dropped). -/
theorem vecScatterAdd_apply_toInt {N R w : Nat} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (vecScatterDims N R wf) x idx upd (ix1 n)
      = x (ix1 n) + ∑ r : Fin R, if (idx (ix2 r (0 : Fin 1))).toInt = (n.val : Int) then upd (ix1 r) else 0 := by
  show Ideal.hostScatterAdd (vecScatterDims N R wf) x idx upd (ix1 n) = _
  unfold Ideal.hostScatterAdd
  congr 1
  rw [Finset.sum_filter, ← Equiv.sum_comp (idxEquiv1 (n := R)).symm]
  refine Finset.sum_congr rfl (fun r _ => ?_)
  exact if_congr (vecScatter_resultIdx_iff wf idx r n) rfl rfl

/-- The accumulating vector scatter at n with the index words read unsigned (2 N ≤ 2 ^ w; no in-range hypothesis is
    needed: a word out of range reads no n either way). -/
theorem vecScatterAdd_apply {N R w : Nat} (hN : 2 * N ≤ 2 ^ w)
    (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (n : Fin N) :
    Host.scatterAdd (vecScatterDims N R wf) x idx upd (ix1 n)
      = x (ix1 n) + ∑ r : Fin R, if (idx (ix2 r (0 : Fin 1))).toNat = n.val then upd (ix1 r) else 0 := by
  rw [vecScatterAdd_apply_toInt]
  congr 1
  refine Finset.sum_congr rfl (fun r _ => ?_)
  exact if_congr (toInt_eq_iff_toNat_eq hN n.isLt _) rfl rfl

/-- The same for ANY record of those dimension numbers (each equation holds by reflexivity for a printed record). -/
theorem vecScatterAdd_apply_of_eq {N R w : Nat} (hN : 2 * N ≤ 2 ^ w)
    (d : ScatterDims ⟨1, ![N]⟩ ⟨2, ![R, 1]⟩ ⟨1, ![R]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![R, 1]⟩ w) (upd : FVec Ideal ⟨1, ![R]⟩ φ) (n : Fin N) :
    Host.scatterAdd d x idx upd (ix1 n)
      = x (ix1 n) + ∑ r : Fin R, if (idx (ix2 r (0 : Fin 1))).toNat = n.val then upd (ix1 r) else 0 := by
  obtain ⟨uw, iw, sd, iv, wf⟩ := d
  simp only at huw hiw hsd hiv
  subst huw hiw hsd hiv
  exact vecScatterAdd_apply hN wf x idx upd n

/-! ## (d) Accumulating scatter of rows into a table: operand [N, C], scatter indices [R, 1], updates [R, C] -/

/-- The dimension numbers of a scatter of rows into a table: update axis 1 the window, operand axis 0 inserted and named
    by the scatter index, the index vector on axis 1 of the scatter indices. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where update (r, c) of the row scatter lands on the operand's row axis: at its row's index word read signed. -/
private theorem rowScatter_pos0 {N R C w : Nat} (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatterDims N R C wf).start (ix2 r c) idx 0 + ((rowScatterDims N R C wf).window (ix2 r c) 0 : Int)
      = (idx (ix2 r (0 : Fin 1))).toInt := by
  have hw : (rowScatterDims N R C wf).window (ix2 r c) 0 = 0 := by
    unfold ScatterDims.window
    rw [dif_neg (show (0 : Fin 2) ∉ (rowScatterDims N R C wf).sKept by
      show (0 : Fin 2) ∉ (List.finRange 2).filter (· ∉ [(0 : Fin 2)]); decide)]
  rw [hw]
  unfold ScatterDims.start
  rw [dif_pos (show (0 : Fin 2) ∈ (rowScatterDims N R C wf).scatterDimsToOperandDims from List.mem_singleton.mpr rfl)]
  have hsi : (rowScatterDims N R C wf).siIdx (ix2 r c) ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  simp

/-- Where update (r, c) of the row scatter lands on the operand's column axis: at column c. -/
private theorem rowScatter_pos1 {N R C w : Nat} (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatterDims N R C wf).start (ix2 r c) idx 1 + ((rowScatterDims N R C wf).window (ix2 r c) 1 : Int)
      = (c.val : Int) := by
  have hw : (rowScatterDims N R C wf).window (ix2 r c) 1 = c.val := by
    unfold ScatterDims.window
    rw [dif_pos (show (1 : Fin 2) ∈ (rowScatterDims N R C wf).sKept by
      show (1 : Fin 2) ∈ (List.finRange 2).filter (· ∉ [(0 : Fin 2)]); decide)]
    rfl
  rw [hw]
  unfold ScatterDims.start
  rw [dif_neg (show (1 : Fin 2) ∉ (rowScatterDims N R C wf).scatterDimsToOperandDims by
    show (1 : Fin 2) ∉ [(0 : Fin 2)]; decide)]
  simp

/-- Update (r, c) of the row scatter lands on element (n, k) exactly when row r's index word reads n signed and c is k. -/
private theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (c k : Fin C) (n : Fin N) :
    (rowScatterDims N R C wf).resultIdx? (ix2 r c) idx = some (ix2 n k)
      ↔ (idx (ix2 r (0 : Fin 1))).toInt = (n.val : Int) ∧ c = k := by
  unfold ScatterDims.resultIdx?
  split
  · next hr =>
    rw [Option.some.injEq]
    constructor
    · intro h
      have h1 : ((rowScatterDims N R C wf).start (ix2 r c) idx 0 + ((rowScatterDims N R C wf).window (ix2 r c) 0 : Int)).toNat = n.val :=
        congrArg Fin.val (congrFun h 0)
      have h2 := (hr 0).1
      have h3 : ((rowScatterDims N R C wf).start (ix2 r c) idx 1 + ((rowScatterDims N R C wf).window (ix2 r c) 1 : Int)).toNat = k.val :=
        congrArg Fin.val (congrFun h 1)
      rw [rowScatter_pos0] at h1 h2
      rw [rowScatter_pos1, Int.toNat_natCast] at h3
      exact ⟨by omega, Fin.ext h3⟩
    · rintro ⟨h, rfl⟩
      funext a
      refine Fin.ext ?_
      match a with
      | ⟨0, _⟩ =>
        show ((rowScatterDims N R C wf).start (ix2 r c) idx 0 + ((rowScatterDims N R C wf).window (ix2 r c) 0 : Int)).toNat = n.val
        rw [rowScatter_pos0, h]
        exact Int.toNat_natCast _
      | ⟨1, _⟩ =>
        show ((rowScatterDims N R C wf).start (ix2 r c) idx 1 + ((rowScatterDims N R C wf).window (ix2 r c) 1 : Int)).toNat = c.val
        rw [rowScatter_pos1]
        exact Int.toNat_natCast _
  · next hr =>
    constructor
    · intro h; exact absurd h (by simp)
    · rintro ⟨h, rfl⟩
      exfalso
      apply hr
      intro a
      match a with
      | ⟨0, _⟩ =>
        show 0 ≤ (rowScatterDims N R C wf).start (ix2 r c) idx 0 + ((rowScatterDims N R C wf).window (ix2 r c) 0 : Int)
          ∧ (rowScatterDims N R C wf).start (ix2 r c) idx 0 + ((rowScatterDims N R C wf).window (ix2 r c) 0 : Int) < ((N : Nat) : Int)
        rw [rowScatter_pos0, h]
        exact ⟨Int.natCast_nonneg _, by exact_mod_cast n.isLt⟩
      | ⟨1, _⟩ =>
        show 0 ≤ (rowScatterDims N R C wf).start (ix2 r c) idx 1 + ((rowScatterDims N R C wf).window (ix2 r c) 1 : Int)
          ∧ (rowScatterDims N R C wf).start (ix2 r c) idx 1 + ((rowScatterDims N R C wf).window (ix2 r c) 1 : Int) < ((C : Nat) : Int)
        rw [rowScatter_pos1]
        exact ⟨Int.natCast_nonneg _, by exact_mod_cast c.isLt⟩

/-- The accumulating row scatter at (n, k), for any scatter indices: the operand's element plus column k of the update
    rows whose index word reads n signed. -/
theorem rowScatterAdd_apply_toInt {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatterDims N R C wf) x idx upd (ix2 n k)
      = x (ix2 n k) + ∑ r : Fin R, if (idx (ix2 r (0 : Fin 1))).toInt = (n.val : Int) then upd (ix2 r k) else 0 := by
  show Ideal.hostScatterAdd (rowScatterDims N R C wf) x idx upd (ix2 n k) = _
  unfold Ideal.hostScatterAdd
  congr 1
  rw [Finset.sum_filter, sum_idx2]
  refine Finset.sum_congr rfl (fun r _ => ?_)
  rw [Finset.sum_congr rfl (fun c _ => if_congr (rowScatter_resultIdx_iff wf idx r c k n) rfl rfl)]
  by_cases hz : (idx (ix2 r (0 : Fin 1))).toInt = (n.val : Int)
  · simp only [hz, true_and, if_true]
    rw [Finset.sum_ite_eq' Finset.univ k (fun c => upd (ix2 r c)), if_pos (Finset.mem_univ k)]
  · simp only [hz, false_and, if_false]
    exact Finset.sum_const_zero

/-- The accumulating row scatter at (n, k) with the index words read unsigned (2 N ≤ 2 ^ w). -/
theorem rowScatterAdd_apply {N R C w : Nat} (hN : 2 * N ≤ 2 ^ w)
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatterDims N R C wf) x idx upd (ix2 n k)
      = x (ix2 n k) + ∑ r : Fin R, if (idx (ix2 r (0 : Fin 1))).toNat = n.val then upd (ix2 r k) else 0 := by
  rw [rowScatterAdd_apply_toInt]
  congr 1
  refine Finset.sum_congr rfl (fun r _ => ?_)
  exact if_congr (toInt_eq_iff_toNat_eq hN n.isLt _) rfl rfl

/-- The same for ANY record of those dimension numbers (each equation holds by reflexivity for a printed record). -/
theorem rowScatterAdd_apply_of_eq {N R C w : Nat} (hN : 2 * N ≤ 2 ^ w)
    (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![R, 1]⟩ w) (upd : FVec Ideal ⟨2, ![R, C]⟩ φ) (n : Fin N) (k : Fin C) :
    Host.scatterAdd d x idx upd (ix2 n k)
      = x (ix2 n k) + ∑ r : Fin R, if (idx (ix2 r (0 : Fin 1))).toNat = n.val then upd (ix2 r k) else 0 := by
  obtain ⟨uw, iw, sd, iv, wf⟩ := d
  simp only at huw hiw hsd hiv
  subst huw hiw hsd hiv
  exact rowScatterAdd_apply hN wf x idx upd n k

end Scatter

/-! ## (e) Six equal parts laid end to end along axis 0 -/

section Concat
variable {α : Type}

/-- Six vectors of R elements end to end, read at position j R + r: part j at r. -/
theorem concat6_vec_apply {R T : Nat} (p0 p1 p2 p3 p4 p5 : (⟨1, ![R]⟩ : Shape).Idx → α)
    (h : Shape.Concatenates (([⟨⟨1, ![R]⟩, p0⟩, ⟨⟨1, ![R]⟩, p1⟩, ⟨⟨1, ![R]⟩, p2⟩, ⟨⟨1, ![R]⟩, p3⟩, ⟨⟨1, ![R]⟩, p4⟩,
      ⟨⟨1, ![R]⟩, p5⟩] : List ((s : Shape) × (s.Idx → α))).map (·.1)) ⟨1, ![T]⟩ 0)
    (j : Fin 6) (r : Fin R) (hq : j.val * R + r.val < T) :
    concatenate ⟨1, ![T]⟩ 0 [⟨⟨1, ![R]⟩, p0⟩, ⟨⟨1, ![R]⟩, p1⟩, ⟨⟨1, ![R]⟩, p2⟩, ⟨⟨1, ![R]⟩, p3⟩, ⟨⟨1, ![R]⟩, p4⟩,
      ⟨⟨1, ![R]⟩, p5⟩] h (ix1 ⟨j.val * R + r.val, hq⟩) = (![p0, p1, p2, p3, p4, p5] j) (ix1 r) := by
  match j with
  | ⟨0, _⟩ =>
    exact concatenate_apply_piece (t := ⟨1, ![T]⟩) 0 _ h _ 0 (by simp) ⟨1, ![R]⟩ p0 rfl rfl (0 * R)
      (by show 0 = 0 * R; omega) (ix1 r)
      (fun b hb => absurd (Subsingleton.elim _ _) hb) (by show 0 * R + r.val = 0 * R + r.val; rfl)
  | ⟨1, _⟩ =>
    exact concatenate_apply_piece (t := ⟨1, ![T]⟩) 0 _ h _ 1 (by simp) ⟨1, ![R]⟩ p1 rfl rfl (1 * R)
      (by show R + (0) = 1 * R; omega) (ix1 r)
      (fun b hb => absurd (Subsingleton.elim _ _) hb) (by show 1 * R + r.val = 1 * R + r.val; rfl)
  | ⟨2, _⟩ =>
    exact concatenate_apply_piece (t := ⟨1, ![T]⟩) 0 _ h _ 2 (by simp) ⟨1, ![R]⟩ p2 rfl rfl (2 * R)
      (by show R + (R + (0)) = 2 * R; omega) (ix1 r)
      (fun b hb => absurd (Subsingleton.elim _ _) hb) (by show 2 * R + r.val = 2 * R + r.val; rfl)
  | ⟨3, _⟩ =>
    exact concatenate_apply_piece (t := ⟨1, ![T]⟩) 0 _ h _ 3 (by simp) ⟨1, ![R]⟩ p3 rfl rfl (3 * R)
      (by show R + (R + (R + (0))) = 3 * R; omega) (ix1 r)
      (fun b hb => absurd (Subsingleton.elim _ _) hb) (by show 3 * R + r.val = 3 * R + r.val; rfl)
  | ⟨4, _⟩ =>
    exact concatenate_apply_piece (t := ⟨1, ![T]⟩) 0 _ h _ 4 (by simp) ⟨1, ![R]⟩ p4 rfl rfl (4 * R)
      (by show R + (R + (R + (R + (0)))) = 4 * R; omega) (ix1 r)
      (fun b hb => absurd (Subsingleton.elim _ _) hb) (by show 4 * R + r.val = 4 * R + r.val; rfl)
  | ⟨5, _⟩ =>
    exact concatenate_apply_piece (t := ⟨1, ![T]⟩) 0 _ h _ 5 (by simp) ⟨1, ![R]⟩ p5 rfl rfl (5 * R)
      (by show R + (R + (R + (R + (R + (0))))) = 5 * R; omega) (ix1 r)
      (fun b hb => absurd (Subsingleton.elim _ _) hb) (by show 5 * R + r.val = 5 * R + r.val; rfl)

/-- Six tables of R rows end to end, read at row j R + r and column k: part j at (r, k). -/
theorem concat6_rows_apply {R C T : Nat} (p0 p1 p2 p3 p4 p5 : (⟨2, ![R, C]⟩ : Shape).Idx → α)
    (h : Shape.Concatenates (([⟨⟨2, ![R, C]⟩, p0⟩, ⟨⟨2, ![R, C]⟩, p1⟩, ⟨⟨2, ![R, C]⟩, p2⟩, ⟨⟨2, ![R, C]⟩, p3⟩,
      ⟨⟨2, ![R, C]⟩, p4⟩, ⟨⟨2, ![R, C]⟩, p5⟩] : List ((s : Shape) × (s.Idx → α))).map (·.1)) ⟨2, ![T, C]⟩ 0)
    (j : Fin 6) (r : Fin R) (k : Fin C) (hq : j.val * R + r.val < T) :
    concatenate ⟨2, ![T, C]⟩ 0 [⟨⟨2, ![R, C]⟩, p0⟩, ⟨⟨2, ![R, C]⟩, p1⟩, ⟨⟨2, ![R, C]⟩, p2⟩, ⟨⟨2, ![R, C]⟩, p3⟩,
      ⟨⟨2, ![R, C]⟩, p4⟩, ⟨⟨2, ![R, C]⟩, p5⟩] h (ix2 ⟨j.val * R + r.val, hq⟩ k) = (![p0, p1, p2, p3, p4, p5] j) (ix2 r k) := by
  match j with
  | ⟨0, _⟩ =>
    exact concatenate_apply_piece (t := ⟨2, ![T, C]⟩) 0 _ h _ 0 (by simp) ⟨2, ![R, C]⟩ p0 rfl rfl (0 * R)
      (by show 0 = 0 * R; omega) (ix2 r k)
      (fun b hb => by
        match b with
        | ⟨0, _⟩ => exact absurd rfl hb
        | ⟨1, _⟩ => rfl)
      (by show 0 * R + r.val = 0 * R + r.val; rfl)
  | ⟨1, _⟩ =>
    exact concatenate_apply_piece (t := ⟨2, ![T, C]⟩) 0 _ h _ 1 (by simp) ⟨2, ![R, C]⟩ p1 rfl rfl (1 * R)
      (by show R + (0) = 1 * R; omega) (ix2 r k)
      (fun b hb => by
        match b with
        | ⟨0, _⟩ => exact absurd rfl hb
        | ⟨1, _⟩ => rfl)
      (by show 1 * R + r.val = 1 * R + r.val; rfl)
  | ⟨2, _⟩ =>
    exact concatenate_apply_piece (t := ⟨2, ![T, C]⟩) 0 _ h _ 2 (by simp) ⟨2, ![R, C]⟩ p2 rfl rfl (2 * R)
      (by show R + (R + (0)) = 2 * R; omega) (ix2 r k)
      (fun b hb => by
        match b with
        | ⟨0, _⟩ => exact absurd rfl hb
        | ⟨1, _⟩ => rfl)
      (by show 2 * R + r.val = 2 * R + r.val; rfl)
  | ⟨3, _⟩ =>
    exact concatenate_apply_piece (t := ⟨2, ![T, C]⟩) 0 _ h _ 3 (by simp) ⟨2, ![R, C]⟩ p3 rfl rfl (3 * R)
      (by show R + (R + (R + (0))) = 3 * R; omega) (ix2 r k)
      (fun b hb => by
        match b with
        | ⟨0, _⟩ => exact absurd rfl hb
        | ⟨1, _⟩ => rfl)
      (by show 3 * R + r.val = 3 * R + r.val; rfl)
  | ⟨4, _⟩ =>
    exact concatenate_apply_piece (t := ⟨2, ![T, C]⟩) 0 _ h _ 4 (by simp) ⟨2, ![R, C]⟩ p4 rfl rfl (4 * R)
      (by show R + (R + (R + (R + (0)))) = 4 * R; omega) (ix2 r k)
      (fun b hb => by
        match b with
        | ⟨0, _⟩ => exact absurd rfl hb
        | ⟨1, _⟩ => rfl)
      (by show 4 * R + r.val = 4 * R + r.val; rfl)
  | ⟨5, _⟩ =>
    exact concatenate_apply_piece (t := ⟨2, ![T, C]⟩) 0 _ h _ 5 (by simp) ⟨2, ![R, C]⟩ p5 rfl rfl (5 * R)
      (by show R + (R + (R + (R + (R + (0))))) = 5 * R; omega) (ix2 r k)
      (fun b hb => by
        match b with
        | ⟨0, _⟩ => exact absurd rfl hb
        | ⟨1, _⟩ => rfl)
      (by show 5 * R + r.val = 5 * R + r.val; rfl)

/-- A sum over 6 R positions is the sum over the six parts of the sums over a part's R positions. -/
theorem sum_fin_six_mul {M : Type*} [AddCommMonoid M] {R T : Nat} (hT : 6 * R = T) (g : Fin T → M) :
    ∑ q : Fin T, g q = ∑ j : Fin 6, ∑ r : Fin R, g ⟨j.val * R + r.val, by
      have := j.isLt; have := r.isLt; subst hT; nlinarith⟩ := by
  subst hT
  rw [← Equiv.sum_comp (finProdFinEquiv (m := 6) (n := R)) g, Fintype.sum_prod_type]
  refine Finset.sum_congr rfl (fun j _ => Finset.sum_congr rfl (fun r _ => ?_))
  congr 1
  refine Fin.ext ?_
  show r.val + R * j.val = j.val * R + r.val
  rw [Nat.mul_comm, Nat.add_comm]

/-! ## (f) Parts of widths 3, 1, 1 side by side along axis 1 -/

/-- Columns 0, 1, 2 of the concatenation are the first part's. -/
theorem concat311_apply_a {R : Nat} (a : (⟨2, ![R, 3]⟩ : Shape).Idx → α) (b c : (⟨2, ![R, 1]⟩ : Shape).Idx → α)
    (h : Shape.Concatenates (([⟨⟨2, ![R, 3]⟩, a⟩, ⟨⟨2, ![R, 1]⟩, b⟩, ⟨⟨2, ![R, 1]⟩, c⟩] :
      List ((s : Shape) × (s.Idx → α))).map (·.1)) ⟨2, ![R, 5]⟩ 1)
    (r : Fin R) (k : Fin 3) :
    concatenate ⟨2, ![R, 5]⟩ 1 [⟨⟨2, ![R, 3]⟩, a⟩, ⟨⟨2, ![R, 1]⟩, b⟩, ⟨⟨2, ![R, 1]⟩, c⟩] h
      (ix2 r (⟨k.val, by have := k.isLt; omega⟩ : Fin 5)) = a (ix2 r k) := by
  exact concatenate_apply_piece (t := ⟨2, ![R, 5]⟩) 1 _ h _ 0 (by simp) ⟨2, ![R, 3]⟩ a rfl rfl 0 rfl (ix2 r k)
      (fun q hq => by
        match q with
        | ⟨0, _⟩ => rfl
        | ⟨1, _⟩ => exact absurd rfl hq)
      (by show 0 + k.val = k.val; omega)

/-- Column 3 of the concatenation is the second part. -/
theorem concat311_apply_b {R : Nat} (a : (⟨2, ![R, 3]⟩ : Shape).Idx → α) (b c : (⟨2, ![R, 1]⟩ : Shape).Idx → α)
    (h : Shape.Concatenates (([⟨⟨2, ![R, 3]⟩, a⟩, ⟨⟨2, ![R, 1]⟩, b⟩, ⟨⟨2, ![R, 1]⟩, c⟩] :
      List ((s : Shape) × (s.Idx → α))).map (·.1)) ⟨2, ![R, 5]⟩ 1)
    (r : Fin R) :
    concatenate ⟨2, ![R, 5]⟩ 1 [⟨⟨2, ![R, 3]⟩, a⟩, ⟨⟨2, ![R, 1]⟩, b⟩, ⟨⟨2, ![R, 1]⟩, c⟩] h (ix2 r (3 : Fin 5))
      = b (ix2 r (0 : Fin 1)) := by
  exact concatenate_apply_piece (t := ⟨2, ![R, 5]⟩) 1 _ h _ 1 (by simp) ⟨2, ![R, 1]⟩ b rfl rfl 3 rfl (ix2 r (0 : Fin 1))
      (fun q hq => by
        match q with
        | ⟨0, _⟩ => rfl
        | ⟨1, _⟩ => exact absurd rfl hq)
      rfl

/-- Column 4 of the concatenation is the third part. -/
theorem concat311_apply_c {R : Nat} (a : (⟨2, ![R, 3]⟩ : Shape).Idx → α) (b c : (⟨2, ![R, 1]⟩ : Shape).Idx → α)
    (h : Shape.Concatenates (([⟨⟨2, ![R, 3]⟩, a⟩, ⟨⟨2, ![R, 1]⟩, b⟩, ⟨⟨2, ![R, 1]⟩, c⟩] :
      List ((s : Shape) × (s.Idx → α))).map (·.1)) ⟨2, ![R, 5]⟩ 1)
    (r : Fin R) :
    concatenate ⟨2, ![R, 5]⟩ 1 [⟨⟨2, ![R, 3]⟩, a⟩, ⟨⟨2, ![R, 1]⟩, b⟩, ⟨⟨2, ![R, 1]⟩, c⟩] h (ix2 r (4 : Fin 5))
      = c (ix2 r (0 : Fin 1)) := by
  exact concatenate_apply_piece (t := ⟨2, ![R, 5]⟩) 1 _ h _ 2 (by simp) ⟨2, ![R, 1]⟩ c rfl rfl 4 rfl (ix2 r (0 : Fin 1))
      (fun q hq => by
        match q with
        | ⟨0, _⟩ => rfl
        | ⟨1, _⟩ => exact absurd rfl hq)
      rfl

/-- The concatenation at any column: the first part below column 3, the second at column 3, the third at column 4. -/
theorem concat311_apply {R : Nat} (a : (⟨2, ![R, 3]⟩ : Shape).Idx → α) (b c : (⟨2, ![R, 1]⟩ : Shape).Idx → α)
    (h : Shape.Concatenates (([⟨⟨2, ![R, 3]⟩, a⟩, ⟨⟨2, ![R, 1]⟩, b⟩, ⟨⟨2, ![R, 1]⟩, c⟩] :
      List ((s : Shape) × (s.Idx → α))).map (·.1)) ⟨2, ![R, 5]⟩ 1)
    (r : Fin R) (k : Fin 5) :
    concatenate ⟨2, ![R, 5]⟩ 1 [⟨⟨2, ![R, 3]⟩, a⟩, ⟨⟨2, ![R, 1]⟩, b⟩, ⟨⟨2, ![R, 1]⟩, c⟩] h (ix2 r k)
      = if hk : k.val < 3 then a (ix2 r ⟨k.val, hk⟩) else if k.val = 3 then b (ix2 r (0 : Fin 1)) else c (ix2 r (0 : Fin 1)) := by
  match k with
  | ⟨0, _⟩ => exact concat311_apply_a a b c h r 0
  | ⟨1, _⟩ => exact concat311_apply_a a b c h r 1
  | ⟨2, _⟩ => exact concat311_apply_a a b c h r 2
  | ⟨3, _⟩ => exact concat311_apply_b a b c h r
  | ⟨4, _⟩ => exact concat311_apply_c a b c h r

end Concat

end Cert.LibRead

end
-- ==== Proof.LibTypedRead.lean ====
/-
  Reading a host operation's result through a TYPED reference, without transports.

  A function that jax outlined (a softmax, a clip) prints once, over references that carry the type of the tensor they
  hold (`StableHlo.TRef sig T`); each of its operations moves its function to the reference's own buffer type along the
  equation `ref.ty = T` (`TRef.toBuf` / `TRef.ofBuf`: a `cast` each way). Read back with the untyped result lemmas, every
  intermediate value comes out wrapped in such a pair of casts, and a term with a cast at its head above a large
  operation is expensive to compare with anything: the comparison opens the operation before it opens the cast.

  So read a typed reference AT ITS TYPE: `read x V` is `V` at `x`'s buffer, moved to `T`. Then every typed builder has a
  result lemma with no cast in it — `read y` of a `TRef.binary a b y f` is `f (read a V) (read b V)` — because moving a value
  to the buffer's type and back is the identity for ANY typed reference (`ofBuf_toBuf`: by `subst` of the reference's
  type equation, no computation). At a literal reference `read (.of r) V = V r` by `rfl`, on a term with nothing under it.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Ty : BufTy}

/-- The contents of a typed reference's buffer, at the reference's type. -/
def read (x : TRef sig T) (V : Valuation τ sig Val) : T.Contents Val := x.ofBuf (V (Proc.devRef .tc x.ref))

/-- To the buffer's type and back is the identity, whatever the reference. -/
theorem ofBuf_toBuf (x : TRef sig T) (v : T.Contents Val) : x.ofBuf (x.toBuf (Val := Val) v) = v := by
  obtain ⟨r, h, h2, h3⟩ := x
  subst h
  rfl

/-! ## A typed builder's result at its own reference -/

theorem read_nullary (y : TRef sig Ty) (v : Ty.Contents Val) (V : Valuation τ sig Val) :
    read y ((no_index (TRef.nullary (τ := τ) y v)).result V) = v := by
  unfold read
  exact (congrArg y.ofBuf (nullary_result y.ref (y.toBuf v) y.dev V)).trans (ofBuf_toBuf y v)

theorem read_unary (x : TRef sig Tx) (y : TRef sig Ty) (f : Tx.Contents Val → Ty.Contents Val) (V : Valuation τ sig Val) :
    read y ((no_index (TRef.unary (τ := τ) x y f)).result V) = f (read x V) := by
  unfold read
  exact (congrArg y.ofBuf (unary_result x.ref y.ref (fun u => y.toBuf (f (x.ofBuf u))) x.dev y.dev V)).trans
    (ofBuf_toBuf y _)

theorem read_binary (a : TRef sig Ta) (b : TRef sig Tb) (y : TRef sig Ty)
    (f : Ta.Contents Val → Tb.Contents Val → Ty.Contents Val) (V : Valuation τ sig Val) :
    read y ((no_index (TRef.binary (τ := τ) a b y f)).result V) = f (read a V) (read b V) := by
  unfold read
  exact (congrArg y.ofBuf (binary_result a.ref b.ref y.ref (fun u v => y.toBuf (f (a.ofBuf u) (b.ofBuf v))) a.dev b.dev y.dev V)).trans
    (ofBuf_toBuf y _)

/-! ## … and at any other reference: what was there -/

theorem read_nullary_ne (z : TRef sig T) (y : TRef sig Ty) (v : Ty.Contents Val) (V : Valuation τ sig Val) (h : z.ref ≠ y.ref) :
    read z ((no_index (TRef.nullary (τ := τ) y v)).result V) = read z V := by
  unfold read
  exact congrArg z.ofBuf (nullary_result_ne (y := y.ref) (y.toBuf v) y.dev V h)

theorem read_unary_ne (z : TRef sig T) (x : TRef sig Tx) (y : TRef sig Ty) (f : Tx.Contents Val → Ty.Contents Val)
    (V : Valuation τ sig Val) (h : z.ref ≠ y.ref) :
    read z ((no_index (TRef.unary (τ := τ) x y f)).result V) = read z V := by
  unfold read
  exact congrArg z.ofBuf (unary_result_ne (x := x.ref) (y := y.ref) (fun u => y.toBuf (f (x.ofBuf u))) x.dev y.dev V h)

theorem read_binary_ne (z : TRef sig T) (a : TRef sig Ta) (b : TRef sig Tb) (y : TRef sig Ty)
    (f : Ta.Contents Val → Tb.Contents Val → Ty.Contents Val) (V : Valuation τ sig Val) (h : z.ref ≠ y.ref) :
    read z ((no_index (TRef.binary (τ := τ) a b y f)).result V) = read z V := by
  unfold read
  exact congrArg z.ofBuf (binary_result_ne (a := a.ref) (b := b.ref) (y := y.ref) (fun u v => y.toBuf (f (a.ofBuf u) (b.ofBuf v))) a.dev b.dev y.dev V h)

end Cert.TypedRead

end
-- ==== Proof.KI.ValueA0.lean ====
/-
  The three gathered corner arrays that region 0 reads, on the extended reals: the face array's three columns name
  the corners; a corner in range is its own normalisation and passes the range mask, so the fill is never selected and the
  gathered column of the transposed vertex array is the corner's position.
-/
import proofs.«429528_j48808008352295_3_alg».proof.Proof.KI.Run
import proofs.«429528_j48808008352295_3_alg».proof.Proof.KI.Args
import proofs.«429528_j48808008352295_3_alg».proof.Proof.Spec
import proofs.«429528_j48808008352295_3_alg».proof.Proof.LibRead
import proofs.«429528_j48808008352295_3_alg».proof.Proof.LibTypedRead
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Cert.Spec Cert.TypedRead

namespace A0

/-! ## A three-operand operation read through typed references -/

section TypedTernary

variable {τ : Topo} {sig : RefSig} {Val : EltTy → Type} {T Ta Tb Tc Ty : BufTy}

/-- A three-operand typed builder's result at its own reference: its function of the three operands' contents. -/
theorem read_ternary (c : TRef sig Tc) (a : TRef sig Ta) (b : TRef sig Tb) (y : TRef sig Ty)
    (f : Tc.Contents Val → Ta.Contents Val → Tb.Contents Val → Ty.Contents Val) (V : Valuation τ sig Val) :
    TypedRead.read y ((no_index (TRef.ternary (τ := τ) c a b y f)).result V)
      = f (TypedRead.read c V) (TypedRead.read a V) (TypedRead.read b V) := by
  unfold TypedRead.read
  exact (congrArg y.ofBuf (ternary_result c.ref a.ref b.ref y.ref
    (fun w u v => y.toBuf (f (c.ofBuf w) (a.ofBuf u) (b.ofBuf v))) c.dev a.dev b.dev y.dev V)).trans (ofBuf_toBuf y _)

/-- … and at any other reference: what was there. -/
theorem read_ternary_ne (z : TRef sig T) (c : TRef sig Tc) (a : TRef sig Ta) (b : TRef sig Tb) (y : TRef sig Ty)
    (f : Tc.Contents Val → Ta.Contents Val → Tb.Contents Val → Ty.Contents Val) (V : Valuation τ sig Val)
    (h : z.ref ≠ y.ref) :
    TypedRead.read z ((no_index (TRef.ternary (τ := τ) c a b y f)).result V) = TypedRead.read z V := by
  unfold TypedRead.read
  exact congrArg z.ofBuf (ternary_result_ne (c := c.ref) (a := a.ref) (b := b.ref) (y := y.ref)
    (fun w u v => y.toBuf (f (c.ofBuf w) (a.ofBuf u) (b.ofBuf v))) c.dev a.dev b.dev y.dev V h)

end TypedTernary

/-! ## One call of the take function, on contents -/

section Take

/-- A fold by the conjunction of one-bit words from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_ones x hx l

/-- The conjunction over any axes of a mask that is 1 everywhere, from 1, is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x hx _

variable (hb0 : S_.BroadcastsInDim S2097152 (![] : Fin 0 → Fin S2097152.rank))
  (hb5 : S2097152.BroadcastsInDim S2097152x1 (![0] : Fin 1 → Fin S2097152x1.rank))

/-- The index column as the gather reads it: a negative index moved up by the table's length, as a column. -/
abbrev normIdx (col : IVec S2097152 32) : IVec S2097152x1 32 :=
  broadcastInDim S2097152x1 ![0] hb5
    (select (cmpi .slt col (broadcastInDim S2097152 ![] hb0 (constantI S_ 32 0#32)))
      (addi col (broadcastInDim S2097152 ![] hb0 (constantI S_ 32 262144#32))) col)

/-- An index in range is its own normalisation. -/
theorem normIdx_apply (col : IVec S2097152 32) (g : Fin NF) (h : (col (ix1 g)).toNat < 262144) :
    normIdx hb0 hb5 col (ix2 g (0 : Fin 1)) = col (ix1 g) := by
  unfold normIdx
  rw [broadcastInDim_apply ![0] hb5 _ (ix2 g (0 : Fin 1)) (ix1 g)
    (fun a => match a with | ⟨0, _⟩ => (if_neg (show ¬ (2097152 : Nat) = 1 by decide)).symm)]
  show Scalar.select (IntOp.cmpi .slt (col (ix1 g)) 0#32) (IntOp.addi (col (ix1 g)) 262144#32) (col (ix1 g)) = col (ix1 g)
  have hz : IntOp.cmpi .slt (col (ix1 g)) 0#32 = 0#1 := eq_zero_of_ne_one (fun e =>
    Nat.not_lt_zero _ ((Predicate.slt_iff_toNat (by omega) (by decide)).mp e))
  rw [hz, select_zero]

variable (hb6 : S_.BroadcastsInDim S2097152x1 (![] : Fin 0 → Fin S2097152x1.rank))
  (hb8 : S1.BroadcastsInDim S1x1 (![1] : Fin 1 → Fin S1x1.rank))
  (hb9 : S1x1.BroadcastsInDim S2097152x1 (![0, 1] : Fin 2 → Fin S2097152x1.rank))

/-- The range mask 0 ≤ i ≤ 262143 of the normalised index column. -/
abbrev rangeMask (col : IVec S2097152 32) : IVec S2097152x1 1 :=
  andi (cmpi .sge (normIdx hb0 hb5 col) (broadcastInDim S2097152x1 ![] hb6 (constantI S_ 32 0#32)))
    (cmpi .sle (normIdx hb0 hb5 col)
      (broadcastInDim S2097152x1 ![0, 1] hb9 (broadcastInDim S1x1 ![1] hb8 (constantI S1 32 262143#32))))

/-- With every index in range the mask is 1 everywhere. -/
theorem rangeMask_apply (col : IVec S2097152 32) (hcol : ∀ g : Fin NF, (col (ix1 g)).toNat < 262144)
    (i : S2097152x1.Idx) : rangeMask hb0 hb5 hb6 hb8 hb9 col i = 1#1 := by
  have hi : i = ix2 (i 0) (0 : Fin 1) := by
    have h1 : i 1 = (0 : Fin 1) := Fin.ext (Nat.lt_one_iff.mp (idx2_lt1 (n0 := 2097152) (n1 := 1) i))
    exact (eq_ix2 i).trans (congrArg (ix2 (i 0)) h1)
  rw [hi]
  show IntOp.andi (IntOp.cmpi .sge (normIdx hb0 hb5 col (ix2 (i 0) (0 : Fin 1))) 0#32)
    (IntOp.cmpi .sle (normIdx hb0 hb5 col (ix2 (i 0) (0 : Fin 1))) 262143#32) = 1#1
  rw [normIdx_apply hb0 hb5 col (i 0) (hcol (i 0))]
  have hlt := hcol (i 0)
  have h9 : (262143#32 : BitVec 32).toNat = 262143 := rfl
  rw [(Predicate.sge_iff_toNat (by omega) (by decide)).mpr (Nat.zero_le _),
    (Predicate.sle_iff_toNat (by omega) (by decide)).mpr (by omega)]
  rfl

variable (hred : S2097152x1.ReducesTo [1] S2097152) (hu : 0 < S_.numel)
  (hb14 : S2097152.BroadcastsInDim S3x2097152 (![1] : Fin 1 → Fin S3x2097152.rank))
  (hb15 : S_.BroadcastsInDim S3x2097152 (![] : Fin 0 → Fin S3x2097152.rank))
  (d : GatherDims S3x262144 S2097152x1 S3x2097152)

/-- The take of a table's columns at an index column, every index in range: at (k, f) the table at (k, index f); the
    fill is never selected. -/
theorem take_apply (hod : d.offsetDims = [0]) (hcd : d.collapsedSliceDims = [1]) (hob : d.operandBatchingDims = [])
    (hsb : d.startIndicesBatchingDims = []) (hsim : d.startIndexMap = [1]) (hiv : d.indexVectorDim = 1)
    (hss : d.sliceSizes = ![3, 1])
    (tab : FVec Ideal S3x262144 .f32) (col : IVec S2097152 32) (hcol : ∀ g : Fin NF, (col (ix1 g)).toNat < 262144)
    (k : Fin 3) (f : Fin NF) :
    select (broadcastInDim S3x2097152 ![1] hb14
        (Host.reduce IntOp.andi (rangeMask hb0 hb5 hb6 hb8 hb9 col) (constantI S_ 1 1#1) hred hu))
      (Host.gather d tab (normIdx hb0 hb5 col))
      (broadcastInDim S3x2097152 ![] hb15 (constant (F := Ideal) S_ .f32 0x7FC00000#32)) (ix2 k f)
      = tab (ix2 k ⟨(col (ix1 f)).toNat, hcol f⟩) := by
  rw [select_apply, broadcastInDim_apply ![1] hb14 _ (ix2 k f) (ix1 f)
    (fun a => match a with | ⟨0, _⟩ => (if_neg (show ¬ (2097152 : Nat) = 1 by decide)).symm),
    reduce_andi_ones (rangeMask hb0 hb5 hb6 hb8 hb9 col) (constantI S_ 1 1#1) hred hu (rangeMask_apply hb0 hb5 hb6 hb8 hb9 col hcol) (fun _ => rfl), select_one]
  have h5 : ((normIdx hb0 hb5 col) (ix2 f (0 : Fin 1))).toNat < 262144 := by
    rw [normIdx_apply hb0 hb5 col f (hcol f)]; exact hcol f
  rw [Cert.LibRead.colGather_apply_of_eq (by norm_num) d hod hcd hob hsb hsim hiv hss tab (normIdx hb0 hb5 col) k f h5]
  refine congrArg tab (congrArg (ix2 k) (Fin.ext ?_))
  show ((normIdx hb0 hb5 col) (ix2 f (0 : Fin 1))).toNat = (col (ix1 f)).toNat
  rw [normIdx_apply hb0 hb5 col f (hcol f)]

end Take

/-! ## The host stretches before region 0 -/

section Run

variable (V : Valuation τ sig (Elt Ideal))

/-- The transposed vertex array at (k, n) is the vertex array at (n, k). -/
theorem hostOps0_v6 (k : Fin 3) (n : Fin NV) :
    after hostOps0 V (Proc.devRef .tc main_v6) (ix2 k n) = V (Proc.devRef .tc main_arg0) (ix2 n k) := by
  after_results
  exact transpose_ix2_apply _ _ k n

/-- Column 0 of the face array, as a vector. -/
theorem hostOps0_v1 (g : Fin NF) :
    after hostOps0 V (Proc.devRef .tc main_v1) (ix1 g) = V (Proc.devRef .tc main_arg1) (ix2 g (0 : Fin 3)) := by
  after_results
  show shapeCast S2097152 (extractStridedSlice S2097152x1 ![0, 0] (V (Proc.devRef .tc main_arg1)) _) _ (ix1 g) = _
  rw [shapeCast_apply _ _ (ix1 g) (ix2 g (0 : Fin 1)) (by
    rw [Shape.rowMajor_val_two, Shape.rowMajor_val_one]; show g.val * 1 + 0 = g.val; omega)]
  exact slice2_axis1_apply 0 _ _ g (0 : Fin 1) (0 : Fin 3) rfl

/-- Column 1 of the face array, as a vector. -/
theorem hostOps0_v3 (g : Fin NF) :
    after hostOps0 V (Proc.devRef .tc main_v3) (ix1 g) = V (Proc.devRef .tc main_arg1) (ix2 g (1 : Fin 3)) := by
  after_results
  show shapeCast S2097152 (extractStridedSlice S2097152x1 ![0, 1] (V (Proc.devRef .tc main_arg1)) _) _ (ix1 g) = _
  rw [shapeCast_apply _ _ (ix1 g) (ix2 g (0 : Fin 1)) (by
    rw [Shape.rowMajor_val_two, Shape.rowMajor_val_one]; show g.val * 1 + 0 = g.val; omega)]
  exact slice2_axis1_apply 1 _ _ g (0 : Fin 1) (1 : Fin 3) rfl

/-- Column 2 of the face array, as a vector. -/
theorem hostOps0_v5 (g : Fin NF) :
    after hostOps0 V (Proc.devRef .tc main_v5) (ix1 g) = V (Proc.devRef .tc main_arg1) (ix2 g (2 : Fin 3)) := by
  after_results
  show shapeCast S2097152 (extractStridedSlice S2097152x1 ![0, 2] (V (Proc.devRef .tc main_arg1)) _) _ (ix1 g) = _
  rw [shapeCast_apply _ _ (ix1 g) (ix2 g (0 : Fin 1)) (by
    rw [Shape.rowMajor_val_two, Shape.rowMajor_val_one]; show g.val * 1 + 0 = g.val; omega)]
  exact slice2_axis1_apply 2 _ _ g (0 : Fin 1) (2 : Fin 3) rfl

/-- The first call of the take function, every index of column 0 in range: the table's column the index names. -/
theorem take0_run
    (hcol : ∀ g : Fin NF, (V (Proc.devRef .tc main_v1) (ix1 g)).toNat < 262144) (k : Fin 3) (f : Fin NF) :
    after hostOps0_1 V (Proc.devRef .tc main_v7) (ix2 k f)
      = V (Proc.devRef .tc main_v6) (ix2 k ⟨(V (Proc.devRef .tc main_v1) (ix1 f)).toNat, hcol f⟩) := by
  show read (.of main_v7 : TRef sig ⟨S3x2097152, .f32⟩) (after hostOps0_1 V) (ix2 k f)
    = read (.of main_v6 : TRef sig ⟨S3x262144, .f32⟩) V
        (ix2 k ⟨(read (.of main_v1 : TRef sig ⟨S2097152, .i32⟩) V (ix1 f)).toNat, hcol f⟩)
  simp only [after_cons, after_nil]
  simp (disch := decide) only [read_nullary, read_unary, read_binary, read_ternary,
    read_nullary_ne, read_unary_ne, read_binary_ne, read_ternary_ne]
  exact take_apply _ _ _ _ _ _ _ _ _ _ rfl rfl rfl rfl rfl rfl rfl _ _ hcol k f

/-- The second call of the take function, every index of column 1 in range: the table's column the index names. -/
theorem take1_run
    (hcol : ∀ g : Fin NF, (V (Proc.devRef .tc main_v3) (ix1 g)).toNat < 262144) (k : Fin 3) (f : Fin NF) :
    after hostOps0_2 V (Proc.devRef .tc main_v8) (ix2 k f)
      = V (Proc.devRef .tc main_v6) (ix2 k ⟨(V (Proc.devRef .tc main_v3) (ix1 f)).toNat, hcol f⟩) := by
  show read (.of main_v8 : TRef sig ⟨S3x2097152, .f32⟩) (after hostOps0_2 V) (ix2 k f)
    = read (.of main_v6 : TRef sig ⟨S3x262144, .f32⟩) V
        (ix2 k ⟨(read (.of main_v3 : TRef sig ⟨S2097152, .i32⟩) V (ix1 f)).toNat, hcol f⟩)
  simp only [after_cons, after_nil]
  simp (disch := decide) only [read_nullary, read_unary, read_binary, read_ternary,
    read_nullary_ne, read_unary_ne, read_binary_ne, read_ternary_ne]
  exact take_apply _ _ _ _ _ _ _ _ _ _ rfl rfl rfl rfl rfl rfl rfl _ _ hcol k f

/-- The third call of the take function, every index of column 2 in range: the table's column the index names. -/
theorem take2_run
    (hcol : ∀ g : Fin NF, (V (Proc.devRef .tc main_v5) (ix1 g)).toNat < 262144) (k : Fin 3) (f : Fin NF) :
    after hostOps0_3 V (Proc.devRef .tc main_v9) (ix2 k f)
      = V (Proc.devRef .tc main_v6) (ix2 k ⟨(V (Proc.devRef .tc main_v5) (ix1 f)).toNat, hcol f⟩) := by
  show read (.of main_v9 : TRef sig ⟨S3x2097152, .f32⟩) (after hostOps0_3 V) (ix2 k f)
    = read (.of main_v6 : TRef sig ⟨S3x262144, .f32⟩) V
        (ix2 k ⟨(read (.of main_v5 : TRef sig ⟨S2097152, .i32⟩) V (ix1 f)).toNat, hcol f⟩)
  simp only [after_cons, after_nil]
  simp (disch := decide) only [read_nullary, read_unary, read_binary, read_ternary,
    read_nullary_ne, read_unary_ne, read_binary_ne, read_ternary_ne]
  exact take_apply _ _ _ _ _ _ _ _ _ _ rfl rfl rfl rfl rfl rfl rfl _ _ hcol k f

end Run

/-! ## From the argument arrays to the specification's functions -/

section Args

variable (m : (ℓ : Loc nD τ sig) → Buf (Elt Ideal) ℓ)
variable (c : Dev nD) (hr : InRange (m ((c.tc : Thread nD τ).loc main_arg1)))

/-- The specification's vertex function at (n, k) is the vertex array at (n, k). -/
theorem vtxOf_eq (a : (⟨2, ![262144, 3]⟩ : Shape).Idx → EReal) (n : Fin NV) (k : Fin 3) : vtxOf a n k = a (ix2 n k) := by
  show a _ = _
  refine congrArg a (funext fun e => ?_)
  match e with
  | ⟨0, _⟩ => rfl
  | ⟨1, _⟩ => rfl

/-- The specification's corner function at (f, s) is the face array's word at (f, s), unsigned. -/
theorem idxOf_val (b : (⟨2, ![2097152, 3]⟩ : Shape).Idx → BitVec 32) (h : InRange b) (f : Fin NF) (s : Fin 3) :
    (idxOf b h f s).val = (b (ix2 f s)).toNat := by
  show (b _).toNat = _
  refine congrArg (fun i => (b i).toNat) (funext fun e => ?_)
  match e with
  | ⟨0, _⟩ => rfl
  | ⟨1, _⟩ => rfl

/-- A corner's coordinate, read off the two argument arrays. -/
theorem vert_eq (s : Fin 3) (f : Fin NF) (k : Fin 3) :
    vert (vtxA m c) (idxA m c hr) s f k
      = m ((c.tc : Thread nD τ).loc main_arg0)
          (ix2 (⟨(m ((c.tc : Thread nD τ).loc main_arg1) (ix2 f s)).toNat, hr _⟩ : Fin NV) k) := by
  unfold vert
  refine (vtxOf_eq _ _ _).trans ?_
  exact congrArg (fun n : Fin NV => m ((c.tc : Thread nD τ).loc main_arg0) (ix2 n k)) (Fin.ext (idxOf_val _ hr f s))

/-- The corner named by a face-array word, as the transposed vertex array's column. -/
theorem corner_eq (s : Fin 3) (f : Fin NF) (k : Fin 3) (w : BitVec 32) (hw : w.toNat < 262144)
    (e : w = m ((c.tc : Thread nD τ).loc main_arg1) (ix2 f s)) :
    after hostOps0 (V0 m c) (Proc.devRef .tc main_v6) (ix2 k (⟨w.toNat, hw⟩ : Fin NV))
      = vert (vtxA m c) (idxA m c hr) s f k := by
  subst e
  rw [vert_eq]
  exact hostOps0_v6 (V0 m c) k _

end Args

end A0

open A0

/-! ## The three gathered arrays at region 0's entry -/

variable (m : (ℓ : Loc nD τ sig) → Buf (Elt Ideal) ℓ)
variable (c : Dev nD) (hr : InRange (m ((c.tc : Thread nD τ).loc main_arg1)))

theorem take0 (k : Fin 3) (f : Fin NF) : E0 m c main_v7 (ix2 k f) = vert (vtxA m c) (idxA m c hr) 0 f k := by
  have e1 : ∀ g : Fin NF, V1 m c main_v1 (ix1 g) = m ((c.tc : Thread nD τ).loc main_arg1) (ix2 g (0 : Fin 3)) :=
    fun g => hostOps0_v1 (V0 m c) g
  have hcol : ∀ g : Fin NF, (V1 m c main_v1 (ix1 g)).toNat < 262144 := fun g => by rw [e1]; exact hr _
  show V4 m c main_v7 (ix2 k f) = _
  rw [V4_of m c main_v7 (by decide), V3_of m c main_v7 (by decide)]
  exact (take0_run (V1 m c) hcol k f).trans (corner_eq m c hr 0 f k _ (hcol f) (e1 f))

theorem take1 (k : Fin 3) (f : Fin NF) : E0 m c main_v8 (ix2 k f) = vert (vtxA m c) (idxA m c hr) 1 f k := by
  have e1 : ∀ g : Fin NF, V2 m c main_v3 (ix1 g) = m ((c.tc : Thread nD τ).loc main_arg1) (ix2 g (1 : Fin 3)) :=
    fun g => (congrFun (V2_of m c main_v3 (by decide)) (ix1 g)).trans (hostOps0_v3 (V0 m c) g)
  have hcol : ∀ g : Fin NF, (V2 m c main_v3 (ix1 g)).toNat < 262144 := fun g => by rw [e1]; exact hr _
  show V4 m c main_v8 (ix2 k f) = _
  rw [V4_of m c main_v8 (by decide)]
  refine (take1_run (V2 m c) hcol k f).trans ?_
  rw [V2_of m c main_v6 (by decide)]
  exact corner_eq m c hr 1 f k _ (hcol f) (e1 f)

theorem take2 (k : Fin 3) (f : Fin NF) : E0 m c main_v9 (ix2 k f) = vert (vtxA m c) (idxA m c hr) 2 f k := by
  have e1 : ∀ g : Fin NF, V3 m c main_v5 (ix1 g) = m ((c.tc : Thread nD τ).loc main_arg1) (ix2 g (2 : Fin 3)) :=
    fun g => (congrFun (V3_of m c main_v5 (by decide)) (ix1 g)).trans
      ((congrFun (V2_of m c main_v5 (by decide)) (ix1 g)).trans (hostOps0_v5 (V0 m c) g))
  have hcol : ∀ g : Fin NF, (V3 m c main_v5 (ix1 g)).toNat < 262144 := fun g => by rw [e1]; exact hr _
  show V4 m c main_v9 (ix2 k f) = _
  refine (take2_run (V3 m c) hcol k f).trans ?_
  rw [V3_of m c main_v6 (by decide), V2_of m c main_v6 (by decide)]
  exact corner_eq m c hr 2 f k _ (hcol f) (e1 f)

end Cert.KernelIdeal.Hand

end
-- ==== Proof.KI.Value0.lean ====
/-
  Region 0's output blocks read at an index, on the extended reals: a band of the nine-row block is the sum of two
  input blocks, entry by entry; a row of the three-row block is the sum of two edge lengths of the lane, an edge
  length being the square root of the sum over the three coordinates of the squared difference of two input blocks.
-/
import proofs.«429528_j48808008352295_3_alg».proof.Proof.KI.Defs0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-- The edge length of lane `l` between two three-row blocks. -/
def elenB (a b : Vec Ideal S3x32768 .f32) (l : Fin 32768) : EReal :=
  Ideal.sqrt (∑ k : Fin 3, (b (ix2 k l) - a (ix2 k l)) * (b (ix2 k l) - a (ix2 k l)))

/-! ## The pieces of the payloads -/

/-- The zero offsets of a whole block. -/
theorem zeroOff2 : (![0, 0] : Fin 2 → ℕ) = fun _ => 0 := by
  funext a; match a with | ⟨0, _⟩ => rfl | ⟨1, _⟩ => rfl

/-- A whole input block loaded is the block. -/
theorem ld_in0 (x : Vec Ideal S3x32768 .f32) : View.ld x rIn0 = x :=
  View.ld_unit_zero (S := S3x32768) zeroOff2 inb_S3x32768_S3x32768_0_0 x

/-- A sum of two blocks, entry by entry. -/
theorem pay7_apply (a b : Vec Ideal S3x32768 .f32) (k : Fin 3) (l : Fin 32768) :
    k0_pay7 (F := Ideal) a b (ix2 k l) = a (ix2 k l) + b (ix2 k l) := by
  unfold k0_pay7 k0_pay2 k0_pay3
  simp only [shapeCast_self]
  rfl

theorem pay8_apply (a b : Vec Ideal S3x32768 .f32) (k : Fin 3) (l : Fin 32768) :
    k0_pay8 (F := Ideal) a b (ix2 k l) = a (ix2 k l) + b (ix2 k l) := by
  unfold k0_pay8 k0_pay1 k0_pay3
  simp only [shapeCast_self]
  rfl

theorem pay9_apply (a b : Vec Ideal S3x32768 .f32) (k : Fin 3) (l : Fin 32768) :
    k0_pay9 (F := Ideal) a b (ix2 k l) = a (ix2 k l) + b (ix2 k l) := by
  unfold k0_pay9 k0_pay1 k0_pay2
  simp only [shapeCast_self]
  rfl

/-! ## The lane sum and the edge length -/

/-- The sum over the three rows of a three-row block, at a lane. -/
theorem laneSum_apply (src : FVec Ideal S3x32768 .f32) (hφ : FKind.Formats .f32)
    (hacc : (0x00000000#32 : BitVec 32) = FKind.add.neutral .f32 hφ) (l : Fin 32768) :
    multiReduction .add [0] S32768 src 0x00000000#32 reduces_S3x32768_S32768 hφ hacc (ix1 l)
      = ∑ k : Fin 3, src (ix2 k l) := by
  refine (Ideal.multiReduction_add_single src 0x00000000#32 reduces_S3x32768_S32768 hφ hacc (ix1 l)).trans ?_
  show ∑ k : Fin 3, src (reduces_S3x32768_S32768.lift (ix1 l) k) = ∑ k : Fin 3, src (ix2 k l)
  refine Finset.sum_congr rfl fun k _ => congrArg src ?_
  funext a
  apply Fin.ext
  match a with
  | ⟨0, _⟩ => rfl
  | ⟨1, _⟩ => rfl

/-- A lane vector recast as a one-row block reads the lane. -/
theorem rowCast_apply (v : FVec Ideal S32768 .f32) (l : Fin 32768) :
    shapeCast S1x32768 v shapeCasts_S32768_S1x32768 (ix2 (0 : Fin 1) l) = v (ix1 l) := by
  refine (shapeCast_addUnit_apply ![32768] v shapeCasts_S32768_S1x32768 (ix2 (0 : Fin 1) l)).trans ?_
  refine congrArg v ?_
  funext a
  match a with
  | ⟨0, _⟩ => rfl

/-- A square root of a block, entry by entry. -/
theorem sqrt_at {s : Shape} (v : FVec Ideal s .f32) (i : s.Idx) : sqrt v i = Ideal.sqrt (v i) := rfl

/-- The square root of the lane sum of a block, as a one-row block, at a lane. -/
theorem sqrtLane_apply (src : FVec Ideal S3x32768 .f32) (hφ : FKind.Formats .f32)
    (hacc : (0x00000000#32 : BitVec 32) = FKind.add.neutral .f32 hφ) (l : Fin 32768) :
    sqrt (shapeCast S1x32768 (multiReduction .add [0] S32768 src 0x00000000#32 reduces_S3x32768_S32768 hφ hacc)
        shapeCasts_S32768_S1x32768) (ix2 (0 : Fin 1) l)
      = Ideal.sqrt (∑ k : Fin 3, src (ix2 k l)) := by
  rw [sqrt_at, rowCast_apply, laneSum_apply]

/-- The edge length between two blocks, as a one-row block, at a lane. -/
theorem pay4_apply (a b : Vec Ideal S3x32768 .f32) (l : Fin 32768) :
    k0_pay4 (F := Ideal) a b (ix2 (0 : Fin 1) l) = elenB a b l := by
  unfold k0_pay4 k0_pay1 k0_pay2
  simp only [shapeCast_self]
  exact sqrtLane_apply _ _ _ l

theorem pay5_apply (a b : Vec Ideal S3x32768 .f32) (l : Fin 32768) :
    k0_pay5 (F := Ideal) a b (ix2 (0 : Fin 1) l) = elenB a b l := by
  unfold k0_pay5 k0_pay1 k0_pay3
  simp only [shapeCast_self]
  exact sqrtLane_apply _ _ _ l

theorem pay6_apply (a b : Vec Ideal S3x32768 .f32) (l : Fin 32768) :
    k0_pay6 (F := Ideal) a b (ix2 (0 : Fin 1) l) = elenB a b l := by
  unfold k0_pay6 k0_pay2 k0_pay3
  simp only [shapeCast_self]
  exact sqrtLane_apply _ _ _ l

/-- A sum of two edge lengths, at a lane. -/
theorem pay10_apply (x0 x1 x2 : Vec Ideal S3x32768 .f32) (l : Fin 32768) :
    k0_pay10 (F := Ideal) x0 x1 x2 (ix2 (0 : Fin 1) l) = elenB x0 x1 l + elenB x0 x2 l := by
  unfold k0_pay10
  show k0_pay4 (F := Ideal) x0 x1 (ix2 (0 : Fin 1) l) + k0_pay5 (F := Ideal) x0 x2 (ix2 (0 : Fin 1) l) = _
  rw [pay4_apply, pay5_apply]

theorem pay11_apply (x0 x1 x2 : Vec Ideal S3x32768 .f32) (l : Fin 32768) :
    k0_pay11 (F := Ideal) x0 x1 x2 (ix2 (0 : Fin 1) l) = elenB x0 x1 l + elenB x1 x2 l := by
  unfold k0_pay11
  show k0_pay4 (F := Ideal) x0 x1 (ix2 (0 : Fin 1) l) + k0_pay6 (F := Ideal) x1 x2 (ix2 (0 : Fin 1) l) = _
  rw [pay4_apply, pay6_apply]

theorem pay12_apply (x0 x1 x2 : Vec Ideal S3x32768 .f32) (l : Fin 32768) :
    k0_pay12 (F := Ideal) x0 x1 x2 (ix2 (0 : Fin 1) l) = elenB x0 x2 l + elenB x1 x2 l := by
  unfold k0_pay12
  show k0_pay5 (F := Ideal) x0 x2 (ix2 (0 : Fin 1) l) + k0_pay6 (F := Ideal) x1 x2 (ix2 (0 : Fin 1) l) = _
  rw [pay5_apply, pay6_apply]

/-- An index outside the last piece reads the earlier pieces. -/
theorem canon_skip {S : Shape} (r : Rect S) (w : r.shape.Idx → Elt Ideal .f32) (L : List (View.Piece (Elt Ideal) S .f32))
    {y : S.Idx} (h : y ∉ r.set) : View.canon (⟨r, w⟩ :: L) y = View.canon L y :=
  View.canon_cons_of_not_mem ⟨r, w⟩ L h

/-! ## The nine-row block, band by band -/

theorem out0_3_band2 (x0 x1 x2 : Vec Ideal S3x32768 .f32) (k : Fin 3) (l : Fin 32768) :
    out0_3 (F := Ideal) x0 x1 x2 (ix2 (⟨6 + k.val, by omega⟩ : Fin 9) l) = x0 (ix2 k l) + x1 (ix2 k l) := by
  have he : ix2 (⟨6 + k.val, by omega⟩ : Fin 9) l = rPos6.emb (ix2 k l) := by
    funext a
    apply Fin.ext
    match a with
    | ⟨0, _⟩ => show 6 + k.val = 6 + 1 * k.val; omega
    | ⟨1, _⟩ => show l.val = 0 + 1 * l.val; omega
  unfold out0_3
  rw [he, View.canon_cons_emb, ld_in0, ld_in0]
  exact pay9_apply x0 x1 k l

theorem out0_3_band1 (x0 x1 x2 : Vec Ideal S3x32768 .f32) (k : Fin 3) (l : Fin 32768) :
    out0_3 (F := Ideal) x0 x1 x2 (ix2 (⟨3 + k.val, by omega⟩ : Fin 9) l) = x0 (ix2 k l) + x2 (ix2 k l) := by
  have hn : ix2 (⟨3 + k.val, by omega⟩ : Fin 9) l ∉ rPos6.set := by
    rw [Rect.mem_set_unit]
    intro h
    have h0 := (h 0).1
    change 6 ≤ 3 + k.val at h0
    omega
  have he : ix2 (⟨3 + k.val, by omega⟩ : Fin 9) l = rPos3.emb (ix2 k l) := by
    funext a
    apply Fin.ext
    match a with
    | ⟨0, _⟩ => show 3 + k.val = 3 + 1 * k.val; omega
    | ⟨1, _⟩ => show l.val = 0 + 1 * l.val; omega
  unfold out0_3
  rw [canon_skip rPos6 _ _ hn, he, View.canon_cons_emb, ld_in0, ld_in0]
  exact pay8_apply x0 x2 k l

theorem out0_3_band0 (x0 x1 x2 : Vec Ideal S3x32768 .f32) (k : Fin 3) (l : Fin 32768) :
    out0_3 (F := Ideal) x0 x1 x2 (ix2 (⟨k.val, by omega⟩ : Fin 9) l) = x1 (ix2 k l) + x2 (ix2 k l) := by
  have hn6 : ix2 (⟨k.val, by omega⟩ : Fin 9) l ∉ rPos6.set := by
    rw [Rect.mem_set_unit]
    intro h
    have h0 := (h 0).1
    change 6 ≤ k.val at h0
    omega
  have hn3 : ix2 (⟨k.val, by omega⟩ : Fin 9) l ∉ rPos3.set := by
    rw [Rect.mem_set_unit]
    intro h
    have h0 := (h 0).1
    change 3 ≤ k.val at h0
    omega
  have he : ix2 (⟨k.val, by omega⟩ : Fin 9) l = rPos0.emb (ix2 k l) := by
    funext a
    apply Fin.ext
    match a with
    | ⟨0, _⟩ => show k.val = 0 + 1 * k.val; omega
    | ⟨1, _⟩ => show l.val = 0 + 1 * l.val; omega
  unfold out0_3
  rw [canon_skip rPos6 _ _ hn6, canon_skip rPos3 _ _ hn3, he, View.canon_cons_emb, ld_in0, ld_in0]
  exact pay7_apply x1 x2 k l

/-! ## The three-row block, row by row -/

theorem out0_4_row2 (x0 x1 x2 : Vec Ideal S3x32768 .f32) (l : Fin 32768) :
    out0_4 (F := Ideal) x0 x1 x2 (ix2 (2 : Fin 3) l) = elenB x0 x2 l + elenB x1 x2 l := by
  have he : ix2 (2 : Fin 3) l = rEdge2.emb (ix2 (0 : Fin 1) l) := by
    funext a
    apply Fin.ext
    match a with
    | ⟨0, _⟩ => rfl
    | ⟨1, _⟩ => show l.val = 0 + 1 * l.val; omega
  unfold out0_4
  rw [he, View.canon_cons_emb, ld_in0, ld_in0, ld_in0]
  exact pay12_apply x0 x1 x2 l

theorem out0_4_row1 (x0 x1 x2 : Vec Ideal S3x32768 .f32) (l : Fin 32768) :
    out0_4 (F := Ideal) x0 x1 x2 (ix2 (1 : Fin 3) l) = elenB x0 x1 l + elenB x1 x2 l := by
  have hn : ix2 (1 : Fin 3) l ∉ rEdge2.set := by
    rw [Rect.mem_set_unit]
    intro h
    have h0 := (h 0).1
    change 2 ≤ 1 at h0
    omega
  have he : ix2 (1 : Fin 3) l = rEdge1.emb (ix2 (0 : Fin 1) l) := by
    funext a
    apply Fin.ext
    match a with
    | ⟨0, _⟩ => rfl
    | ⟨1, _⟩ => show l.val = 0 + 1 * l.val; omega
  unfold out0_4
  rw [canon_skip rEdge2 _ _ hn, he, View.canon_cons_emb, ld_in0, ld_in0, ld_in0]
  exact pay11_apply x0 x1 x2 l

theorem out0_4_row0 (x0 x1 x2 : Vec Ideal S3x32768 .f32) (l : Fin 32768) :
    out0_4 (F := Ideal) x0 x1 x2 (ix2 (0 : Fin 3) l) = elenB x0 x1 l + elenB x0 x2 l := by
  have hn2 : ix2 (0 : Fin 3) l ∉ rEdge2.set := by
    rw [Rect.mem_set_unit]
    intro h
    have h0 := (h 0).1
    change 2 ≤ 0 at h0
    omega
  have hn1 : ix2 (0 : Fin 3) l ∉ rEdge1.set := by
    rw [Rect.mem_set_unit]
    intro h
    have h0 := (h 0).1
    change 1 ≤ 0 at h0
    omega
  have he : ix2 (0 : Fin 3) l = rEdge0.emb (ix2 (0 : Fin 1) l) := by
    funext a
    apply Fin.ext
    match a with
    | ⟨0, _⟩ => rfl
    | ⟨1, _⟩ => show l.val = 0 + 1 * l.val; omega
  unfold out0_4
  rw [canon_skip rEdge2 _ _ hn2, canon_skip rEdge1 _ _ hn1, he, View.canon_cons_emb, ld_in0, ld_in0, ld_in0]
  exact pay10_apply x0 x1 x2 l

end Cert.KernelIdeal.Hand

end
-- ==== Proof.KI.ValueA.lean ====
/-
  From the argument arrays to what region 0 leaves, on the extended reals: the three gathered corner arrays are the
  corners' positions (the face corners being in range, the fill for an out-of-range corner is never selected), each grid
  point writes its lane block of the two output arrays, and the blocks tile them; so the nine-row array holds, band by
  band, the sums of two corners' positions and the three-row array the sums of two edge lengths.
-/
import proofs.«429528_j48808008352295_3_alg».proof.Proof.KI.Run
import proofs.«429528_j48808008352295_3_alg».proof.Proof.KI.Args
import proofs.«429528_j48808008352295_3_alg».proof.Proof.Spec
import proofs.«429528_j48808008352295_3_alg».proof.Proof.LibRead
import proofs.«429528_j48808008352295_3_alg».proof.Proof.LibTypedRead
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate
import proofs.«429528_j48808008352295_3_alg».proof.Proof.KI.Value0

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.Spec

variable (m : (ℓ : Loc nD τ sig) → Buf (Elt Ideal) ℓ)

/-! ## The two output arrays as functions of the three entry arrays -/

/-- The edge length of face `f` between two three-row arrays. -/
def elenArr (a b : S3x2097152.Idx → EReal) (f : Fin 2097152) : EReal :=
  Ideal.sqrt (∑ k : Fin 3, (b (ix2 k f) - a (ix2 k f)) * (b (ix2 k f) - a (ix2 k f)))

/-- The nine-row array, row by row: three bands of three rows, each the sum of two of the entry arrays. -/
def posRows (a0 a1 a2 : S3x2097152.Idx → EReal) : Fin 9 → Fin 2097152 → EReal
  | ⟨0, _⟩, f => a1 (ix2 (0 : Fin 3) f) + a2 (ix2 (0 : Fin 3) f)
  | ⟨1, _⟩, f => a1 (ix2 (1 : Fin 3) f) + a2 (ix2 (1 : Fin 3) f)
  | ⟨2, _⟩, f => a1 (ix2 (2 : Fin 3) f) + a2 (ix2 (2 : Fin 3) f)
  | ⟨3, _⟩, f => a0 (ix2 (0 : Fin 3) f) + a2 (ix2 (0 : Fin 3) f)
  | ⟨4, _⟩, f => a0 (ix2 (1 : Fin 3) f) + a2 (ix2 (1 : Fin 3) f)
  | ⟨5, _⟩, f => a0 (ix2 (2 : Fin 3) f) + a2 (ix2 (2 : Fin 3) f)
  | ⟨6, _⟩, f => a0 (ix2 (0 : Fin 3) f) + a1 (ix2 (0 : Fin 3) f)
  | ⟨7, _⟩, f => a0 (ix2 (1 : Fin 3) f) + a1 (ix2 (1 : Fin 3) f)
  | ⟨8, _⟩, f => a0 (ix2 (2 : Fin 3) f) + a1 (ix2 (2 : Fin 3) f)

/-- The nine-row array as one function of the three entry arrays. -/
def posArr (a0 a1 a2 : S3x2097152.Idx → EReal) : S9x2097152.Idx → EReal := fun i => posRows a0 a1 a2 (i 0) (i 1)

/-- The three-row array, row by row: each the sum of two edge lengths. -/
def edgeRows (a0 a1 a2 : S3x2097152.Idx → EReal) : Fin 3 → Fin 2097152 → EReal
  | ⟨0, _⟩, f => elenArr a0 a1 f + elenArr a0 a2 f
  | ⟨1, _⟩, f => elenArr a0 a1 f + elenArr a1 a2 f
  | ⟨2, _⟩, f => elenArr a0 a2 f + elenArr a1 a2 f

/-- The three-row array as one function of the three entry arrays. -/
def edgeArr (a0 a1 a2 : S3x2097152.Idx → EReal) : S3x2097152.Idx → EReal := fun i => edgeRows a0 a1 a2 (i 0) (i 1)

theorem posRows_band0 (a0 a1 a2 : S3x2097152.Idx → EReal) (k : Fin 3) (f : Fin 2097152) :
    posRows a0 a1 a2 (⟨k.val, by omega⟩ : Fin 9) f = a1 (ix2 k f) + a2 (ix2 k f) := by
  match k with
  | ⟨0, _⟩ => rfl
  | ⟨1, _⟩ => rfl
  | ⟨2, _⟩ => rfl

theorem posRows_band1 (a0 a1 a2 : S3x2097152.Idx → EReal) (k : Fin 3) (f : Fin 2097152) :
    posRows a0 a1 a2 (⟨3 + k.val, by omega⟩ : Fin 9) f = a0 (ix2 k f) + a2 (ix2 k f) := by
  match k with
  | ⟨0, _⟩ => rfl
  | ⟨1, _⟩ => rfl
  | ⟨2, _⟩ => rfl

theorem posRows_band2 (a0 a1 a2 : S3x2097152.Idx → EReal) (k : Fin 3) (f : Fin 2097152) :
    posRows a0 a1 a2 (⟨6 + k.val, by omega⟩ : Fin 9) f = a0 (ix2 k f) + a1 (ix2 k f) := by
  match k with
  | ⟨0, _⟩ => rfl
  | ⟨1, _⟩ => rfl
  | ⟨2, _⟩ => rfl

/-- A row of the nine-row block is in one of the three bands. -/
theorem fin9_bands (r : Fin 9) : (∃ k : Fin 3, r = ⟨k.val, by omega⟩) ∨ (∃ k : Fin 3, r = ⟨3 + k.val, by omega⟩)
    ∨ (∃ k : Fin 3, r = ⟨6 + k.val, by omega⟩) := by
  by_cases h0 : r.val < 3
  · exact .inl ⟨⟨r.val, h0⟩, rfl⟩
  · by_cases h1 : r.val < 6
    · exact .inr (.inl ⟨⟨r.val - 3, by omega⟩, Fin.ext (by show r.val = 3 + (r.val - 3); omega)⟩)
    · exact .inr (.inr ⟨⟨r.val - 6, by omega⟩, Fin.ext (by show r.val = 6 + (r.val - 6); omega)⟩)

/-! ## A block of an output against the arrays -/

/-- The edge length of a lane between two blocks is the edge length of the lane's face between the arrays the blocks
    are read from. -/
theorem elenB_eq (a b : S3x2097152.Idx → EReal) (x y : Vec Ideal S3x32768 .f32) (l : Fin 32768) (f : Fin 2097152)
    (hx : ∀ k : Fin 3, x (ix2 k l) = a (ix2 k f)) (hy : ∀ k : Fin 3, y (ix2 k l) = b (ix2 k f)) :
    elenB x y l = elenArr a b f := by
  unfold elenB elenArr
  exact congrArg Ideal.sqrt (Finset.sum_congr rfl fun k _ => by rw [hx k, hy k])

/-- The nine-row block the body leaves at a point reads as the nine-row array's function at the block's place: lane
    `l` of the block at the point of offset `T` is face `T * 32768 + l`. -/
theorem out0_3_eq_posArr (a0 a1 a2 : S3x2097152.Idx → EReal) (x0 x1 x2 : Vec Ideal S3x32768 .f32) (T : ℕ)
    (h0 : ∀ (k : Fin 3) (l : Fin 32768) (f : Fin 2097152), f.val = T * 32768 + l.val → x0 (ix2 k l) = a0 (ix2 k f))
    (h1 : ∀ (k : Fin 3) (l : Fin 32768) (f : Fin 2097152), f.val = T * 32768 + l.val → x1 (ix2 k l) = a1 (ix2 k f))
    (h2 : ∀ (k : Fin 3) (l : Fin 32768) (f : Fin 2097152), f.val = T * 32768 + l.val → x2 (ix2 k l) = a2 (ix2 k f))
    (y : S9x32768.Idx) (i : S9x2097152.Idx) (hi0 : (i 0).val = (y 0).val) (hi1 : (i 1).val = T * 32768 + (y 1).val) :
    out0_3 (F := Ideal) x0 x1 x2 y = posArr a0 a1 a2 i := by
  obtain ⟨r, l, rfl⟩ : ∃ (r : Fin 9) (l : Fin 32768), y = ix2 r l := ⟨y 0, y 1, eq_ix2 y⟩
  obtain ⟨r', f, rfl⟩ : ∃ (r' : Fin 9) (f : Fin 2097152), i = ix2 r' f := ⟨i 0, i 1, eq_ix2 i⟩
  obtain rfl : r' = r := Fin.ext hi0
  have hf : f.val = T * 32768 + l.val := hi1
  show _ = posRows a0 a1 a2 r' f
  rcases fin9_bands r' with ⟨k, rfl⟩ | ⟨k, rfl⟩ | ⟨k, rfl⟩
  · rw [out0_3_band0, posRows_band0, h1 k l f hf, h2 k l f hf]
  · rw [out0_3_band1, posRows_band1, h0 k l f hf, h2 k l f hf]
  · rw [out0_3_band2, posRows_band2, h0 k l f hf, h1 k l f hf]

/-- The three-row block the body leaves at a point reads as the three-row array's function at the block's place. -/
theorem out0_4_eq_edgeArr (a0 a1 a2 : S3x2097152.Idx → EReal) (x0 x1 x2 : Vec Ideal S3x32768 .f32) (T : ℕ)
    (h0 : ∀ (k : Fin 3) (l : Fin 32768) (f : Fin 2097152), f.val = T * 32768 + l.val → x0 (ix2 k l) = a0 (ix2 k f))
    (h1 : ∀ (k : Fin 3) (l : Fin 32768) (f : Fin 2097152), f.val = T * 32768 + l.val → x1 (ix2 k l) = a1 (ix2 k f))
    (h2 : ∀ (k : Fin 3) (l : Fin 32768) (f : Fin 2097152), f.val = T * 32768 + l.val → x2 (ix2 k l) = a2 (ix2 k f))
    (y : S3x32768.Idx) (i : S3x2097152.Idx) (hi0 : (i 0).val = (y 0).val) (hi1 : (i 1).val = T * 32768 + (y 1).val) :
    out0_4 (F := Ideal) x0 x1 x2 y = edgeArr a0 a1 a2 i := by
  obtain ⟨r, l, rfl⟩ : ∃ (r : Fin 3) (l : Fin 32768), y = ix2 r l := ⟨y 0, y 1, eq_ix2 y⟩
  obtain ⟨r', f, rfl⟩ : ∃ (r' : Fin 3) (f : Fin 2097152), i = ix2 r' f := ⟨i 0, i 1, eq_ix2 i⟩
  obtain rfl : r' = r := Fin.ext hi0
  have hf : f.val = T * 32768 + l.val := hi1
  have e01 := elenB_eq a0 a1 x0 x1 l f (fun k => h0 k l f hf) (fun k => h1 k l f hf)
  have e02 := elenB_eq a0 a2 x0 x2 l f (fun k => h0 k l f hf) (fun k => h2 k l f hf)
  have e12 := elenB_eq a1 a2 x1 x2 l f (fun k => h1 k l f hf) (fun k => h2 k l f hf)
  show _ = edgeRows a0 a1 a2 r' f
  match r' with
  | ⟨0, _⟩ => exact (out0_4_row0 x0 x1 x2 l).trans (by rw [e01, e02]; rfl)
  | ⟨1, _⟩ => exact (out0_4_row1 x0 x1 x2 l).trans (by rw [e01, e12]; rfl)
  | ⟨2, _⟩ => exact (out0_4_row2 x0 x1 x2 l).trans (by rw [e02, e12]; rfl)

/-! ## The windows on the grid -/

variable (V : (c : Dev nD) → (b : Ref sig .tc) → Buf (Elt Ideal) ((c : Thread nD τ).loc b))

/-- Every window's block at point `t` is block `(0, t)`: all rows, the `t`-th run of 32768 faces. -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The first input's block at point `t` holds, at row `k` and lane `l`, the first entry array at row `k` and face
    `t * 32768 + l`. -/
theorem iblk0_0_apply (c : Dev nD) (t : Fin cfg0.N) (k : Fin 3) (l : Fin 32768) (f : Fin 2097152)
    (hf : f.val = t.val * 32768 + l.val) :
    (iblk0 V c 0 t : Vec Ideal S3x32768 .f32) (ix2 k l) = (V c main_v7 : S3x2097152.Idx → EReal) (ix2 k f) := by
  obtain ⟨e0, e1, -⟩ := idx_facts0 t
  unfold iblk0
  rw [View.read_apply]
  show V c main_v7 _ = V c main_v7 _
  refine congrArg (V c main_v7) ?_
  funext a
  apply Fin.ext
  match a with
  | ⟨0, _⟩ => show win0_0.index t (0 : Fin 2) * 3 + 1 * k.val = k.val; rw [e0]; omega
  | ⟨1, _⟩ => show win0_0.index t (1 : Fin 2) * 32768 + 1 * l.val = f.val; rw [e1, hf]; omega

theorem iblk0_1_apply (c : Dev nD) (t : Fin cfg0.N) (k : Fin 3) (l : Fin 32768) (f : Fin 2097152)
    (hf : f.val = t.val * 32768 + l.val) :
    (iblk0 V c 1 t : Vec Ideal S3x32768 .f32) (ix2 k l) = (V c main_v8 : S3x2097152.Idx → EReal) (ix2 k f) := by
  obtain ⟨-, -, e0, e1, -⟩ := idx_facts0 t
  unfold iblk0
  rw [View.read_apply]
  show V c main_v8 _ = V c main_v8 _
  refine congrArg (V c main_v8) ?_
  funext a
  apply Fin.ext
  match a with
  | ⟨0, _⟩ => show win0_1.index t (0 : Fin 2) * 3 + 1 * k.val = k.val; rw [e0]; omega
  | ⟨1, _⟩ => show win0_1.index t (1 : Fin 2) * 32768 + 1 * l.val = f.val; rw [e1, hf]; omega

theorem iblk0_2_apply (c : Dev nD) (t : Fin cfg0.N) (k : Fin 3) (l : Fin 32768) (f : Fin 2097152)
    (hf : f.val = t.val * 32768 + l.val) :
    (iblk0 V c 2 t : Vec Ideal S3x32768 .f32) (ix2 k l) = (V c main_v9 : S3x2097152.Idx → EReal) (ix2 k f) := by
  obtain ⟨-, -, -, -, e0, e1, -⟩ := idx_facts0 t
  unfold iblk0
  rw [View.read_apply]
  show V c main_v9 _ = V c main_v9 _
  refine congrArg (V c main_v9) ?_
  funext a
  apply Fin.ext
  match a with
  | ⟨0, _⟩ => show win0_2.index t (0 : Fin 2) * 3 + 1 * k.val = k.val; rw [e0]; omega
  | ⟨1, _⟩ => show win0_2.index t (1 : Fin 2) * 32768 + 1 * l.val = f.val; rw [e1, hf]; omega

/-! ## What a point writes back, and the arrays after the region -/

/-- What point `t` writes back into the nine-row array is block `t` of `posArr` of the three entry arrays. -/
theorem flushed0_3_eq (c : Dev nD) (t : Fin cfg0.N) :
    (dat0 V c).flushed 3 t
      = ((cfg0.win 3).blk t).view.read (Elt Ideal) (posArr (V c main_v7) (V c main_v8) (V c main_v9)) := by
  show (cfg0.win 3).cut (grid0.coords t) ((dat0 V c).after 3 t) = _
  rw [after0_3]
  obtain ⟨-, -, -, -, -, -, e0, e1, -⟩ := idx_facts0 t
  funext j
  rw [View.read_apply]
  refine out0_3_eq_posArr (V c main_v7) (V c main_v8) (V c main_v9) (iblk0 V c 0 t) (iblk0 V c 1 t) (iblk0 V c 2 t) t.val
    (fun k l f hf => iblk0_0_apply V c t k l f hf) (fun k l f hf => iblk0_1_apply V c t k l f hf)
    (fun k l f hf => iblk0_2_apply V c t k l f hf) _ _ ?_ ?_
  · show win0_3.index t (0 : Fin 2) * 9 + 1 * (j 0).val = (j 0).val
    rw [e0]; omega
  · show win0_3.index t (1 : Fin 2) * 32768 + 1 * (j 1).val = t.val * 32768 + (j 1).val
    rw [e1]; omega

/-- What point `t` writes back into the three-row array is block `t` of `edgeArr` of the three entry arrays. -/
theorem flushed0_4_eq (c : Dev nD) (t : Fin cfg0.N) :
    (dat0 V c).flushed 4 t
      = ((cfg0.win 4).blk t).view.read (Elt Ideal) (edgeArr (V c main_v7) (V c main_v8) (V c main_v9)) := by
  show (cfg0.win 4).cut (grid0.coords t) ((dat0 V c).after 4 t) = _
  rw [after0_4]
  obtain ⟨-, -, -, -, -, -, -, -, e0, e1⟩ := idx_facts0 t
  funext j
  rw [View.read_apply]
  refine out0_4_eq_edgeArr (V c main_v7) (V c main_v8) (V c main_v9) (iblk0 V c 0 t) (iblk0 V c 1 t) (iblk0 V c 2 t) t.val
    (fun k l f hf => iblk0_0_apply V c t k l f hf) (fun k l f hf => iblk0_1_apply V c t k l f hf)
    (fun k l f hf => iblk0_2_apply V c t k l f hf) _ _ ?_ ?_
  · show win0_4.index t (0 : Fin 2) * 3 + 1 * (j 0).val = (j 0).val
    rw [e0]; omega
  · show win0_4.index t (1 : Fin 2) * 32768 + 1 * (j 1).val = t.val * 32768 + (j 1).val
    rw [e1]; omega

/-- An index of the nine-row array is in point `t`'s block iff each coordinate is in the block's range on its axis. -/
theorem mem_blk0_3 (t : Fin cfg0.N) (i : S9x2097152.Idx) :
    i ∈ ((cfg0.win 3).blk t).view.set ↔ ∀ a : Fin 2, win0_3.index t a * S9x32768.size a ≤ (i a).val
      ∧ (i a).val < win0_3.index t a * S9x32768.size a + S9x32768.size a := by
  show i ∈ ((View.whole main_v10_0).slice (win0_3.rect t)).set ↔ _
  rw [View.set_slice_whole, Rect.mem_set_unit]
  exact Iff.rfl

theorem mem_blk0_4 (t : Fin cfg0.N) (i : S3x2097152.Idx) :
    i ∈ ((cfg0.win 4).blk t).view.set ↔ ∀ a : Fin 2, win0_4.index t a * S3x32768.size a ≤ (i a).val
      ∧ (i a).val < win0_4.index t a * S3x32768.size a + S3x32768.size a := by
  show i ∈ ((View.whole main_v10_1).slice (win0_4.rect t)).set ↔ _
  rw [View.set_slice_whole, Rect.mem_set_unit]
  exact Iff.rfl

/-- Face `f` lies in the block of point `f / 32768`: the 64 blocks tile the nine-row array. -/
theorem arrCover0_3 (i : S9x2097152.Idx) : ∃ t : Fin cfg0.N, (cfg0.win 3).flush t = true ∧ i ∈ ((cfg0.win 3).blk t).view.set := by
  have hi0 : (i 0).val < 9 := idx2_lt0 i
  have hi1 : (i 1).val < 2097152 := idx2_lt1 i
  have hN : cfg0.N = 64 := N_0
  refine ⟨⟨(i 1).val / 32768, by rw [hN]; omega⟩, flush0_3 _, ?_⟩
  rw [mem_blk0_3]
  obtain ⟨-, -, -, -, -, -, e0, e1, -⟩ := idx_facts0 ⟨(i 1).val / 32768, by rw [hN]; omega⟩
  intro a
  match a with
  | ⟨0, _⟩ =>
    show win0_3.index _ (0 : Fin 2) * 9 ≤ (i 0).val ∧ (i 0).val < win0_3.index _ (0 : Fin 2) * 9 + 9
    rw [e0]; omega
  | ⟨1, _⟩ =>
    show win0_3.index _ (1 : Fin 2) * 32768 ≤ (i 1).val ∧ (i 1).val < win0_3.index _ (1 : Fin 2) * 32768 + 32768
    rw [e1]; show (i 1).val / 32768 * 32768 ≤ (i 1).val ∧ (i 1).val < (i 1).val / 32768 * 32768 + 32768; omega

theorem arrCover0_4 (i : S3x2097152.Idx) : ∃ t : Fin cfg0.N, (cfg0.win 4).flush t = true ∧ i ∈ ((cfg0.win 4).blk t).view.set := by
  have hi0 : (i 0).val < 3 := idx2_lt0 i
  have hi1 : (i 1).val < 2097152 := idx2_lt1 i
  have hN : cfg0.N = 64 := N_0
  refine ⟨⟨(i 1).val / 32768, by rw [hN]; omega⟩, flush0_4 _, ?_⟩
  rw [mem_blk0_4]
  obtain ⟨-, -, -, -, -, -, -, -, e0, e1⟩ := idx_facts0 ⟨(i 1).val / 32768, by rw [hN]; omega⟩
  intro a
  match a with
  | ⟨0, _⟩ =>
    show win0_4.index _ (0 : Fin 2) * 3 ≤ (i 0).val ∧ (i 0).val < win0_4.index _ (0 : Fin 2) * 3 + 3
    rw [e0]; omega
  | ⟨1, _⟩ =>
    show win0_4.index _ (1 : Fin 2) * 32768 ≤ (i 1).val ∧ (i 1).val < win0_4.index _ (1 : Fin 2) * 32768 + 32768
    rw [e1]; show (i 1).val / 32768 * 32768 ≤ (i 1).val ∧ (i 1).val < (i 1).val / 32768 * 32768 + 32768; omega

/-- The nine-row array after the region is `posArr` of the three entry arrays. -/
theorem final0_3 (c : Dev nD) : (dat0 V c).arrAt 3 cfg0.N = posArr (V c main_v7) (V c main_v8) (V c main_v9) :=
  (dat0 V c).arrAt_eq_of_cover 3 (posArr (V c main_v7) (V c main_v8) (V c main_v9)) (fun t _ => flushed0_3_eq V c t) arrCover0_3

/-- The three-row array after the region is `edgeArr` of the three entry arrays. -/
theorem final0_4 (c : Dev nD) : (dat0 V c).arrAt 4 cfg0.N = edgeArr (V c main_v7) (V c main_v8) (V c main_v9) :=
  (dat0 V c).arrAt_eq_of_cover 4 (edgeArr (V c main_v7) (V c main_v8) (V c main_v9)) (fun t _ => flushed0_4_eq V c t) arrCover0_4

/-- The arrays' functions at an index given by its coordinates. -/
theorem posArr_ix2 (a0 a1 a2 : S3x2097152.Idx → EReal) (r : Fin 9) (f : Fin 2097152) :
    posArr a0 a1 a2 (ix2 r f) = posRows a0 a1 a2 r f := rfl
theorem edgeArr_ix2 (a0 a1 a2 : S3x2097152.Idx → EReal) (r : Fin 3) (f : Fin 2097152) :
    edgeArr a0 a1 a2 (ix2 r f) = edgeRows a0 a1 a2 r f := rfl
theorem edgeRows_0 (a0 a1 a2 : S3x2097152.Idx → EReal) (f : Fin 2097152) :
    edgeRows a0 a1 a2 (0 : Fin 3) f = elenArr a0 a1 f + elenArr a0 a2 f := rfl
theorem edgeRows_1 (a0 a1 a2 : S3x2097152.Idx → EReal) (f : Fin 2097152) :
    edgeRows a0 a1 a2 (1 : Fin 3) f = elenArr a0 a1 f + elenArr a1 a2 f := rfl
theorem edgeRows_2 (a0 a1 a2 : S3x2097152.Idx → EReal) (f : Fin 2097152) :
    edgeRows a0 a1 a2 (2 : Fin 3) f = elenArr a0 a2 f + elenArr a1 a2 f := rfl

/-- The edge length between two arrays that hold two corners' positions is the specification's edge length. -/
theorem elenArr_eq_elen (vtx : Fin NV → Fin 3 → EReal) (idx : Fin NF → Fin 3 → Fin NV) (a b : S3x2097152.Idx → EReal)
    (sa sb : Fin 3) (f : Fin NF) (ha : ∀ k : Fin 3, a (ix2 k f) = vert vtx idx sa f k)
    (hb : ∀ k : Fin 3, b (ix2 k f) = vert vtx idx sb f k) : elenArr a b f = elen vtx idx sa sb f := by
  unfold elenArr elen
  exact congrArg Ideal.sqrt (Finset.sum_congr rfl fun k _ => by rw [ha k, hb k])

/-! ## The two output arrays after region 0, from the corners' positions -/

variable (c : Dev nD) (hr : InRange (m ((c.tc : Thread nD τ).loc main_arg1)))

theorem pos_band0 (ht0 : ∀ (k : Fin 3) (f : Fin NF), E0 m c main_v7 (ix2 k f) = vert (vtxA m c) (idxA m c hr) 0 f k)
    (ht1 : ∀ (k : Fin 3) (f : Fin NF), E0 m c main_v8 (ix2 k f) = vert (vtxA m c) (idxA m c hr) 1 f k)
    (ht2 : ∀ (k : Fin 3) (f : Fin NF), E0 m c main_v9 (ix2 k f) = vert (vtxA m c) (idxA m c hr) 2 f k) (k : Fin 3) (f : Fin NF) :
    outs m 5 main_v10_0 c (ix2 (⟨k.val, by omega⟩ : Fin 9) f)
      = vert (vtxA m c) (idxA m c hr) 1 f k + vert (vtxA m c) (idxA m c hr) 2 f k := by
  rw [outs_v10_0, final0_3, posArr_ix2, posRows_band0]
  exact congrArg₂ (· + ·) (ht1 k f) (ht2 k f)
theorem pos_band1 (ht0 : ∀ (k : Fin 3) (f : Fin NF), E0 m c main_v7 (ix2 k f) = vert (vtxA m c) (idxA m c hr) 0 f k)
    (ht1 : ∀ (k : Fin 3) (f : Fin NF), E0 m c main_v8 (ix2 k f) = vert (vtxA m c) (idxA m c hr) 1 f k)
    (ht2 : ∀ (k : Fin 3) (f : Fin NF), E0 m c main_v9 (ix2 k f) = vert (vtxA m c) (idxA m c hr) 2 f k) (k : Fin 3) (f : Fin NF) :
    outs m 5 main_v10_0 c (ix2 (⟨3 + k.val, by omega⟩ : Fin 9) f)
      = vert (vtxA m c) (idxA m c hr) 0 f k + vert (vtxA m c) (idxA m c hr) 2 f k := by
  rw [outs_v10_0, final0_3, posArr_ix2, posRows_band1]
  exact congrArg₂ (· + ·) (ht0 k f) (ht2 k f)
theorem pos_band2 (ht0 : ∀ (k : Fin 3) (f : Fin NF), E0 m c main_v7 (ix2 k f) = vert (vtxA m c) (idxA m c hr) 0 f k)
    (ht1 : ∀ (k : Fin 3) (f : Fin NF), E0 m c main_v8 (ix2 k f) = vert (vtxA m c) (idxA m c hr) 1 f k)
    (ht2 : ∀ (k : Fin 3) (f : Fin NF), E0 m c main_v9 (ix2 k f) = vert (vtxA m c) (idxA m c hr) 2 f k) (k : Fin 3) (f : Fin NF) :
    outs m 5 main_v10_0 c (ix2 (⟨6 + k.val, by omega⟩ : Fin 9) f)
      = vert (vtxA m c) (idxA m c hr) 0 f k + vert (vtxA m c) (idxA m c hr) 1 f k := by
  rw [outs_v10_0, final0_3, posArr_ix2, posRows_band2]
  exact congrArg₂ (· + ·) (ht0 k f) (ht1 k f)
theorem edge_row0 (ht0 : ∀ (k : Fin 3) (f : Fin NF), E0 m c main_v7 (ix2 k f) = vert (vtxA m c) (idxA m c hr) 0 f k)
    (ht1 : ∀ (k : Fin 3) (f : Fin NF), E0 m c main_v8 (ix2 k f) = vert (vtxA m c) (idxA m c hr) 1 f k)
    (ht2 : ∀ (k : Fin 3) (f : Fin NF), E0 m c main_v9 (ix2 k f) = vert (vtxA m c) (idxA m c hr) 2 f k) (f : Fin NF) :
    outs m 5 main_v10_1 c (ix2 (0 : Fin 3) f)
      = elen (vtxA m c) (idxA m c hr) 0 1 f + elen (vtxA m c) (idxA m c hr) 0 2 f := by
  rw [outs_v10_1, final0_4, edgeArr_ix2, edgeRows_0]
  exact congrArg₂ (· + ·)
    (elenArr_eq_elen (vtxA m c) (idxA m c hr) (E0 m c main_v7) (E0 m c main_v8) 0 1 f (fun k => ht0 k f) (fun k => ht1 k f))
    (elenArr_eq_elen (vtxA m c) (idxA m c hr) (E0 m c main_v7) (E0 m c main_v9) 0 2 f (fun k => ht0 k f) (fun k => ht2 k f))
theorem edge_row1 (ht0 : ∀ (k : Fin 3) (f : Fin NF), E0 m c main_v7 (ix2 k f) = vert (vtxA m c) (idxA m c hr) 0 f k)
    (ht1 : ∀ (k : Fin 3) (f : Fin NF), E0 m c main_v8 (ix2 k f) = vert (vtxA m c) (idxA m c hr) 1 f k)
    (ht2 : ∀ (k : Fin 3) (f : Fin NF), E0 m c main_v9 (ix2 k f) = vert (vtxA m c) (idxA m c hr) 2 f k) (f : Fin NF) :
    outs m 5 main_v10_1 c (ix2 (1 : Fin 3) f)
      = elen (vtxA m c) (idxA m c hr) 0 1 f + elen (vtxA m c) (idxA m c hr) 1 2 f := by
  rw [outs_v10_1, final0_4, edgeArr_ix2, edgeRows_1]
  exact congrArg₂ (· + ·)
    (elenArr_eq_elen (vtxA m c) (idxA m c hr) (E0 m c main_v7) (E0 m c main_v8) 0 1 f (fun k => ht0 k f) (fun k => ht1 k f))
    (elenArr_eq_elen (vtxA m c) (idxA m c hr) (E0 m c main_v8) (E0 m c main_v9) 1 2 f (fun k => ht1 k f) (fun k => ht2 k f))
theorem edge_row2 (ht0 : ∀ (k : Fin 3) (f : Fin NF), E0 m c main_v7 (ix2 k f) = vert (vtxA m c) (idxA m c hr) 0 f k)
    (ht1 : ∀ (k : Fin 3) (f : Fin NF), E0 m c main_v8 (ix2 k f) = vert (vtxA m c) (idxA m c hr) 1 f k)
    (ht2 : ∀ (k : Fin 3) (f : Fin NF), E0 m c main_v9 (ix2 k f) = vert (vtxA m c) (idxA m c hr) 2 f k) (f : Fin NF) :
    outs m 5 main_v10_1 c (ix2 (2 : Fin 3) f)
      = elen (vtxA m c) (idxA m c hr) 0 2 f + elen (vtxA m c) (idxA m c hr) 1 2 f := by
  rw [outs_v10_1, final0_4, edgeArr_ix2, edgeRows_2]
  exact congrArg₂ (· + ·)
    (elenArr_eq_elen (vtxA m c) (idxA m c hr) (E0 m c main_v7) (E0 m c main_v9) 0 2 f (fun k => ht0 k f) (fun k => ht2 k f))
    (elenArr_eq_elen (vtxA m c) (idxA m c hr) (E0 m c main_v8) (E0 m c main_v9) 1 2 f (fun k => ht1 k f) (fun k => ht2 k f))

end Cert.KernelIdeal.Hand

end
-- ==== Proof.KI.ValueB.lean ====
/-
  The host operations between the two regions, on the extended reals: each slot's band of positions, a count of two
  and the slot's edge-length row are laid side by side per face and totalled per vertex by an accumulating scatter at the
  slot's corner; the three slots' totals are added and re-laid as the three rows of neighbour totals and the two rows of
  counts and edge totals that region 1 reads, beside the transposed vertex array.
-/
import proofs.«429528_j48808008352295_3_alg».proof.Proof.KI.Run
import proofs.«429528_j48808008352295_3_alg».proof.Proof.KI.Args
import proofs.«429528_j48808008352295_3_alg».proof.Proof.Spec
import proofs.«429528_j48808008352295_3_alg».proof.Proof.LibRead
import proofs.«429528_j48808008352295_3_alg».proof.Proof.LibTypedRead
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.Spec

namespace ValueB

/-! ## One slot's scatter, as a function of the arrays it reads -/

section Slot
variable (o e : Nat) (hP : S9x2097152.Slices ![o, 0] S3x2097152) (hE : S3x2097152.Slices ![e, 0] S1x2097152)
  (P : S9x2097152.Idx → EReal) (E : S3x2097152.Idx → EReal) (I : S2097152.Idx → BitVec 32)

/-- One slot's update rows: per face, rows o, o + 1, o + 2 of the band array, the word two, and row e of the
    edge-length array, side by side. -/
def slotUpd : S2097152x5.Idx → EReal :=
  concatenate S2097152x5 1
    [⟨S2097152x3, transpose S2097152x3 [1, 0] (extractStridedSlice S3x2097152 ![o, 0] P hP) transposes_S3x2097152_S2097152x3_1_0⟩,
     ⟨S2097152x1, broadcastInDim S2097152x1 ![] bcast_S_S2097152x1 (constant (F := Ideal) S_ .f32 0x40000000#32)⟩,
     ⟨S2097152x1, broadcastInDim S2097152x1 ![0] bcast_S2097152_S2097152x1_0
        (fun i => shapeCast S2097152 (extractStridedSlice S1x2097152 ![e, 0] E hE) shapeCasts_S1x2097152_S2097152 i)⟩]
    concatenates_S2097152x3_S2097152x1_S2097152x1_S2097152x5_d1

/-- One slot's table: its update rows totalled per vertex, at the slot's corner indices, from zero. -/
def slotTab : S262144x5.Idx → EReal :=
  Host.scatterAdd (F := Ideal) (φ := .f32) scatter_S262144x5_S2097152x1_S2097152x5_1_0_0_1
    (broadcastInDim S262144x5 ![] bcast_S_S262144x5 (constant (F := Ideal) S_ .f32 0x00000000#32))
    (broadcastInDim S2097152x1 ![0] bcast_S2097152_S2097152x1_0 I)
    (slotUpd o e hP hE P E)

end Slot

/-- The three slots' tables added, as a function of the band array, the edge-length array and the three corner columns. -/
def total (P : S9x2097152.Idx → EReal) (E : S3x2097152.Idx → EReal) (I0 I1 I2 : S2097152.Idx → BitVec 32) : S262144x5.Idx → EReal :=
  addf (F := Ideal) (φ := .f32)
    (addf (F := Ideal) (φ := .f32)
      (slotTab 0 0 slices_S9x2097152_S3x2097152_0_0 slices_S3x2097152_S1x2097152_0_0 P E I0)
      (slotTab 3 1 slices_S9x2097152_S3x2097152_3_0 slices_S3x2097152_S1x2097152_1_0 P E I1))
    (slotTab 6 2 slices_S9x2097152_S3x2097152_6_0 slices_S3x2097152_S1x2097152_2_0 P E I2)

/-! ## The slot's update rows and table at an index -/

section SlotRead
variable (o e : Nat) (hP : S9x2097152.Slices ![o, 0] S3x2097152) (hE : S3x2097152.Slices ![e, 0] S1x2097152)
  (P : S9x2097152.Idx → EReal) (E : S3x2097152.Idx → EReal) (I : S2097152.Idx → BitVec 32)

/-- A column made from a vector reads the vector's entry. -/
theorem bcastCol_apply {α : Type} (v : S2097152.Idx → α) (f : Fin 2097152) :
    broadcastInDim S2097152x1 ![0] bcast_S2097152_S2097152x1_0 v (ix2 f (0 : Fin 1)) = v (ix1 f) :=
  broadcastInDim_apply _ _ v _ (ix1 f) (fun a => by
    obtain rfl : a = 0 := Subsingleton.elim _ _
    exact (if_neg (show ¬ S2097152.size 0 = 1 by decide)).symm)

/-- Column s of the face array, reshaped to a vector, reads at f the array's word at (f, s). -/
theorem colOfFaces_apply (s : Nat) (hS : S2097152x3.Slices ![0, s] S2097152x1) (X : S2097152x3.Idx → BitVec 32)
    (f : Fin 2097152) (q : Fin 3) (hq : q.val = s) :
    (fun i => shapeCast S2097152 (extractStridedSlice S2097152x1 ![0, s] X hS) shapeCasts_S2097152x1_S2097152 i) (ix1 f)
      = X (ix2 f q) := by
  show shapeCast S2097152 (extractStridedSlice S2097152x1 ![0, s] X hS) shapeCasts_S2097152x1_S2097152 (ix1 f) = _
  rw [shapeCast_apply _ shapeCasts_S2097152x1_S2097152 (ix1 f) (ix2 f (0 : Fin 1)) (by
    rw [Shape.rowMajor_val_two, Shape.rowMajor_val_one]
    show f.val * 1 + 0 = f.val
    omega)]
  exact slice2_axis1_apply s X hS f (0 : Fin 1) q (by rw [hq]; rfl)

/-- Columns 0, 1, 2 of a slot's update rows: rows o + k of the band array. -/
theorem slotUpd_band (f : Fin 2097152) (k : Fin 3) (q : Fin 9) (hq : q.val = o + k.val) :
    slotUpd o e hP hE P E (ix2 f (⟨k.val, by have := k.isLt; omega⟩ : Fin 5)) = P (ix2 q f) := by
  unfold slotUpd
  rw [Cert.LibRead.concat311_apply_a, transpose_ix2_apply]
  exact slice2_axis0_apply o P hP k f q hq

/-- Column 3 of a slot's update rows: the word two. -/
theorem slotUpd_two (f : Fin 2097152) : slotUpd o e hP hE P E (ix2 f (3 : Fin 5)) = cTwo := by
  unfold slotUpd
  rw [Cert.LibRead.concat311_apply_b]
  rfl

/-- Column 4 of a slot's update rows: row e of the edge-length array. -/
theorem slotUpd_edge (f : Fin 2097152) (q : Fin 3) (hq : q.val = e) :
    slotUpd o e hP hE P E (ix2 f (4 : Fin 5)) = E (ix2 q f) := by
  unfold slotUpd
  rw [Cert.LibRead.concat311_apply_c, bcastCol_apply]
  show shapeCast S2097152 (extractStridedSlice S1x2097152 ![e, 0] E hE) shapeCasts_S1x2097152_S2097152 (ix1 f) = _
  rw [shapeCast_1a_a_apply]
  exact slice2_axis0_apply e E hE (0 : Fin 1) f q (by rw [hq]; rfl)

/-- A slot's table at (n, k): the total, over the faces whose corner word is n, of column k of the update rows. -/
theorem slotTab_apply (n : Fin 262144) (k : Fin 5) :
    slotTab o e hP hE P E I (ix2 n k)
      = ∑ f : Fin 2097152, if (I (ix1 f)).toNat = n.val then slotUpd o e hP hE P E (ix2 f k) else 0 := by
  unfold slotTab
  rw [Cert.LibRead.rowScatterAdd_apply_of_eq (N := 262144) (R := 2097152) (C := 5) (w := 32) (by norm_num)
    scatter_S262144x5_S2097152x1_S2097152x5_1_0_0_1 rfl rfl rfl rfl]
  have h0 : broadcastInDim S262144x5 ![] bcast_S_S262144x5 (constant (F := Ideal) S_ .f32 0x00000000#32) (ix2 n k) = (0 : EReal) :=
    Ideal.ofBits_zero_f32
  rw [h0, zero_add]
  refine Finset.sum_congr rfl (fun f _ => ?_)
  rw [bcastCol_apply]

end SlotRead

/-- The added tables at (n, k): the three slots' totals. -/
theorem total_apply (P : S9x2097152.Idx → EReal) (E : S3x2097152.Idx → EReal) (I0 I1 I2 : S2097152.Idx → BitVec 32)
    (n : Fin 262144) (k : Fin 5) :
    total P E I0 I1 I2 (ix2 n k)
      = slotTab 0 0 slices_S9x2097152_S3x2097152_0_0 slices_S3x2097152_S1x2097152_0_0 P E I0 (ix2 n k)
        + slotTab 3 1 slices_S9x2097152_S3x2097152_3_0 slices_S3x2097152_S1x2097152_1_0 P E I1 (ix2 n k)
        + slotTab 6 2 slices_S9x2097152_S3x2097152_6_0 slices_S3x2097152_S1x2097152_2_0 P E I2 (ix2 n k) := by
  unfold total
  rw [addf_apply, addf_apply]

/-! ## The specification's readings of the two argument arrays, at coordinates -/

/-- The specification's corner s of face f is the face array's word at (f, s). -/
theorem idxOf_val (b : (⟨2, ![2097152, 3]⟩ : Shape).Idx → BitVec 32) (h : InRange b) (f : Fin NF) (s : Fin 3) :
    (idxOf b h f s).val = (b (ix2 f s)).toNat :=
  congrArg (fun i => (b i).toNat) (funext fun d => by match d with | ⟨0, _⟩ => rfl | ⟨1, _⟩ => rfl)

/-- The specification's coordinate k of vertex n is the vertex array's entry at (n, k). -/
theorem vtxOf_apply (a : (⟨2, ![262144, 3]⟩ : Shape).Idx → EReal) (n : Fin NV) (k : Fin 3) :
    vtxOf a n k = a (ix2 n k) :=
  congrArg a (funext fun d => by match d with | ⟨0, _⟩ => rfl | ⟨1, _⟩ => rfl)

section Concats
open Idealize.ShloMosaic.StableHlo

/-- The concatenation written at main_v17: its three operands' contents side by side. -/
theorem nary_v17 (F : Valuation τ sig (Elt Ideal)) :
    (StableHlo.nary ![main_v12, main_v13, main_v16] main_v17 (fun u => concatenate S2097152x5 1 [⟨S2097152x3, u 0⟩, ⟨S2097152x1, u 1⟩, ⟨S2097152x1, u 2⟩] concatenates_S2097152x3_S2097152x1_S2097152x1_S2097152x5_d1) : HloOp τ sig (Elt Ideal)).result F (no_index (Proc.devRef .tc main_v17))
      = concatenate S2097152x5 1 [⟨S2097152x3, F (Proc.devRef .tc main_v12)⟩, ⟨S2097152x1, F (Proc.devRef .tc main_v13)⟩, ⟨S2097152x1, F (Proc.devRef .tc main_v16)⟩] concatenates_S2097152x3_S2097152x1_S2097152x1_S2097152x5_d1 :=
  (StableHlo.nary_result _ _ _ _ _ F).trans rfl

/-- The concatenation written at main_v27: its three operands' contents side by side. -/
theorem nary_v27 (F : Valuation τ sig (Elt Ideal)) :
    (StableHlo.nary ![main_v22, main_v23, main_v26] main_v27 (fun u => concatenate S2097152x5 1 [⟨S2097152x3, u 0⟩, ⟨S2097152x1, u 1⟩, ⟨S2097152x1, u 2⟩] concatenates_S2097152x3_S2097152x1_S2097152x1_S2097152x5_d1) : HloOp τ sig (Elt Ideal)).result F (no_index (Proc.devRef .tc main_v27))
      = concatenate S2097152x5 1 [⟨S2097152x3, F (Proc.devRef .tc main_v22)⟩, ⟨S2097152x1, F (Proc.devRef .tc main_v23)⟩, ⟨S2097152x1, F (Proc.devRef .tc main_v26)⟩] concatenates_S2097152x3_S2097152x1_S2097152x1_S2097152x5_d1 :=
  (StableHlo.nary_result _ _ _ _ _ F).trans rfl

/-- The concatenation written at main_v38: its three operands' contents side by side. -/
theorem nary_v38 (F : Valuation τ sig (Elt Ideal)) :
    (StableHlo.nary ![main_v33, main_v34, main_v37] main_v38 (fun u => concatenate S2097152x5 1 [⟨S2097152x3, u 0⟩, ⟨S2097152x1, u 1⟩, ⟨S2097152x1, u 2⟩] concatenates_S2097152x3_S2097152x1_S2097152x1_S2097152x5_d1) : HloOp τ sig (Elt Ideal)).result F (no_index (Proc.devRef .tc main_v38))
      = concatenate S2097152x5 1 [⟨S2097152x3, F (Proc.devRef .tc main_v33)⟩, ⟨S2097152x1, F (Proc.devRef .tc main_v34)⟩, ⟨S2097152x1, F (Proc.devRef .tc main_v37)⟩] concatenates_S2097152x3_S2097152x1_S2097152x1_S2097152x5_d1 :=
  (StableHlo.nary_result _ _ _ _ _ F).trans rfl

end Concats

/-! ## The operations' results, stage by stage -/

section Stages
open Idealize.ShloMosaic.StableHlo

/-- Operations run one list after another are the two lists' results composed. -/
theorem after_append {τ' : Topo} {sig' : RefSig} {Val : EltTy → Type} (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, after_cons, ih]

/-- A list of operations run as its first k and then the rest. -/
theorem after_take_drop {τ' : Topo} {sig' : RefSig} {Val : EltTy → Type} (k : Nat) (l : List (HloOp τ' sig' Val)) (V : Valuation τ' sig' Val) :
    StableHlo.after l V = StableHlo.after (l.drop k) (StableHlo.after (l.take k) V) := by
  rw [← after_append, List.take_append_drop]

/-- What the first thirty-eight operations leave at the added tables' reference: the three slots' tables of the band
    array, the edge-length array and the three corner columns they start from. -/
theorem after_v42 (W : Valuation τ sig (Elt Ideal)) :
    (StableHlo.after ((hostOps1 (F := Ideal)).take 38) W (Proc.devRef .tc main_v42) : S262144x5.Idx → EReal)
      = total (W (Proc.devRef .tc main_v10_0)) (W (Proc.devRef .tc main_v10_1)) (W (Proc.devRef .tc main_v1))
          (W (Proc.devRef .tc main_v3)) (W (Proc.devRef .tc main_v5)) := by
  simp only [hostOps1, List.take_succ_cons, List.take_zero]
  simp (disch := decide) only [after_cons, after_nil,
      nullary_result', unary_result', binary_result', ternary_result', reshape_result', nary_v17, nary_v27, nary_v38,
      nullary_result_ne', unary_result_ne', binary_result_ne', ternary_result_ne', reshape_result_ne', nary_result_ne']
  rfl

/-- The last three operations: the added tables transposed, rows 0 to 2. -/
theorem tail_v44 (W : Valuation τ sig (Elt Ideal)) :
    (StableHlo.after ((hostOps1 (F := Ideal)).drop 38) W (Proc.devRef .tc main_v44) : S3x262144.Idx → EReal)
      = extractStridedSlice S3x262144 ![0, 0]
          (transpose S5x262144 [1, 0] (W (Proc.devRef .tc main_v42) : S262144x5.Idx → EReal) transposes_S262144x5_S5x262144_1_0)
          slices_S5x262144_S3x262144_0_0 := by
  simp only [hostOps1, List.drop_succ_cons, List.drop_zero]
  after_results_simp

/-- The last three operations: the added tables transposed, rows 3 and 4. -/
theorem tail_v45 (W : Valuation τ sig (Elt Ideal)) :
    (StableHlo.after ((hostOps1 (F := Ideal)).drop 38) W (Proc.devRef .tc main_v45) : S2x262144.Idx → EReal)
      = extractStridedSlice S2x262144 ![3, 0]
          (transpose S5x262144 [1, 0] (W (Proc.devRef .tc main_v42) : S262144x5.Idx → EReal) transposes_S262144x5_S5x262144_1_0)
          slices_S5x262144_S2x262144_3_0 := by
  simp only [hostOps1, List.drop_succ_cons, List.drop_zero]
  after_results_simp

/-- The first seven operations of the program: a corner column is a column of the face array, the transposed vertex
    array the vertex array transposed. -/
theorem head_v1 (W : Valuation τ sig (Elt Ideal)) :
    (StableHlo.after (hostOps0 (F := Ideal)) W (Proc.devRef .tc main_v1) : S2097152.Idx → BitVec 32)
      = fun i => shapeCast S2097152 (extractStridedSlice S2097152x1 ![0, 0] (W (Proc.devRef .tc main_arg1) : S2097152x3.Idx → BitVec 32) slices_S2097152x3_S2097152x1_0_0) shapeCasts_S2097152x1_S2097152 i := by
  after_results_simp
  rfl
theorem head_v3 (W : Valuation τ sig (Elt Ideal)) :
    (StableHlo.after (hostOps0 (F := Ideal)) W (Proc.devRef .tc main_v3) : S2097152.Idx → BitVec 32)
      = fun i => shapeCast S2097152 (extractStridedSlice S2097152x1 ![0, 1] (W (Proc.devRef .tc main_arg1) : S2097152x3.Idx → BitVec 32) slices_S2097152x3_S2097152x1_0_1) shapeCasts_S2097152x1_S2097152 i := by
  after_results_simp
  rfl
theorem head_v5 (W : Valuation τ sig (Elt Ideal)) :
    (StableHlo.after (hostOps0 (F := Ideal)) W (Proc.devRef .tc main_v5) : S2097152.Idx → BitVec 32)
      = fun i => shapeCast S2097152 (extractStridedSlice S2097152x1 ![0, 2] (W (Proc.devRef .tc main_arg1) : S2097152x3.Idx → BitVec 32) slices_S2097152x3_S2097152x1_0_2) shapeCasts_S2097152x1_S2097152 i := by
  after_results_simp
  rfl
theorem head_v6 (W : Valuation τ sig (Elt Ideal)) :
    (StableHlo.after (hostOps0 (F := Ideal)) W (Proc.devRef .tc main_v6) : S3x262144.Idx → EReal)
      = transpose S3x262144 [1, 0] (W (Proc.devRef .tc main_arg0) : S262144x3.Idx → EReal) transposes_S262144x3_S3x262144_1_0 := by
  after_results_simp

end Stages

/-! ## The valuation the stretch starts from, at the references it reads -/

variable (m : (ℓ : Loc nD τ sig) → Buf (Elt Ideal) ℓ)

section Inputs
variable (c : Dev nD)

/-- A reference the first stretch wrote and nothing since: it holds what the first stretch left. -/
theorem V5_of_head (r : Ref sig .tc) (h5 : r ∉ ([main_v10_0, main_v10_1] : List (Ref sig .tc))) (h4 : r ∉ hostOps0_3_W)
    (h3 : r ∉ hostOps0_2_W) (h2 : r ∉ hostOps0_1_W) : V5 m (outs m) c r = V1 m c r :=
  (V5_of m (outs m) c r h5).trans <| (V4_of m c r h4).trans <| (V3_of m c r h3).trans (V2_of m c r h2)

/-- Corner column s before the stretch, at face f: the face array's word at (f, s). -/
theorem V5_v1_apply (f : Fin 2097152) :
    (V5 m (outs m) c (Proc.devRef .tc main_v1) : S2097152.Idx → BitVec 32) (ix1 f)
      = (m ((c.tc : Thread nD τ).loc main_arg1) : S2097152x3.Idx → BitVec 32) (ix2 f (0 : Fin 3)) := by
  rw [V5_of_head m c main_v1 (by decide) (by decide) (by decide) (by decide)]
  show (StableHlo.after (hostOps0 (F := Ideal)) (V0 m c) (Proc.devRef .tc main_v1) : S2097152.Idx → BitVec 32) (ix1 f) = _
  rw [head_v1]
  exact colOfFaces_apply _ _ _ f (0 : Fin 3) rfl
theorem V5_v3_apply (f : Fin 2097152) :
    (V5 m (outs m) c (Proc.devRef .tc main_v3) : S2097152.Idx → BitVec 32) (ix1 f)
      = (m ((c.tc : Thread nD τ).loc main_arg1) : S2097152x3.Idx → BitVec 32) (ix2 f (1 : Fin 3)) := by
  rw [V5_of_head m c main_v3 (by decide) (by decide) (by decide) (by decide)]
  show (StableHlo.after (hostOps0 (F := Ideal)) (V0 m c) (Proc.devRef .tc main_v3) : S2097152.Idx → BitVec 32) (ix1 f) = _
  rw [head_v3]
  exact colOfFaces_apply _ _ _ f (1 : Fin 3) rfl
theorem V5_v5_apply (f : Fin 2097152) :
    (V5 m (outs m) c (Proc.devRef .tc main_v5) : S2097152.Idx → BitVec 32) (ix1 f)
      = (m ((c.tc : Thread nD τ).loc main_arg1) : S2097152x3.Idx → BitVec 32) (ix2 f (2 : Fin 3)) := by
  rw [V5_of_head m c main_v5 (by decide) (by decide) (by decide) (by decide)]
  show (StableHlo.after (hostOps0 (F := Ideal)) (V0 m c) (Proc.devRef .tc main_v5) : S2097152.Idx → BitVec 32) (ix1 f) = _
  rw [head_v5]
  exact colOfFaces_apply _ _ _ f (2 : Fin 3) rfl

end Inputs

/-! ## The stretch's results -/

section Results
variable (c : Dev nD)

/-- The three rows of neighbour totals, as the added tables transposed. -/
theorem V6_v44 :
    (V6 m (outs m) c (Proc.devRef .tc main_v44) : S3x262144.Idx → EReal)
      = extractStridedSlice S3x262144 ![0, 0]
          (transpose S5x262144 [1, 0]
            (total (outs m 5 main_v10_0 c) (outs m 5 main_v10_1 c) (V5 m (outs m) c (Proc.devRef .tc main_v1))
              (V5 m (outs m) c (Proc.devRef .tc main_v3)) (V5 m (outs m) c (Proc.devRef .tc main_v5)))
            transposes_S262144x5_S5x262144_1_0)
          slices_S5x262144_S3x262144_0_0 := by
  show StableHlo.after (hostOps1 (F := Ideal)) (V5 m (outs m) c) (Proc.devRef .tc main_v44) = _
  rw [after_take_drop 38 (hostOps1 (F := Ideal)) (V5 m (outs m) c), tail_v44, after_v42, V5_v10_0 m c, V5_v10_1 m c]

/-- The rows of counts and edge totals, as the added tables transposed. -/
theorem V6_v45 :
    (V6 m (outs m) c (Proc.devRef .tc main_v45) : S2x262144.Idx → EReal)
      = extractStridedSlice S2x262144 ![3, 0]
          (transpose S5x262144 [1, 0]
            (total (outs m 5 main_v10_0 c) (outs m 5 main_v10_1 c) (V5 m (outs m) c (Proc.devRef .tc main_v1))
              (V5 m (outs m) c (Proc.devRef .tc main_v3)) (V5 m (outs m) c (Proc.devRef .tc main_v5)))
            transposes_S262144x5_S5x262144_1_0)
          slices_S5x262144_S2x262144_3_0 := by
  show StableHlo.after (hostOps1 (F := Ideal)) (V5 m (outs m) c) (Proc.devRef .tc main_v45) = _
  rw [after_take_drop 38 (hostOps1 (F := Ideal)) (V5 m (outs m) c), tail_v45, after_v42, V5_v10_0 m c, V5_v10_1 m c]

/-- Row k of the neighbour totals at vertex n: column k of the added tables at n. -/
theorem V6_v44_apply (k : Fin 3) (n : Fin 262144) :
    V6 m (outs m) c main_v44 (ix2 k n)
      = total (outs m 5 main_v10_0 c) (outs m 5 main_v10_1 c) (V5 m (outs m) c (Proc.devRef .tc main_v1))
          (V5 m (outs m) c (Proc.devRef .tc main_v3)) (V5 m (outs m) c (Proc.devRef .tc main_v5))
          (ix2 n (⟨k.val, by have := k.isLt; omega⟩ : Fin 5)) := by
  refine (congrFun (V6_v44 m c) (ix2 k n)).trans ?_
  rw [slice2_axis0_apply 0 _ slices_S5x262144_S3x262144_0_0 k n (⟨k.val, by have := k.isLt; omega⟩ : Fin 5) (Nat.zero_add _).symm,
    transpose_ix2_apply]

/-- Row j of the counts and edge totals at vertex n: column 3 + j of the added tables at n. -/
theorem V6_v45_apply (j : Fin 2) (n : Fin 262144) :
    V6 m (outs m) c main_v45 (ix2 j n)
      = total (outs m 5 main_v10_0 c) (outs m 5 main_v10_1 c) (V5 m (outs m) c (Proc.devRef .tc main_v1))
          (V5 m (outs m) c (Proc.devRef .tc main_v3)) (V5 m (outs m) c (Proc.devRef .tc main_v5))
          (ix2 n (⟨3 + j.val, by have := j.isLt; omega⟩ : Fin 5)) := by
  refine (congrFun (V6_v45 m c) (ix2 j n)).trans ?_
  rw [slice2_axis0_apply 3 _ slices_S5x262144_S2x262144_3_0 j n (⟨3 + j.val, by have := j.isLt; omega⟩ : Fin 5) rfl,
    transpose_ix2_apply]

variable (hr : InRange (m ((c.tc : Thread nD τ).loc main_arg1)))

/-- The face array's word at (f, s) names vertex n exactly when the specification's corner s of face f is n. -/
theorem corner_iff (f : Fin NF) (s : Fin 3) (n : Fin NV) :
    ((m ((c.tc : Thread nD τ).loc main_arg1) : S2097152x3.Idx → BitVec 32) (ix2 f s)).toNat = n.val ↔ idxA m c hr f s = n :=
  (idxOf_val _ hr f s) ▸ (Fin.ext_iff (a := idxA m c hr f s) (b := n)).symm

/-- One slot's total of a column of its update rows, read against the specification: the total over the faces whose
    corner s is n. -/
theorem slot_sum (s : Fin 3) (I : S2097152.Idx → BitVec 32)
    (hI : ∀ f : Fin 2097152, I (ix1 f) = (m ((c.tc : Thread nD τ).loc main_arg1) : S2097152x3.Idx → BitVec 32) (ix2 f s))
    (u : Fin 2097152 → EReal) (val : Fin NF → EReal) (hu : ∀ f, u f = val f) (n : Fin NV) :
    (∑ f : Fin 2097152, if (I (ix1 f)).toNat = n.val then u f else 0) = ssum (idxA m c hr) s val n := by
  unfold ssum
  refine Finset.sum_congr rfl (fun f _ => ?_)
  rw [hI f, hu f]
  exact if_congr (corner_iff m c hr f s n) rfl rfl

end Results

end ValueB

open ValueB

variable (m : (ℓ : Loc nD τ sig) → Buf (Elt Ideal) ℓ)

variable (c : Dev nD) (hr : InRange (m ((c.tc : Thread nD τ).loc main_arg1)))

theorem tot_eq (hp0 : ∀ (k : Fin 3) (f : Fin NF), outs m 5 main_v10_0 c (ix2 (⟨k.val, by omega⟩ : Fin 9) f) = vert (vtxA m c) (idxA m c hr) 1 f k + vert (vtxA m c) (idxA m c hr) 2 f k)
    (hp1 : ∀ (k : Fin 3) (f : Fin NF), outs m 5 main_v10_0 c (ix2 (⟨3 + k.val, by omega⟩ : Fin 9) f) = vert (vtxA m c) (idxA m c hr) 0 f k + vert (vtxA m c) (idxA m c hr) 2 f k)
    (hp2 : ∀ (k : Fin 3) (f : Fin NF), outs m 5 main_v10_0 c (ix2 (⟨6 + k.val, by omega⟩ : Fin 9) f) = vert (vtxA m c) (idxA m c hr) 0 f k + vert (vtxA m c) (idxA m c hr) 1 f k)
    (he0 : ∀ f : Fin NF, outs m 5 main_v10_1 c (ix2 (0 : Fin 3) f) = elen (vtxA m c) (idxA m c hr) 0 1 f + elen (vtxA m c) (idxA m c hr) 0 2 f)
    (he1 : ∀ f : Fin NF, outs m 5 main_v10_1 c (ix2 (1 : Fin 3) f) = elen (vtxA m c) (idxA m c hr) 0 1 f + elen (vtxA m c) (idxA m c hr) 1 2 f)
    (he2 : ∀ f : Fin NF, outs m 5 main_v10_1 c (ix2 (2 : Fin 3) f) = elen (vtxA m c) (idxA m c hr) 0 2 f + elen (vtxA m c) (idxA m c hr) 1 2 f) (k : Fin 3) (n : Fin NV) :
    V6 m (outs m) c main_v44 (ix2 k n) = ktot (vtxA m c) (idxA m c hr) n k := by
  rw [V6_v44_apply m c k n, total_apply, slotTab_apply, slotTab_apply, slotTab_apply]
  unfold ktot
  refine congrArg₂ (· + ·) (congrArg₂ (· + ·) ?_ ?_) ?_
  · exact slot_sum m c hr 0 _ (V5_v1_apply m c) _ _ (fun f => by
      rw [slotUpd_band 0 0 _ _ _ _ f k (⟨k.val, by have := k.isLt; omega⟩ : Fin 9) (Nat.zero_add _).symm]
      exact hp0 k f) n
  · exact slot_sum m c hr 1 _ (V5_v3_apply m c) _ _ (fun f => by
      rw [slotUpd_band 3 1 _ _ _ _ f k (⟨3 + k.val, by have := k.isLt; omega⟩ : Fin 9) rfl]
      exact hp1 k f) n
  · exact slot_sum m c hr 2 _ (V5_v5_apply m c) _ _ (fun f => by
      rw [slotUpd_band 6 2 _ _ _ _ f k (⟨6 + k.val, by have := k.isLt; omega⟩ : Fin 9) rfl]
      exact hp2 k f) n
theorem cnt_eq (n : Fin NV) :
    V6 m (outs m) c main_v45 (ix2 (0 : Fin 2) n) = kcnt (idxA m c hr) n := by
  rw [V6_v45_apply m c (0 : Fin 2) n, total_apply, slotTab_apply, slotTab_apply, slotTab_apply]
  unfold kcnt
  refine congrArg₂ (· + ·) (congrArg₂ (· + ·) ?_ ?_) ?_
  · exact slot_sum m c hr 0 _ (V5_v1_apply m c) _ _ (fun f => slotUpd_two 0 0 _ _ _ _ f) n
  · exact slot_sum m c hr 1 _ (V5_v3_apply m c) _ _ (fun f => slotUpd_two 3 1 _ _ _ _ f) n
  · exact slot_sum m c hr 2 _ (V5_v5_apply m c) _ _ (fun f => slotUpd_two 6 2 _ _ _ _ f) n
theorem el_eq (hp0 : ∀ (k : Fin 3) (f : Fin NF), outs m 5 main_v10_0 c (ix2 (⟨k.val, by omega⟩ : Fin 9) f) = vert (vtxA m c) (idxA m c hr) 1 f k + vert (vtxA m c) (idxA m c hr) 2 f k)
    (hp1 : ∀ (k : Fin 3) (f : Fin NF), outs m 5 main_v10_0 c (ix2 (⟨3 + k.val, by omega⟩ : Fin 9) f) = vert (vtxA m c) (idxA m c hr) 0 f k + vert (vtxA m c) (idxA m c hr) 2 f k)
    (hp2 : ∀ (k : Fin 3) (f : Fin NF), outs m 5 main_v10_0 c (ix2 (⟨6 + k.val, by omega⟩ : Fin 9) f) = vert (vtxA m c) (idxA m c hr) 0 f k + vert (vtxA m c) (idxA m c hr) 1 f k)
    (he0 : ∀ f : Fin NF, outs m 5 main_v10_1 c (ix2 (0 : Fin 3) f) = elen (vtxA m c) (idxA m c hr) 0 1 f + elen (vtxA m c) (idxA m c hr) 0 2 f)
    (he1 : ∀ f : Fin NF, outs m 5 main_v10_1 c (ix2 (1 : Fin 3) f) = elen (vtxA m c) (idxA m c hr) 0 1 f + elen (vtxA m c) (idxA m c hr) 1 2 f)
    (he2 : ∀ f : Fin NF, outs m 5 main_v10_1 c (ix2 (2 : Fin 3) f) = elen (vtxA m c) (idxA m c hr) 0 2 f + elen (vtxA m c) (idxA m c hr) 1 2 f) (n : Fin NV) :
    V6 m (outs m) c main_v45 (ix2 (1 : Fin 2) n) = kel (vtxA m c) (idxA m c hr) n := by
  rw [V6_v45_apply m c (1 : Fin 2) n, total_apply, slotTab_apply, slotTab_apply, slotTab_apply]
  unfold kel
  refine congrArg₂ (· + ·) (congrArg₂ (· + ·) ?_ ?_) ?_
  · exact slot_sum m c hr 0 _ (V5_v1_apply m c) _ _ (fun f => (slotUpd_edge 0 0 _ _ _ _ f (0 : Fin 3) rfl).trans (he0 f)) n
  · exact slot_sum m c hr 1 _ (V5_v3_apply m c) _ _ (fun f => (slotUpd_edge 3 1 _ _ _ _ f (1 : Fin 3) rfl).trans (he1 f)) n
  · exact slot_sum m c hr 2 _ (V5_v5_apply m c) _ _ (fun f => (slotUpd_edge 6 2 _ _ _ _ f (2 : Fin 3) rfl).trans (he2 f)) n
theorem vT_eq (k : Fin 3) (n : Fin NV) :
    V6 m (outs m) c main_v6 (ix2 k n) = vtxA m c n k := by
  rw [V6_of m (outs m) c main_v6 (by decide), V5_of_head m c main_v6 (by decide) (by decide) (by decide) (by decide)]
  show (StableHlo.after (hostOps0 (F := Ideal)) (V0 m c) (Proc.devRef .tc main_v6) : S3x262144.Idx → EReal) (ix2 k n) = _
  rw [head_v6, transpose_ix2_apply]
  exact (vtxOf_apply _ n k).symm

end Cert.KernelIdeal.Hand

end
-- ==== Proof.KI.Value1.lean ====
/-
  Region 1's running total read on the extended reals: a point's step adds the point's partial sum of vertex errors
  (over the lanes of the block: the square root of the sum over the three coordinates of the squared scaled offset
  (x · count − total) / edgeTotal) to the total it finds; the total starts from zero; so the total after the last point
  is the sum of the eight partial sums, and the output word is that sum scaled.
-/
import proofs.«429528_j48808008352295_3_alg».proof.Proof.KI.Defs1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-- One lane's vertex error from the point's blocks: coordinates `x0`, neighbour totals `x1`, counts and edge totals `x2`. -/
def err1 (x0 x1 : Vec Ideal S3x32768 .f32) (x2 : Vec Ideal S2x32768 .f32) (l : Fin 32768) : EReal :=
  Ideal.sqrt (∑ k : Fin 3,
    (Ideal.div (x0 (ix2 k l) * x2 (ix2 (0 : Fin 2) l) - x1 (ix2 k l)) (x2 (ix2 (1 : Fin 2) l)) * Ideal.ofBits .f32 0x3F800000#32)
      * (Ideal.div (x0 (ix2 k l) * x2 (ix2 (0 : Fin 2) l) - x1 (ix2 k l)) (x2 (ix2 (1 : Fin 2) l)) * Ideal.ofBits .f32 0x3F800000#32))

/-- A point's partial sum: the lanes' vertex errors added. -/
def part1 (x0 x1 : Vec Ideal S3x32768 .f32) (x2 : Vec Ideal S2x32768 .f32) : EReal :=
  ∑ l : Fin 32768, err1 x0 x1 x2 l

/-! ## The pieces of a point's arithmetic, each read at an index -/

/-- A square root at an index is the extended reals' square root of the element. -/
theorem sqrt_at1 {s : Shape} {φ : FTy} (a : FVec Ideal s φ) (i : s.Idx) : sqrt a i = Ideal.sqrt (a i) := rfl

/-- The square root of the sum down the three rows, at a lane: the reduction along axis 0 starts from the zero word,
    so it is the sum of the lane's three entries; the cast to one row keeps the lane. -/
theorem rowsum_sqrt1 (w : FVec Ideal S3x32768 .f32) (l : Fin 32768) :
    sqrt (shapeCast S1x32768 (multiReduction (F := Ideal) .add [0] S32768 w 0x00000000#32 reduces_S3x32768_S32768 (.inl rfl) rfl) shapeCasts_S32768_S1x32768) (ix2 (0 : Fin 1) l)
      = Ideal.sqrt (∑ k : Fin 3, w (ix2 k l)) := by
  refine (sqrt_at1 _ _).trans ?_
  refine congrArg Ideal.sqrt ?_
  refine (shapeCast_a_1a_apply _ shapeCasts_S32768_S1x32768 (0 : Fin 1) l).trans ?_
  refine (Ideal.multiReduction_add_single w 0x00000000#32 reduces_S3x32768_S32768 (.inl rfl) rfl (ix1 l)).trans ?_
  refine Finset.sum_congr rfl fun k _ => congrArg w ?_
  funext a; match a with | ⟨0, _⟩ => rfl | ⟨1, _⟩ => rfl

/-- The sum along the lanes of a one-row block, read at the one word: the sum of the row's entries. -/
theorem lanesum1 (r : FVec Ideal S1x32768 .f32) :
    shapeCast S1x1 (multiReduction (F := Ideal) .add [1] S1 r 0x00000000#32 reduces_S1x32768_S1 (.inl rfl) rfl) shapeCasts_S1_S1x1 (ix2 (0 : Fin 1) (0 : Fin 1))
      = ∑ l : Fin 32768, r (ix2 (0 : Fin 1) l) := by
  refine (shapeCast_a_1a_apply _ shapeCasts_S1_S1x1 (0 : Fin 1) (0 : Fin 1)).trans ?_
  refine (Ideal.multiReduction_add_single r 0x00000000#32 reduces_S1x32768_S1 (.inl rfl) rfl (ix1 (0 : Fin 1))).trans ?_
  refine Finset.sum_congr rfl fun l _ => congrArg r ?_
  funext a; match a with | ⟨0, _⟩ => rfl | ⟨1, _⟩ => rfl

/-- A load through the first row rectangle of the two-row block reads row 0. -/
theorem ld1_row0 (x2 : Vec Ideal S2x32768 .f32) (l : Fin 32768) :
    View.ld x2 rRow0 (ix2 (0 : Fin 1) l) = x2 (ix2 (0 : Fin 2) l) := by
  refine congrArg x2 ?_
  funext a
  match a with
  | ⟨0, _⟩ => exact Fin.ext (by show 0 + 1 * 0 = 0; rfl)
  | ⟨1, _⟩ => exact Fin.ext (by show 0 + 1 * l.val = l.val; omega)

/-- A load through the second row rectangle of the two-row block reads row 1. -/
theorem ld1_row1 (x2 : Vec Ideal S2x32768 .f32) (l : Fin 32768) :
    View.ld x2 rRow1 (ix2 (0 : Fin 1) l) = x2 (ix2 (1 : Fin 2) l) := by
  refine congrArg x2 ?_
  funext a
  match a with
  | ⟨0, _⟩ => exact Fin.ext (by show 1 + 1 * 0 = 1; rfl)
  | ⟨1, _⟩ => exact Fin.ext (by show 0 + 1 * l.val = l.val; omega)

/-- The zero offsets of a whole-block rectangle, as a function. -/
theorem off_zero1 : (![0, 0] : Fin 2 → Nat) = fun _ => 0 :=
  funext fun a => match a with | ⟨0, _⟩ => rfl | ⟨1, _⟩ => rfl

/-- A load of a three-row block through its whole rectangle reads the block. -/
theorem ld1_in (x : Vec Ideal S3x32768 .f32) : View.ld x rIn1 = x :=
  View.ld_unit_zero off_zero1 inb_S3x32768_S3x32768_0_0 x

/-- The scaled offset of coordinate `k` at lane `l`: the two rows `r0`, `r1` are each spread over the three rows, so
    the entry is `(x0 · r0 − x1) / r1` at the lane, times the constant one. -/
theorem scaled1_apply (x0 x1 : Vec Ideal S3x32768 .f32) (r0 r1 : Vec Ideal S1x32768 .f32) (k : Fin 3) (l : Fin 32768) :
    mulf (F := Ideal) (divf (subf (mulf (shapeCast S3x32768 x0 shapeCasts_S3x32768_S3x32768)
        (broadcastTo S3x32768 (shapeCast S1x32768 r0 shapeCasts_S1x32768_S1x32768) broadcasts_S1x32768_S3x32768))
        (shapeCast S3x32768 x1 shapeCasts_S3x32768_S3x32768))
        (broadcastTo S3x32768 (shapeCast S1x32768 r1 shapeCasts_S1x32768_S1x32768) broadcasts_S1x32768_S3x32768))
      (broadcast S3x32768 (Scalar.ofBits (F := Ideal) .f32 0x3F800000#32)) (ix2 k l)
      = Ideal.div (x0 (ix2 k l) * r0 (ix2 (0 : Fin 1) l) - x1 (ix2 k l)) (r1 (ix2 (0 : Fin 1) l)) * Ideal.ofBits .f32 0x3F800000#32 := by
  rw [shapeCast_self, shapeCast_self, shapeCast_self, shapeCast_self]
  refine (mulf_apply _ _ _).trans ?_
  refine congrArg₂ (· * ·) ?_ rfl
  refine (divf_apply _ _ _).trans ?_
  refine congrArg₂ Ideal.div ?_ (broadcastTo_1b_ab_apply r1 broadcasts_S1x32768_S3x32768 k l)
  refine (subf_apply _ _ _).trans ?_
  refine congrArg (· - x1 (ix2 k l)) ?_
  refine (mulf_apply _ _ _).trans ?_
  exact congrArg (x0 (ix2 k l) * ·) (broadcastTo_1b_ab_apply r0 broadcasts_S1x32768_S3x32768 k l)

/-! ## A point's step -/

theorem step1_apply (x0 x1 : Vec Ideal S3x32768 .f32) (x2 : Vec Ideal S2x32768 .f32) (a : Vec Ideal S1x1 .f32) :
    step1 (F := Ideal) x0 x1 x2 a (ix2 (0 : Fin 1) (0 : Fin 1)) = a (ix2 (0 : Fin 1) (0 : Fin 1)) + part1 x0 x1 x2 := by
  unfold step1 k1_pay2
  refine (congrFun (shapeCast_self _ shapeCasts_S1x1_S1x1) _).trans ?_
  refine (addf_apply _ _ _).trans ?_
  refine congrArg (a (ix2 (0 : Fin 1) (0 : Fin 1)) + ·) ?_
  refine (lanesum1 _).trans ?_
  unfold part1 err1
  refine Finset.sum_congr rfl fun l _ => ?_
  refine (rowsum_sqrt1 _ l).trans ?_
  refine congrArg Ideal.sqrt (Finset.sum_congr rfl fun k _ => ?_)
  refine (mulf_apply _ _ _).trans ?_
  have h := scaled1_apply (View.ld x0 rIn1) (View.ld x1 rIn1) (View.ld x2 rRow0) (View.ld x2 rRow1) k l
  rw [ld1_row0, ld1_row1] at h
  rw [ld1_in, ld1_in] at h ⊢
  exact congrArg₂ (· * ·) h h

/-! ## The running total -/

/-- The cleared scratch word is zero. -/
theorem k1_pay1_apply : (k1_pay1 (F := Ideal)) (ix2 (0 : Fin 1) (0 : Fin 1)) = 0 := by
  unfold k1_pay1
  refine (congrFun (shapeCast_self _ shapeCasts_S1x1_S1x1) _).trans ?_
  exact Ideal.ofBits_zero_f32

-- the TensorCore's buffer contents when the region is entered
variable (V : (c : Dev nD) → (b : Ref sig .tc) → Buf (Elt Ideal) ((c : Thread nD τ).loc b))

/-- Point `t`'s partial sum from its three input blocks, for a natural number `t` (zero past the grid's last point). -/
def part1At (c : Dev nD) (t : ℕ) : EReal :=
  if h : t < cfg1.N then part1 (iblk1 V c 0 ⟨t, h⟩) (iblk1 V c 1 ⟨t, h⟩) (iblk1 V c 2 ⟨t, h⟩) else 0

/-- The scratch total after point `n` is the sum of the partial sums of the points `0, …, n`: the first point's step
    starts from zero, and each later step adds its point's partial sum to the total carried to it. -/
theorem accC_apply (c : Dev nD) : ∀ (n : ℕ) (h : n < cfg1.N),
    accC (F := Ideal) V c n h (ix2 (0 : Fin 1) (0 : Fin 1)) = ∑ t ∈ Finset.range (n + 1), part1At V c t
  | 0, h => by
    unfold accC
    refine (step1_apply _ _ _ _).trans ?_
    rw [k1_pay1_apply, zero_add, Finset.sum_range_one]
    unfold part1At
    rw [dif_pos h]
  | n + 1, h => by
    unfold accC
    refine (step1_apply _ _ _ _).trans ?_
    rw [accC_apply c n (Nat.lt_of_succ_lt h), Finset.sum_range_succ _ (n + 1)]
    refine congrArg (_ + ·) ?_
    unfold part1At
    rw [dif_pos h]

/-- The output word: the eight points' partial sums added, scaled. -/
theorem finC_apply (c : Dev nD) :
    finC (F := Ideal) V c (ix2 (0 : Fin 1) (0 : Fin 1))
      = (∑ t : Fin cfg1.N, part1 (iblk1 V c 0 t) (iblk1 V c 1 t) (iblk1 V c 2 t)) * Ideal.ofBits .f32 0x36800000#32 := by
  unfold finC k1_pay3
  refine (mulf_apply _ _ _).trans ?_
  refine congrArg₂ (· * ·) ?_ rfl
  refine (accC_apply V c 7 _).trans ?_
  have h8 : Finset.range (7 + 1) = Finset.range cfg1.N := by rw [show cfg1.N = 8 from N_1]
  rw [h8, ← Fin.sum_univ_eq_sum_range (fun t => part1At V c t) cfg1.N]
  refine Finset.sum_congr rfl fun t _ => ?_
  unfold part1At
  exact dif_pos t.isLt

end Cert.KernelIdeal.Hand

end
-- ==== Proof.KI.ValueC.lean ====
/-
  From region 1's input arrays to the program's result, on the extended reals: each grid point reads its lane block
  of the transposed vertices, the neighbour totals and the counts and edge totals; the running total after the last point
  is the sum over the points of the lanes' vertex errors, that is the sum over all vertices; the last point scales it into
  the one-word output array, which the final reshape returns.
-/
import proofs.«429528_j48808008352295_3_alg».proof.Proof.KI.Run
import proofs.«429528_j48808008352295_3_alg».proof.Proof.Spec
import proofs.«429528_j48808008352295_3_alg».proof.Proof.LibRead
import proofs.«429528_j48808008352295_3_alg».proof.Proof.LibTypedRead
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate
import proofs.«429528_j48808008352295_3_alg».proof.Proof.KI.Value1
import proofs.«429528_j48808008352295_3_alg».proof.Proof.KI.Args

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.Spec

variable (m : (ℓ : Loc nD τ sig) → Buf (Elt Ideal) ℓ)

variable (c : Dev nD) (hr : InRange (m ((c.tc : Thread nD τ).loc main_arg1)))

/-- After region 1 its one-word array holds what the region leaves there. -/
theorem res_v46_eq : V7 m (outs m) c main_v46 = (dat1 (E1 m) c).arrAt 3 cfg1.N := by
  show Function.update (V6 m (outs m) c) main_v46 (outs m 7 main_v46 c) main_v46 = _
  rw [Function.update_self]
  exact outs_v46 m c

/-- The program's result is the reshape of the one-word array region 1 leaves. -/
theorem res_v47_eq : V8 m (outs m) c main_v47
    = shapeCast S_ ((dat1 (E1 m) c).arrAt 3 cfg1.N : Vec Ideal S1x1 .f32) shapeCasts_S1x1_S_ := by
  show StableHlo.after hostOps2 (V7 m (outs m) c) (Proc.devRef .tc main_v47) = _
  open Idealize.ShloMosaic.StableHlo in after_results
  show (fun i => shapeCast S_ (V7 m (outs m) c main_v46 : Vec Ideal S1x1 .f32) shapeCasts_S1x1_S_ i) = _
  rw [res_v46_eq]

/-- The scaled total as contents of the one-word output array. -/
abbrev resWord (c : Dev nD) : Buf (Elt Ideal) ((c : Thread nD τ).loc main_v46) := finC (E1 m) c

/-- The one write-back, at the last point, writes the scaled total: the block is the whole one-word array. -/
theorem res_flushed_eq (hlast : (dat1 (E1 m) c).after 3 t1_7 = finC (E1 m) c) (t : Fin cfg1.N)
    (hf : (cfg1.win 3).flush t = true) :
    (dat1 (E1 m) c).flushed 3 t = ((cfg1.win 3).blk t).view.read (Elt Ideal) (resWord m c) := by
  have hN : cfg1.N = 8 := N_1
  have h7 : t.val = 7 := by have := (flush1_3 t).mp hf; have := t.isLt; omega
  obtain rfl : t = t1_7 := Fin.ext h7
  show (cfg1.win 3).cut (grid1.coords t1_7) ((dat1 (E1 m) c).after 3 t1_7) = _
  rw [hlast]
  have hz' : (fun a => win1_3.index t1_7 a * main_v46.ty.shape.size a) = fun _ => 0 := funext fun a => by fin_cases a <;> decide
  exact (Memref.read_access_unit_zero (Elt Ideal) main_v46 hz' (fun a => by rw [congrFun hz' a]; simp) (resWord m c)).symm

/-- So the one-word array ends holding the scaled total: the last point's block covers it. -/
theorem res_final (hlast : (dat1 (E1 m) c).after 3 t1_7 = finC (E1 m) c) :
    (dat1 (E1 m) c).arrAt 3 cfg1.N = resWord m c :=
  (dat1 (E1 m) c).arrAt_eq_of_cover 3 (resWord m c) (res_flushed_eq m c hlast) fun i =>
    ⟨t1_7, (flush1_3 t1_7).mpr rfl, by
      show i ∈ ((View.whole main_v46).slice (win1_3.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 1 from by decide +kernel]; omega⟩

section Blocks
variable (V : (c : Dev nD) → (b : Ref sig .tc) → Buf (Elt Ideal) ((c : Thread nD τ).loc b))

/-- Every input window's block at point `t` is block `(0, t)` of its array. -/
theorem res_idx_0 : ∀ t : Fin cfg1.N, win1_0.index t 0 = 0 ∧ win1_0.index t 1 = t.val :=
  (by decide +kernel : ∀ t : Fin grid1.N, win1_0.index t 0 = 0 ∧ win1_0.index t 1 = t.val)
theorem res_idx_1 : ∀ t : Fin cfg1.N, win1_1.index t 0 = 0 ∧ win1_1.index t 1 = t.val :=
  (by decide +kernel : ∀ t : Fin grid1.N, win1_1.index t 0 = 0 ∧ win1_1.index t 1 = t.val)
theorem res_idx_2 : ∀ t : Fin cfg1.N, win1_2.index t 0 = 0 ∧ win1_2.index t 1 = t.val :=
  (by decide +kernel : ∀ t : Fin grid1.N, win1_2.index t 0 = 0 ∧ win1_2.index t 1 = t.val)

/-- Lane `l` of point `t` is vertex `32768 t + l`. -/
theorem res_lane_lt (t : Fin cfg1.N) (l : Fin 32768) : t.val * 32768 + l.val < 262144 := by
  have hN : cfg1.N = 8 := N_1
  have := t.isLt; have := l.isLt; omega

/-- The vertex a lane of a point stands for. -/
abbrev resLane (t : Fin cfg1.N) (l : Fin 32768) : Fin 262144 := ⟨t.val * 32768 + l.val, res_lane_lt t l⟩

/-- Window 0's block at point `t` reads the transposed vertices at the block's lanes. -/
theorem res_blk0_apply (t : Fin cfg1.N) (k : Fin 3) (l : Fin 32768) :
    (iblk1 V c 0 t : Vec Ideal S3x32768 .f32) (ix2 k l) = V c main_v6 (ix2 k (resLane t l)) := by
  have hi := res_idx_0 t
  unfold iblk1
  rw [View.read_apply]
  show V c main_v6 _ = V c main_v6 _
  congr 1
  funext a
  apply Fin.ext
  match a with
  | ⟨0, _⟩ => show win1_0.index t 0 * 3 + 1 * k.val = k.val; rw [hi.1]; omega
  | ⟨1, _⟩ => show win1_0.index t 1 * 32768 + 1 * l.val = t.val * 32768 + l.val; rw [hi.2]; omega

/-- Window 1's block at point `t` reads the neighbour totals at the block's lanes. -/
theorem res_blk1_apply (t : Fin cfg1.N) (k : Fin 3) (l : Fin 32768) :
    (iblk1 V c 1 t : Vec Ideal S3x32768 .f32) (ix2 k l) = V c main_v44 (ix2 k (resLane t l)) := by
  have hi := res_idx_1 t
  unfold iblk1
  rw [View.read_apply]
  show V c main_v44 _ = V c main_v44 _
  congr 1
  funext a
  apply Fin.ext
  match a with
  | ⟨0, _⟩ => show win1_1.index t 0 * 3 + 1 * k.val = k.val; rw [hi.1]; omega
  | ⟨1, _⟩ => show win1_1.index t 1 * 32768 + 1 * l.val = t.val * 32768 + l.val; rw [hi.2]; omega

/-- Window 2's block at point `t` reads the counts and the edge totals at the block's lanes. -/
theorem res_blk2_apply (t : Fin cfg1.N) (k : Fin 2) (l : Fin 32768) :
    (iblk1 V c 2 t : Vec Ideal S2x32768 .f32) (ix2 k l) = V c main_v45 (ix2 k (resLane t l)) := by
  have hi := res_idx_2 t
  unfold iblk1
  rw [View.read_apply]
  show V c main_v45 _ = V c main_v45 _
  congr 1
  funext a
  apply Fin.ext
  match a with
  | ⟨0, _⟩ => show win1_2.index t 0 * 2 + 1 * k.val = k.val; rw [hi.1]; omega
  | ⟨1, _⟩ => show win1_2.index t 1 * 32768 + 1 * l.val = t.val * 32768 + l.val; rw [hi.2]; omega
end Blocks

/-- Region 1's entry contents are the valuation the hypotheses are stated at. -/
theorem res_entry_eq (b : Ref sig .tc) : E1 m c b = V6 m (outs m) c b := by
  show V6 m (outsA m) c b = _
  rw [V6_outs]

/-- A lane's error from the point's blocks is the specification's vertex error at the lane's vertex. -/
theorem res_err_eq
    (htot : ∀ (k : Fin 3) (n : Fin NV), V6 m (outs m) c main_v44 (ix2 k n) = ktot (vtxA m c) (idxA m c hr) n k)
    (hcnt : ∀ n : Fin NV, V6 m (outs m) c main_v45 (ix2 (0 : Fin 2) n) = kcnt (idxA m c hr) n)
    (hel : ∀ n : Fin NV, V6 m (outs m) c main_v45 (ix2 (1 : Fin 2) n) = kel (vtxA m c) (idxA m c hr) n)
    (hvT : ∀ (k : Fin 3) (n : Fin NV), V6 m (outs m) c main_v6 (ix2 k n) = vtxA m c n k)
    (t : Fin cfg1.N) (l : Fin 32768) :
    err1 (iblk1 (E1 m) c 0 t) (iblk1 (E1 m) c 1 t) (iblk1 (E1 m) c 2 t) l
      = kerr (vtxA m c) (idxA m c hr) (resLane t l) := by
  unfold err1 kerr kscaled cOne
  refine congrArg Ideal.sqrt (Finset.sum_congr rfl fun k _ => ?_)
  rw [res_blk0_apply c (E1 m) t k l, res_blk1_apply c (E1 m) t k l, res_blk2_apply c (E1 m) t 0 l,
    res_blk2_apply c (E1 m) t 1 l, res_entry_eq, res_entry_eq, res_entry_eq, hvT k (resLane t l), htot k (resLane t l), hcnt (resLane t l),
    hel (resLane t l)]

/-- A sum over the points of the sums over a point's lanes is the sum over all positions. -/
theorem res_sum_points_lanes {M : Type*} [AddCommMonoid M] {P R T : Nat} (hT : P * R = T) (g : Fin T → M) :
    ∑ t : Fin P, ∑ l : Fin R, g ⟨t.val * R + l.val, by
      have := t.isLt; have := l.isLt; subst hT; nlinarith⟩ = ∑ q : Fin T, g q := by
  subst hT
  rw [← Equiv.sum_comp (finProdFinEquiv (m := P) (n := R)) g, Fintype.sum_prod_type]
  refine Finset.sum_congr rfl (fun j _ => Finset.sum_congr rfl (fun r _ => ?_))
  congr 1
  refine Fin.ext ?_
  show j.val * R + r.val = r.val + R * j.val
  rw [Nat.mul_comm, Nat.add_comm]

/-- The one index of a one-word array. -/
theorem res_idx_word (j : S1x1.Idx) : j = ix2 (0 : Fin 1) (0 : Fin 1) := by
  funext a
  match a with
  | ⟨0, _⟩ => exact Fin.ext (by have : (j 0).val < 1 := (j 0).isLt; show (j 0).val = 0; omega)
  | ⟨1, _⟩ => exact Fin.ext (by have : (j 1).val < 1 := (j 1).isLt; show (j 1).val = 0; omega)

theorem res_eq
    (htot : ∀ (k : Fin 3) (n : Fin NV), V6 m (outs m) c main_v44 (ix2 k n) = ktot (vtxA m c) (idxA m c hr) n k)
    (hcnt : ∀ n : Fin NV, V6 m (outs m) c main_v45 (ix2 (0 : Fin 2) n) = kcnt (idxA m c hr) n)
    (hel : ∀ n : Fin NV, V6 m (outs m) c main_v45 (ix2 (1 : Fin 2) n) = kel (vtxA m c) (idxA m c hr) n)
    (hvT : ∀ (k : Fin 3) (n : Fin NV), V6 m (outs m) c main_v6 (ix2 k n) = vtxA m c n k)
    (hlast : (dat1 (E1 m) c).after 3 t1_7 = finC (E1 m) c) :
    V8 m (outs m) c main_v47 = fun _ => kloss (vtxA m c) (idxA m c hr) := by
  rw [res_v47_eq, res_final m c hlast]
  funext i
  show (finC (E1 m) c : Vec Ideal S1x1 .f32) (Shape.reshapeEquiv shapeCasts_S1x1_S_ i) = _
  rw [res_idx_word (Shape.reshapeEquiv shapeCasts_S1x1_S_ i), finC_apply]
  unfold kloss cInvN
  refine congrArg (· * Ideal.ofBits .f32 0x36800000#32) ?_
  rw [← res_sum_points_lanes (P := cfg1.N) (R := 32768) (T := NV) (by rw [show cfg1.N = 8 from N_1])
    (kerr (vtxA m c) (idxA m c hr))]
  refine Finset.sum_congr rfl fun t _ => ?_
  unfold part1
  exact Finset.sum_congr rfl fun l _ => res_err_eq m c hr htot hcnt hel hvT t l

end Cert.KernelIdeal.Hand

end
-- ==== Proof.Algebra.lean ====
/-
  The two organisations of the totals give the same mean error, when every vertex coordinate is a real number
  and every vertex is a corner of at least one face.

  The road. The four float words are the reals 1, 2, 2^18 and 2^-18. A total over faces is additive in the
  value totalled, so the totals of pair sums regroup into the totals of single contributions: the neighbour
  totals agree, the edge totals agree, and the three counts are one count (2 = 1 + 1). With real coordinates
  every total is a real number, the edge total is nonnegative and the count is positive. For reals v, T, a
  positive c and a nonnegative E, (v c - T) / E = (v - T / c) / (E / c): for E > 0 by arithmetic in the field,
  for E = 0 because both quotients are the infinity of the sign of v c - T, which is the sign of v - T / c.
  Last, a product with 2^-18 is a quotient by 2^18.
-/
import proofs.«429528_j48808008352295_3_alg».proof.Proof.Spec

noncomputable section

open scoped BigOperators

namespace Cert.Spec

open Idealize.ShloMosaic

/-! ## The four constants -/

theorem cOne_eq : cOne = 1 := by
  simp [cOne, Ideal.ofBits, Ideal.ieee, -EReal.coe_mul]; norm_num

theorem cTwo_eq : cTwo = ((2 : ℝ) : EReal) := by
  simp [cTwo, Ideal.ofBits, Ideal.ieee, -EReal.coe_mul]; norm_num

theorem cN_eq : cN = ((262144 : ℝ) : EReal) := by
  simp [cN, Ideal.ofBits, Ideal.ieee, -EReal.coe_mul]; norm_num

theorem cInvN_eq : cInvN = ((1 / 262144 : ℝ) : EReal) := by
  simp [cInvN, Ideal.ofBits, Ideal.ieee, -EReal.coe_mul]; norm_num

theorem cTwo_eq_add : cTwo = cOne + cOne := by
  rw [cTwo_eq, cOne_eq, ← EReal.coe_one, ← EReal.coe_add]
  congr 1
  norm_num

/-! ## Regrouping the totals -/

variable (vtx : Fin NV → Fin 3 → EReal) (idx : Fin NF → Fin 3 → Fin NV)

/-- A total over faces is additive in the value totalled. -/
theorem ssum_add (s : Fin 3) (a b : Fin NF → EReal) (n : Fin NV) :
    ssum idx s (fun f => a f + b f) n = ssum idx s a n + ssum idx s b n := by
  unfold ssum
  rw [← Finset.sum_add_distrib]
  refine Finset.sum_congr rfl fun f _ => ?_
  by_cases h : idx f s = n
  · simp only [if_pos h]
  · simp only [if_neg h, add_zero]

theorem regroup_pairs (a b c d e f : EReal) : (a + b) + (c + d) + (e + f) = a + b + c + d + e + f := by
  ac_rfl

theorem regroup_edges (a b c d e f : EReal) : (a + b) + (c + d) + (e + f) = a + c + b + e + d + f := by
  ac_rfl

theorem regroup_counts (a b c : EReal) : a + b + a + c + b + c = a + a + b + b + c + c := by
  ac_rfl

theorem ktot_eq_rtot (n : Fin NV) (k : Fin 3) : ktot vtx idx n k = rtot vtx idx n k := by
  unfold ktot rtot
  rw [ssum_add, ssum_add, ssum_add]
  exact regroup_pairs _ _ _ _ _ _

theorem kel_eq_rel (n : Fin NV) : kel vtx idx n = rel vtx idx n := by
  unfold kel rel
  rw [ssum_add, ssum_add, ssum_add]
  exact regroup_edges _ _ _ _ _ _

theorem relcnt_eq_rcnt (n : Fin NV) : relcnt idx n = rcnt idx n := by
  unfold relcnt rcnt
  exact regroup_counts _ _ _

theorem kcnt_eq_rcnt (n : Fin NV) : kcnt idx n = rcnt idx n := by
  unfold kcnt rcnt
  rw [cTwo_eq_add, ssum_add, ssum_add, ssum_add]
  exact regroup_pairs _ _ _ _ _ _

/-! ## Every total is a real number -/

/-- An extended real that is a nonnegative real number. -/
def IsNN (x : EReal) : Prop := ∃ r : ℝ, 0 ≤ r ∧ x = (r : EReal)

/-- An extended real that is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsNN.add {x y : EReal} (hx : IsNN x) (hy : IsNN y) : IsNN (x + y) := by
  obtain ⟨a, ha, rfl⟩ := hx
  obtain ⟨b, hb, rfl⟩ := hy
  exact ⟨a + b, add_nonneg ha hb, (EReal.coe_add a b).symm⟩

theorem isR_zero : IsR 0 := ⟨0, EReal.coe_zero.symm⟩

theorem isNN_zero : IsNN 0 := ⟨0, le_refl 0, EReal.coe_zero.symm⟩

theorem isR_sum {α : Type} (s : Finset α) (g : α → EReal) (h : ∀ i, IsR (g i)) : IsR (∑ i ∈ s, g i) := by
  classical
  induction s using Finset.induction_on with
  | empty => rw [Finset.sum_empty]; exact isR_zero
  | insert a s ha ih => rw [Finset.sum_insert ha]; exact (h a).add ih

theorem isNN_sum {α : Type} (s : Finset α) (g : α → EReal) (h : ∀ i, IsNN (g i)) : IsNN (∑ i ∈ s, g i) := by
  classical
  induction s using Finset.induction_on with
  | empty => rw [Finset.sum_empty]; exact isNN_zero
  | insert a s ha ih => rw [Finset.sum_insert ha]; exact (h a).add ih

theorem isR_ssum (s : Fin 3) (val : Fin NF → EReal) (n : Fin NV) (h : ∀ f, IsR (val f)) :
    IsR (ssum idx s val n) := by
  unfold ssum
  refine isR_sum _ _ fun f => ?_
  by_cases hf : idx f s = n
  · rw [if_pos hf]; exact h f
  · rw [if_neg hf]; exact isR_zero

theorem isNN_ssum (s : Fin 3) (val : Fin NF → EReal) (n : Fin NV) (h : ∀ f, IsNN (val f)) :
    IsNN (ssum idx s val n) := by
  unfold ssum
  refine isNN_sum _ _ fun f => ?_
  by_cases hf : idx f s = n
  · rw [if_pos hf]; exact h f
  · rw [if_neg hf]; exact isNN_zero

/-- The square root of a sum of three squares of real differences is a nonnegative real. -/
theorem isNN_sqrt_sq (p q : Fin 3 → EReal) (hp : ∀ k, IsR (p k)) (hq : ∀ k, IsR (q k)) :
    IsNN (Ideal.sqrt (∑ k : Fin 3, (p k - q k) * (p k - q k))) := by
  choose a ha using hp
  choose b hb using hq
  have h : (∑ k : Fin 3, (p k - q k) * (p k - q k))
      = ((∑ k : Fin 3, (a k - b k) * (a k - b k) : ℝ) : EReal) := by
    rw [Fin.sum_univ_three, Fin.sum_univ_three]
    simp only [ha, hb, ← EReal.coe_sub, ← EReal.coe_mul, ← EReal.coe_add]
  have h0 : (0 : ℝ) ≤ ∑ k : Fin 3, (a k - b k) * (a k - b k) :=
    Finset.sum_nonneg fun k _ => mul_self_nonneg _
  rw [h, Ideal.sqrt_coe, if_neg (not_lt.mpr h0)]
  exact ⟨_, Real.sqrt_nonneg _, rfl⟩

section Real

variable (hfin : ∀ n k, ∃ r : ℝ, vtx n k = (r : EReal))
include hfin

theorem isNN_elen (a b : Fin 3) (f : Fin NF) : IsNN (elen vtx idx a b f) := by
  unfold elen
  exact isNN_sqrt_sq _ _ (fun k => hfin _ k) (fun k => hfin _ k)

theorem isR_rtot (n : Fin NV) (k : Fin 3) : IsR (rtot vtx idx n k) := by
  have hs : ∀ s t : Fin 3, IsR (ssum idx s (fun f => vert vtx idx t f k) n) :=
    fun s t => isR_ssum idx s _ n fun f => hfin (idx f t) k
  unfold rtot
  exact (((((hs 0 1).add (hs 0 2)).add (hs 1 0)).add (hs 1 2)).add (hs 2 0)).add (hs 2 1)

theorem isNN_rel (n : Fin NV) : IsNN (rel vtx idx n) := by
  have he : ∀ s a b : Fin 3, IsNN (ssum idx s (elen vtx idx a b) n) :=
    fun s a b => isNN_ssum idx s _ n fun f => isNN_elen vtx idx hfin a b f
  unfold rel
  exact (((((he 0 0 1).add (he 1 0 1)).add (he 0 0 2)).add (he 2 0 2)).add (he 1 1 2)).add (he 2 1 2)

end Real

theorem isNN_rcnt (n : Fin NV) : IsNN (rcnt idx n) := by
  have h1 : ∀ s : Fin 3, IsNN (ssum idx s (fun _ => cOne) n) :=
    fun s => isNN_ssum idx s _ n fun _ => ⟨1, zero_le_one, by rw [cOne_eq, EReal.coe_one]⟩
  unfold rcnt
  exact (((((h1 0).add (h1 0)).add (h1 1)).add (h1 1)).add (h1 2)).add (h1 2)

/-! ## One vertex -/

/-- With a positive count `c`, a nonnegative edge total `E` and real `v`, `T`, the two forms of the error
    agree: in the field when `E > 0`; at `E = 0` both are the infinity of one sign. -/
theorem vertex_core (v c T E : ℝ) (hc : 0 < c) (hE : 0 ≤ E) :
    Ideal.div ((v : EReal) * (c : EReal) - (T : EReal)) (E : EReal) * 1
      = Ideal.div (((v : EReal) - Ideal.div (T : EReal) (c : EReal)) * 1)
          (Ideal.div (E : EReal) (c : EReal)) := by
  have hc0 : c ≠ 0 := ne_of_gt hc
  rw [Ideal.div_coe hc0, Ideal.div_coe hc0, mul_one, mul_one]
  rw [← EReal.coe_mul, ← EReal.coe_mul, ← EReal.coe_sub, ← EReal.coe_mul, ← EReal.coe_sub]
  rcases eq_or_lt_of_le hE with hE0 | hEpos
  · subst hE0
    have hsign : (0 : ℝ) < v * c - T ↔ 0 < v - T * (1 / c) := by
      constructor
      · intro h
        have : v - T * (1 / c) = (v * c - T) / c := by field_simp
        rw [this]; exact div_pos h hc
      · intro h
        have : v * c - T = (v - T * (1 / c)) * c := by field_simp
        rw [this]; exact mul_pos h hc
    simp only [Ideal.div, zero_mul, EReal.coe_zero, if_true, EReal.coe_pos, hsign]
  · have hE0 : E ≠ 0 := ne_of_gt hEpos
    have hEc : E * (1 / c) ≠ 0 := by positivity
    rw [Ideal.div_coe hE0, Ideal.div_coe hEc, ← EReal.coe_mul, ← EReal.coe_mul]
    congr 1
    field_simp

theorem kscaled_eq_rlossv (hfin : ∀ n k, ∃ r : ℝ, vtx n k = (r : EReal)) (hcnt : ∀ n, 0 < rcnt idx n)
    (n : Fin NV) (k : Fin 3) : kscaled vtx idx n k = rlossv vtx idx n k := by
  unfold kscaled rlossv rlap ravg
  rw [kcnt_eq_rcnt, ktot_eq_rtot, kel_eq_rel, relcnt_eq_rcnt, cOne_eq]
  obtain ⟨v, hv⟩ := hfin n k
  obtain ⟨c, _, hc⟩ := isNN_rcnt idx n
  obtain ⟨T, hT⟩ := isR_rtot vtx idx hfin n k
  obtain ⟨E, hE0, hE⟩ := isNN_rel vtx idx hfin n
  have hcpos : 0 < c := by
    have h := hcnt n
    rw [hc] at h
    exact EReal.coe_pos.mp h
  rw [hv, hc, hT, hE]
  exact vertex_core v c T E hcpos hE0

theorem kerr_eq_rerr (hfin : ∀ n k, ∃ r : ℝ, vtx n k = (r : EReal)) (hcnt : ∀ n, 0 < rcnt idx n)
    (n : Fin NV) : kerr vtx idx n = rerr vtx idx n := by
  unfold kerr rerr
  exact congrArg Ideal.sqrt
    (Finset.sum_congr rfl fun k _ => by rw [kscaled_eq_rlossv vtx idx hfin hcnt n k])

/-! ## The mean -/

theorem kloss_eq_rloss (vtx : Fin NV → Fin 3 → EReal) (idx : Fin NF → Fin 3 → Fin NV)
    (hfin : ∀ n k, ∃ r : ℝ, vtx n k = (r : EReal)) (hcnt : ∀ n, 0 < rcnt idx n) :
    kloss vtx idx = rloss vtx idx := by
  unfold kloss rloss
  rw [Finset.sum_congr rfl fun n _ => kerr_eq_rerr vtx idx hfin hcnt n]
  rw [cInvN_eq, cN_eq, Ideal.div_coe (by norm_num)]

end Cert.Spec

end
-- ==== Proof.RefValue.lean ====
/-
  What the reference program's run leaves in its result, read back as the specification's six-pass mean error.

  The run is read stage by stage, each stage at an index given by its coordinates: the three corner columns of the
  face array; the corner positions they fetch; the three edge lengths of a face; the four per-vertex totals
  (neighbour positions, their count, edge lengths, their count), each a sum over the six passes; then the
  neighbours' mean, the mean edge length, the scaled offset, its norm, and the mean of the norms.
-/
import proofs.«429528_j48808008352295_3_alg».proof.Proof.Spec
import proofs.«429528_j48808008352295_3_alg».proof.Proof.Gen.ReferenceIdeal.Run
import proofs.«429528_j48808008352295_3_alg».proof.Proof.Gen.ReferenceIdeal.Read
import proofs.«429528_j48808008352295_3_alg».proof.Proof.LibRead
import Idealize.ShloMosaic.Lib.ValueIdxRank1
import Idealize.ShloMosaic.Lib.StableHlo.Predicate

noncomputable section

open scoped BigOperators

namespace Cert.RefValue

open Idealize.ShloMosaic Idealize.ShloMosaic.ValueIdx Idealize.ShloMosaic.StableHlo.Predicate Cert.Spec
open Cert.ReferenceIdeal Cert.ReferenceIdeal.Read

/-- The vertex array's contents. -/
abbrev VArr := (⟨S262144x3, .f32⟩ : BufTy).Contents (Elt Ideal)
/-- The face array's contents. -/
abbrev IArr := (⟨S2097152x3, .i32⟩ : BufTy).Contents (Elt Ideal)

/-! ## The specification's readers at explicit coordinates -/

theorem vtxOf_apply (a : VArr) (n : Fin NV) (k : Fin 3) : vtxOf a n k = a (ix2 n k) :=
  congrArg a (funext fun d => match d with | ⟨0, _⟩ => rfl | ⟨1, _⟩ => rfl)

theorem idxOf_val (b : IArr) (h : InRange b) (f : Fin NF) (s : Fin 3) : (idxOf b h f s).val = (b (ix2 f s)).toNat :=
  congrArg (fun i => (b i).toNat) (funext fun d => match d with | ⟨0, _⟩ => rfl | ⟨1, _⟩ => rfl)

/-- The position fetched for corner `s` of face `f`: the vertex array at the row the face array names. -/
theorem vert_eq (x0 : VArr) (x1 : IArr) (hr : InRange x1) (s : Fin 3) (f : Fin NF) (k : Fin 3) :
    vert (vtxOf x0) (idxOf x1 hr) s f k = x0 (ix2 (⟨(x1 (ix2 f s)).toNat, hr _⟩ : Fin NV) k) := by
  show vtxOf x0 (idxOf x1 hr f s) k = _
  rw [vtxOf_apply]
  exact congrArg (fun n => x0 (ix2 n k)) (Fin.ext (idxOf_val x1 hr f s))

/-! ## The three corner columns -/

theorem col0 (x1 : IArr) (f : Fin NF) : val_main_v1 (F := Ideal) x1 (ix1 f) = x1 (ix2 f 0) := by
  rw [val_main_v1_apply, val_main_v0_apply]
  exact congrArg x1 (funext fun a => Fin.ext (by
    match a with
    | ⟨0, _⟩ => show f.val / 1 = f.val; omega
    | ⟨1, _⟩ => rfl))

theorem col1 (x1 : IArr) (f : Fin NF) : val_main_v3 (F := Ideal) x1 (ix1 f) = x1 (ix2 f 1) := by
  rw [val_main_v3_apply, val_main_v2_apply]
  exact congrArg x1 (funext fun a => Fin.ext (by
    match a with
    | ⟨0, _⟩ => show f.val / 1 = f.val; omega
    | ⟨1, _⟩ => rfl))

theorem col2 (x1 : IArr) (f : Fin NF) : val_main_v5 (F := Ideal) x1 (ix1 f) = x1 (ix2 f 2) := by
  rw [val_main_v5_apply, val_main_v4_apply]
  exact congrArg x1 (funext fun a => Fin.ext (by
    match a with
    | ⟨0, _⟩ => show f.val / 1 = f.val; omega
    | ⟨1, _⟩ => rfl))

/-- A word naming a vertex is not negative, so wrapping negative words around leaves it as it is. -/
theorem wrap_id (w v : BitVec 32) (hw : w.toNat < NV) :
    Scalar.select (IntOp.cmpi .slt w 0#32) v w = w := by
  have h : w.toNat < 2 ^ 31 := lt_trans hw (by norm_num)
  have hc : ¬ IntOp.cmpi .slt w 0#32 = 1#1 := fun h1 =>
    absurd ((slt_iff_toNat h (by decide)).mp h1) (Nat.not_lt_zero _)
  exact if_neg hc

theorem norm0 (x1 : IArr) (hr : InRange x1) (f : Fin NF) : val_main_v10 (F := Ideal) x1 (ix1 f) = x1 (ix2 f 0) := by
  rw [val_main_v10_apply, val_main_v7_apply, val_main_v6_apply, val_main_c_apply, col0]
  exact wrap_id _ _ (hr _)

theorem norm1 (x1 : IArr) (hr : InRange x1) (f : Fin NF) : val_main_v17 (F := Ideal) x1 (ix1 f) = x1 (ix2 f 1) := by
  rw [val_main_v17_apply, val_main_v14_apply, val_main_v13_apply, val_main_c_1_apply, col1]
  exact wrap_id _ _ (hr _)

theorem norm2 (x1 : IArr) (hr : InRange x1) (f : Fin NF) : val_main_v24 (F := Ideal) x1 (ix1 f) = x1 (ix2 f 2) := by
  rw [val_main_v24_apply, val_main_v21_apply, val_main_v20_apply, val_main_c_3_apply, col2]
  exact wrap_id _ _ (hr _)

/-- The start-index arrays of the three fetches, at face `f`. -/
theorem start0 (x1 : IArr) (hr : InRange x1) (f : Fin NF) :
    val_main_v11 (F := Ideal) x1 (ix2 f (0 : Fin 1)) = x1 (ix2 f 0) := by
  rw [val_main_v11_apply]
  exact (congrArg (val_main_v10 (F := Ideal) x1) (funext fun a => match a with | ⟨0, _⟩ => rfl)).trans (norm0 x1 hr f)

theorem start1 (x1 : IArr) (hr : InRange x1) (f : Fin NF) :
    val_main_v18 (F := Ideal) x1 (ix2 f (0 : Fin 1)) = x1 (ix2 f 1) := by
  rw [val_main_v18_apply]
  exact (congrArg (val_main_v17 (F := Ideal) x1) (funext fun a => match a with | ⟨0, _⟩ => rfl)).trans (norm1 x1 hr f)

theorem start2 (x1 : IArr) (hr : InRange x1) (f : Fin NF) :
    val_main_v25 (F := Ideal) x1 (ix2 f (0 : Fin 1)) = x1 (ix2 f 2) := by
  rw [val_main_v25_apply]
  exact (congrArg (val_main_v24 (F := Ideal) x1) (funext fun a => match a with | ⟨0, _⟩ => rfl)).trans (norm2 x1 hr f)

/-! ## The three fetched corner positions -/

/-- A fetch of table rows at a column of start indices whose word at face `f` is the in-range word `wd`. -/
theorem fetch_row (x0 : VArr) (y : (⟨S2097152x1, .i32⟩ : BufTy).Contents (Elt Ideal)) (f : Fin NF) (k : Fin 3)
    (wd : BitVec 32) (hy : y (ix2 f (0 : Fin 1)) = wd) (hw : wd.toNat < NV) :
    Host.gather gather_S262144x3_S2097152x1_S2097152x3_1_0_n_n_0_1_13 x0 y (ix2 f k)
      = x0 (ix2 (⟨wd.toNat, hw⟩ : Fin NV) k) := by
  subst hy
  exact LibRead.rowGather_apply_of_eq (N := 262144) (R := 2097152) (C := 3) (w := 32) (by norm_num)
    gather_S262144x3_S2097152x1_S2097152x3_1_0_n_n_0_1_13 rfl rfl rfl rfl rfl rfl rfl x0 y f k hw

theorem fetch0 (x0 : VArr) (x1 : IArr) (hr : InRange x1) (f : Fin NF) (k : Fin 3) :
    val_main_v12 (F := Ideal) x0 x1 (ix2 f k) = vert (vtxOf x0) (idxOf x1 hr) 0 f k := by
  rw [vert_eq]
  unfold val_main_v12
  exact fetch_row x0 _ f k _ (start0 x1 hr f) (hr _)

theorem fetch1 (x0 : VArr) (x1 : IArr) (hr : InRange x1) (f : Fin NF) (k : Fin 3) :
    val_main_v19 (F := Ideal) x0 x1 (ix2 f k) = vert (vtxOf x0) (idxOf x1 hr) 1 f k := by
  rw [vert_eq]
  unfold val_main_v19
  exact fetch_row x0 _ f k _ (start1 x1 hr f) (hr _)

theorem fetch2 (x0 : VArr) (x1 : IArr) (hr : InRange x1) (f : Fin NF) (k : Fin 3) :
    val_main_v26 (F := Ideal) x0 x1 (ix2 f k) = vert (vtxOf x0) (idxOf x1 hr) 2 f k := by
  rw [vert_eq]
  unfold val_main_v26
  exact fetch_row x0 _ f k _ (start2 x1 hr f) (hr _)

/-! ## The three edge lengths of a face -/

theorem edge01 (x0 : VArr) (x1 : IArr) (hr : InRange x1) (f : Fin NF) :
    val_main_v42 (F := Ideal) x0 x1 (ix1 f) = elen (vtxOf x0) (idxOf x1 hr) 0 1 f := by
  rw [val_main_v42_apply, val_main_v41_apply, val_main_cst_7_apply, Ideal.hostUnary_sqrt_def, Ideal.ofBits_def,
    Ideal.ofBits_zero_f32, zero_add]
  unfold elen
  refine congrArg Ideal.sqrt (Finset.sum_congr rfl fun k _ => ?_)
  have e : idx_main_v41 (ix1 f) k = ix2 f k := funext fun a => match a with | ⟨0, _⟩ => rfl | ⟨1, _⟩ => rfl
  rw [e, val_main_v40_apply, val_main_v39_apply, fetch1 x0 x1 hr, fetch0 x0 x1 hr]
  rfl

theorem edge02 (x0 : VArr) (x1 : IArr) (hr : InRange x1) (f : Fin NF) :
    val_main_v46 (F := Ideal) x0 x1 (ix1 f) = elen (vtxOf x0) (idxOf x1 hr) 0 2 f := by
  rw [val_main_v46_apply, val_main_v45_apply, val_main_cst_8_apply, Ideal.hostUnary_sqrt_def, Ideal.ofBits_def,
    Ideal.ofBits_zero_f32, zero_add]
  unfold elen
  refine congrArg Ideal.sqrt (Finset.sum_congr rfl fun k _ => ?_)
  have e : idx_main_v45 (ix1 f) k = ix2 f k := funext fun a => match a with | ⟨0, _⟩ => rfl | ⟨1, _⟩ => rfl
  rw [e, val_main_v44_apply, val_main_v43_apply, fetch2 x0 x1 hr, fetch0 x0 x1 hr]
  rfl

theorem edge12 (x0 : VArr) (x1 : IArr) (hr : InRange x1) (f : Fin NF) :
    val_main_v50 (F := Ideal) x0 x1 (ix1 f) = elen (vtxOf x0) (idxOf x1 hr) 1 2 f := by
  rw [val_main_v50_apply, val_main_v49_apply, val_main_cst_9_apply, Ideal.hostUnary_sqrt_def, Ideal.ofBits_def,
    Ideal.ofBits_zero_f32, zero_add]
  unfold elen
  refine congrArg Ideal.sqrt (Finset.sum_congr rfl fun k _ => ?_)
  have e : idx_main_v49 (ix1 f) k = ix2 f k := funext fun a => match a with | ⟨0, _⟩ => rfl | ⟨1, _⟩ => rfl
  rw [e, val_main_v48_apply, val_main_v47_apply, fetch2 x0 x1 hr, fetch1 x0 x1 hr]
  rfl

/-! ## The four per-vertex totals -/

/-- The total over the faces whose corner `s` is vertex `n`, with the corner words compared as numbers. -/
theorem ssum_eq (x1 : IArr) (hr : InRange x1) (s : Fin 3) (val : Fin NF → EReal) (n : Fin NV) :
    ssum (idxOf x1 hr) s val n = ∑ f : Fin NF, if (x1 (ix2 f s)).toNat = n.val then val f else 0 := by
  unfold ssum
  refine Finset.sum_congr rfl fun f _ => ?_
  have h : idxOf x1 hr f s = n ↔ (x1 (ix2 f s)).toNat = n.val := by rw [Fin.ext_iff, idxOf_val]
  exact if_congr h rfl rfl

/-- Entry `j` of a list of six. -/
theorem sel6_0 {β : Type} (p0 p1 p2 p3 p4 p5 : β) : (![p0, p1, p2, p3, p4, p5] : Fin 6 → β) 0 = p0 := id rfl
theorem sel6_1 {β : Type} (p0 p1 p2 p3 p4 p5 : β) : (![p0, p1, p2, p3, p4, p5] : Fin 6 → β) 1 = p1 := id rfl
theorem sel6_2 {β : Type} (p0 p1 p2 p3 p4 p5 : β) : (![p0, p1, p2, p3, p4, p5] : Fin 6 → β) 2 = p2 := id rfl
theorem sel6_3 {β : Type} (p0 p1 p2 p3 p4 p5 : β) : (![p0, p1, p2, p3, p4, p5] : Fin 6 → β) 3 = p3 := id rfl
theorem sel6_4 {β : Type} (p0 p1 p2 p3 p4 p5 : β) : (![p0, p1, p2, p3, p4, p5] : Fin 6 → β) 4 = p4 := id rfl
theorem sel6_5 {β : Type} (p0 p1 p2 p3 p4 p5 : β) : (![p0, p1, p2, p3, p4, p5] : Fin 6 → β) 5 = p5 := id rfl

/-- The six-pass list of corner words for the position totals, at place `r` of pass `j`. -/
theorem idxA_at (x1 : IArr) (j : Fin 6) (r : Fin NF) (hq : j.val * 2097152 + r.val < 12582912) :
    val_main_v27 (F := Ideal) x1 (ix1 ⟨j.val * 2097152 + r.val, hq⟩)
      = (![val_main_v1 (F := Ideal) x1, val_main_v1 (F := Ideal) x1, val_main_v3 (F := Ideal) x1, val_main_v3 (F := Ideal) x1, val_main_v5 (F := Ideal) x1, val_main_v5 (F := Ideal) x1] j) (ix1 r) := by
  unfold val_main_v27
  exact LibRead.concat6_vec_apply _ _ _ _ _ _ _ j r hq

/-- The six-pass list of neighbour positions, at place `r` of pass `j`. -/
theorem datA_at (x0 : VArr) (x1 : IArr) (j : Fin 6) (r : Fin NF) (k : Fin 3) (hq : j.val * 2097152 + r.val < 12582912) :
    val_main_v28 (F := Ideal) x0 x1 (ix2 ⟨j.val * 2097152 + r.val, hq⟩ k)
      = (![val_main_v19 (F := Ideal) x0 x1, val_main_v26 (F := Ideal) x0 x1, val_main_v12 (F := Ideal) x0 x1, val_main_v26 (F := Ideal) x0 x1, val_main_v12 (F := Ideal) x0 x1, val_main_v19 (F := Ideal) x0 x1] j) (ix2 r k) := by
  unfold val_main_v28
  exact LibRead.concat6_rows_apply _ _ _ _ _ _ _ j r k hq

/-- The six-pass list of corner words for the edge-length totals, at place `r` of pass `j`. -/
theorem idxB_at (x1 : IArr) (j : Fin 6) (r : Fin NF) (hq : j.val * 2097152 + r.val < 12582912) :
    val_main_v51 (F := Ideal) x1 (ix1 ⟨j.val * 2097152 + r.val, hq⟩)
      = (![val_main_v1 (F := Ideal) x1, val_main_v3 (F := Ideal) x1, val_main_v1 (F := Ideal) x1, val_main_v5 (F := Ideal) x1, val_main_v3 (F := Ideal) x1, val_main_v5 (F := Ideal) x1] j) (ix1 r) := by
  unfold val_main_v51
  exact LibRead.concat6_vec_apply _ _ _ _ _ _ _ j r hq

/-- The six-pass list of edge lengths, at place `r` of pass `j`. -/
theorem datB_at (x0 : VArr) (x1 : IArr) (j : Fin 6) (r : Fin NF) (hq : j.val * 2097152 + r.val < 12582912) :
    val_main_v52 (F := Ideal) x0 x1 (ix1 ⟨j.val * 2097152 + r.val, hq⟩)
      = (![val_main_v42 (F := Ideal) x0 x1, val_main_v42 (F := Ideal) x0 x1, val_main_v46 (F := Ideal) x0 x1, val_main_v46 (F := Ideal) x0 x1, val_main_v50 (F := Ideal) x0 x1, val_main_v50 (F := Ideal) x0 x1] j) (ix1 r) := by
  unfold val_main_v52
  exact LibRead.concat6_vec_apply _ _ _ _ _ _ _ j r hq

/-- The column of scatter indices of each of the four totals is its six-pass list. -/
theorem sidx30 (x1 : IArr) (q : Fin 12582912) : val_main_v30 (F := Ideal) x1 (ix2 q (0 : Fin 1)) = val_main_v27 (F := Ideal) x1 (ix1 q) := by
  rw [val_main_v30_apply]
  exact congrArg (val_main_v27 (F := Ideal) x1) (funext fun a => match a with | ⟨0, _⟩ => rfl)

theorem sidx34 (x1 : IArr) (q : Fin 12582912) : val_main_v34 (F := Ideal) x1 (ix2 q (0 : Fin 1)) = val_main_v27 (F := Ideal) x1 (ix1 q) := by
  rw [val_main_v34_apply]
  exact congrArg (val_main_v27 (F := Ideal) x1) (funext fun a => match a with | ⟨0, _⟩ => rfl)

theorem sidx54 (x1 : IArr) (q : Fin 12582912) : val_main_v54 (F := Ideal) x1 (ix2 q (0 : Fin 1)) = val_main_v51 (F := Ideal) x1 (ix1 q) := by
  rw [val_main_v54_apply]
  exact congrArg (val_main_v51 (F := Ideal) x1) (funext fun a => match a with | ⟨0, _⟩ => rfl)

theorem sidx58 (x1 : IArr) (q : Fin 12582912) : val_main_v58 (F := Ideal) x1 (ix2 q (0 : Fin 1)) = val_main_v51 (F := Ideal) x1 (ix1 q) := by
  rw [val_main_v58_apply]
  exact congrArg (val_main_v51 (F := Ideal) x1) (funext fun a => match a with | ⟨0, _⟩ => rfl)

/-- The neighbour-position total: nothing, plus the six passes. -/
theorem tot_eq (x0 : VArr) (x1 : IArr) (hr : InRange x1) (n : Fin NV) (k : Fin 3) :
    val_main_v31 (F := Ideal) x0 x1 (ix2 n k) = rtot (vtxOf x0) (idxOf x1 hr) n k := by
  unfold val_main_v31
  refine (LibRead.rowScatterAdd_apply_of_eq (N := 262144) (R := 12582912) (C := 3) (w := 32) (φ := .f32) (by norm_num)
    scatter_S262144x3_S12582912x1_S12582912x3_1_0_0_1 rfl rfl rfl rfl _ _ _ n k).trans ?_
  rw [val_main_v29_apply, val_main_cst_apply, Ideal.ofBits_def, Ideal.ofBits_zero_f32, zero_add,
    LibRead.sum_fin_six_mul (R := 2097152) (T := 12582912) (by norm_num), Fin.sum_univ_six]
  simp only [sidx30, idxA_at, datA_at, sel6_0, sel6_1, sel6_2, sel6_3, sel6_4, sel6_5, col0, col1, col2, fetch0 x0 x1 hr, fetch1 x0 x1 hr,
    fetch2 x0 x1 hr]
  unfold rtot
  simp only [ssum_eq]

/-- The count of neighbour positions: nothing, plus the six passes of ones. -/
theorem cnt_eq (x1 : IArr) (hr : InRange x1) (n : Fin NV) :
    val_main_v35 (F := Ideal) x1 (ix1 n) = rcnt (idxOf x1 hr) n := by
  unfold val_main_v35
  refine (LibRead.vecScatterAdd_apply_of_eq (N := 262144) (R := 12582912) (w := 32) (φ := .f32) (by norm_num)
    scatter_S262144_S12582912x1_S12582912_n_0_0_1 rfl rfl rfl rfl _ _ _ n).trans ?_
  rw [val_main_v33_apply, val_main_cst_6_apply, Ideal.ofBits_def, Ideal.ofBits_zero_f32, zero_add,
    LibRead.sum_fin_six_mul (R := 2097152) (T := 12582912) (by norm_num), Fin.sum_univ_six]
  simp only [sidx34, idxA_at, sel6_0, sel6_1, sel6_2, sel6_3, sel6_4, sel6_5, col0, col1, col2, val_main_v32_apply, val_main_cst_5_apply,
    Ideal.ofBits_def]
  unfold rcnt
  simp only [ssum_eq, cOne]

/-- The edge-length total: nothing, plus the six passes. -/
theorem el_eq (x0 : VArr) (x1 : IArr) (hr : InRange x1) (n : Fin NV) :
    val_main_v55 (F := Ideal) x0 x1 (ix1 n) = rel (vtxOf x0) (idxOf x1 hr) n := by
  unfold val_main_v55
  refine (LibRead.vecScatterAdd_apply_of_eq (N := 262144) (R := 12582912) (w := 32) (φ := .f32) (by norm_num)
    scatter_S262144_S12582912x1_S12582912_n_0_0_1 rfl rfl rfl rfl _ _ _ n).trans ?_
  rw [val_main_v53_apply, val_main_cst_10_apply, Ideal.ofBits_def, Ideal.ofBits_zero_f32, zero_add,
    LibRead.sum_fin_six_mul (R := 2097152) (T := 12582912) (by norm_num), Fin.sum_univ_six]
  simp only [sidx54, idxB_at, datB_at, sel6_0, sel6_1, sel6_2, sel6_3, sel6_4, sel6_5, col0, col1, col2, edge01 x0 x1 hr, edge02 x0 x1 hr,
    edge12 x0 x1 hr]
  unfold rel
  simp only [ssum_eq]

/-- The count of edge lengths: nothing, plus the six passes of ones. -/
theorem elcnt_eq (x1 : IArr) (hr : InRange x1) (n : Fin NV) :
    val_main_v59 (F := Ideal) x1 (ix1 n) = relcnt (idxOf x1 hr) n := by
  unfold val_main_v59
  refine (LibRead.vecScatterAdd_apply_of_eq (N := 262144) (R := 12582912) (w := 32) (φ := .f32) (by norm_num)
    scatter_S262144_S12582912x1_S12582912_n_0_0_1 rfl rfl rfl rfl _ _ _ n).trans ?_
  rw [val_main_v57_apply, val_main_cst_12_apply, Ideal.ofBits_def, Ideal.ofBits_zero_f32, zero_add,
    LibRead.sum_fin_six_mul (R := 2097152) (T := 12582912) (by norm_num), Fin.sum_univ_six]
  simp only [sidx58, idxB_at, sel6_0, sel6_1, sel6_2, sel6_3, sel6_4, sel6_5, col0, col1, col2, val_main_v56_apply, val_main_cst_11_apply,
    Ideal.ofBits_def]
  unfold relcnt
  simp only [ssum_eq, cOne]

/-! ## From the totals to the mean error -/

/-- The neighbours' mean position. -/
theorem lap_eq (x0 : VArr) (x1 : IArr) (hr : InRange x1) (n : Fin NV) (k : Fin 3) :
    val_main_v38 (F := Ideal) x0 x1 (ix2 n k) = rlap (vtxOf x0) (idxOf x1 hr) n k := by
  rw [val_main_v38_apply, val_main_v37_apply, val_main_v36_apply, Ideal.hostDivf_def, tot_eq x0 x1 hr]
  have e : idx_main_v36 (idx_main_v37 (ix2 n k)) = ix1 n := funext fun a => match a with | ⟨0, _⟩ => rfl
  rw [e, cnt_eq x1 hr]
  rfl

/-- The mean edge length at a vertex. -/
theorem avg_eq (x0 : VArr) (x1 : IArr) (hr : InRange x1) (n : Fin NV) :
    val_main_v60 (F := Ideal) x0 x1 (ix1 n) = ravg (vtxOf x0) (idxOf x1 hr) n := by
  rw [val_main_v60_apply, Ideal.hostDivf_def, el_eq x0 x1 hr, elcnt_eq x1 hr]
  rfl

/-- The offset from the neighbours' mean, in units of the mean edge length. -/
theorem lossv_eq (x0 : VArr) (x1 : IArr) (hr : InRange x1) (n : Fin NV) (k : Fin 3) :
    val_main_v66 (F := Ideal) x0 x1 (ix2 n k) = rlossv (vtxOf x0) (idxOf x1 hr) n k := by
  rw [val_main_v66_apply, val_main_v63_apply, val_main_v61_apply, val_main_v62_apply, val_main_cst_13_apply,
    val_main_v65_apply, val_main_v64_apply, lap_eq x0 x1 hr]
  have e : idx_main_v64 (idx_main_v65 (ix2 n k)) = ix1 n := funext fun a => match a with | ⟨0, _⟩ => rfl
  rw [e, avg_eq x0 x1 hr, ← vtxOf_apply x0 n k]
  rfl

/-- The norm of the scaled offset. -/
theorem err_eq (x0 : VArr) (x1 : IArr) (hr : InRange x1) (n : Fin NV) :
    val_main_v69 (F := Ideal) x0 x1 (ix1 n) = rerr (vtxOf x0) (idxOf x1 hr) n := by
  rw [val_main_v69_apply, val_main_v68_apply, val_main_cst_14_apply, Ideal.hostUnary_sqrt_def, Ideal.ofBits_def,
    Ideal.ofBits_zero_f32, zero_add]
  unfold rerr
  refine congrArg Ideal.sqrt (Finset.sum_congr rfl fun k _ => ?_)
  have e : idx_main_v68 (ix1 n) k = ix2 n k := funext fun a => match a with | ⟨0, _⟩ => rfl | ⟨1, _⟩ => rfl
  rw [e, val_main_v67_apply, lossv_eq x0 x1 hr]
  rfl

/-- The reference's result, as a function of the two argument arrays (face corners in range), is the six-pass mean error. -/
theorem ref_value (x0 : (⟨Cert.ReferenceIdeal.S262144x3, .f32⟩ : BufTy).Contents (Elt Ideal))
    (x1 : (⟨Cert.ReferenceIdeal.S2097152x3, .i32⟩ : BufTy).Contents (Elt Ideal)) (hr : InRange x1) :
    Cert.ReferenceIdeal.Read.val_main_v71 (F := Ideal) x0 x1 = fun _ => rloss (vtxOf x0) (idxOf x1 hr) := by
  funext i
  rw [val_main_v71_apply, val_main_v70_apply, val_main_cst_15_apply, val_main_cst_16_apply, Ideal.hostDivf_def,
    Ideal.ofBits_def, Ideal.ofBits_zero_f32, zero_add, Ideal.ofBits_def]
  unfold rloss cN
  refine congrArg (fun s => Ideal.div s (Ideal.ofBits .f32 0x48800000#32)) ?_
  rw [← Equiv.sum_comp (idxEquiv1 (n := 262144)).symm]
  exact Finset.sum_congr rfl fun n _ => err_eq x0 x1 hr n

end Cert.RefValue

end
-- ==== Proof.PreDecode.lean ====
/-
  What the stated precondition says of the two argument arrays: every vertex coordinate is a real number, every
  face corner names a vertex, and every vertex is a corner of some face.

  The precondition is the conjunction of three reductions by "and": over the coordinates, |x| < +∞; over the corner
  words, 0 ≤ w and w < 262144 as signed words; over the vertices, count > 0, where the count vector adds a one to a
  zero vector at each word of the list made of column 0 twice, column 1 twice and column 2 twice of the face array.
  The count at vertex n is therefore 0 plus the six totals that make up the specification's contribution count.
-/
import proofs.«429528_j48808008352295_3_alg».proof.Proof.Spec
import proofs.«429528_j48808008352295_3_alg».proof.Proof.LibRead
import proofs.«429528_j48808008352295_3_alg».proof.Pre_finite_inputs
import proofs.«429528_j48808008352295_3_alg».proof.Proof.Gen.Pre_finite_inputs
import Idealize.ShloMosaic.Lib.ReduceAll
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Idealize.ShloMosaic.PureOps.Ideal.Laws

noncomputable section

open scoped BigOperators

namespace Cert.PreDecode

open Idealize.ShloMosaic Idealize.ShloMosaic.ValueIdx Cert.Spec Cert.Pre_finite_inputs

/-- The scalar shape has one index. -/
instance : Subsingleton S_.Idx := ⟨fun a b => funext fun d => d.elim0⟩

section
variable [Facts]
open Facts

/-- The six-fold list of corner words the precondition counts over: column 0 twice, column 1 twice, column 2 twice. -/
def corners (b : IVec S2097152x3 32) : IVec S12582912 32 :=
  concatenate S12582912 0
    [⟨S2097152, shapeCast S2097152 (extractStridedSlice S2097152x1 ![0, 0] b slices_S2097152x3_S2097152x1_0_0) shapeCasts_S2097152x1_S2097152⟩,
      ⟨S2097152, shapeCast S2097152 (extractStridedSlice S2097152x1 ![0, 0] b slices_S2097152x3_S2097152x1_0_0) shapeCasts_S2097152x1_S2097152⟩,
      ⟨S2097152, shapeCast S2097152 (extractStridedSlice S2097152x1 ![0, 1] b slices_S2097152x3_S2097152x1_0_1) shapeCasts_S2097152x1_S2097152⟩,
      ⟨S2097152, shapeCast S2097152 (extractStridedSlice S2097152x1 ![0, 1] b slices_S2097152x3_S2097152x1_0_1) shapeCasts_S2097152x1_S2097152⟩,
      ⟨S2097152, shapeCast S2097152 (extractStridedSlice S2097152x1 ![0, 2] b slices_S2097152x3_S2097152x1_0_2) shapeCasts_S2097152x1_S2097152⟩,
      ⟨S2097152, shapeCast S2097152 (extractStridedSlice S2097152x1 ![0, 2] b slices_S2097152x3_S2097152x1_0_2) shapeCasts_S2097152x1_S2097152⟩]
    concatenates_S2097152_S2097152_S2097152_S2097152_S2097152_S2097152_S12582912_d0

/-- The precondition's count vector: a one added to a zero vector at every listed corner word. -/
def counts (b : IVec S2097152x3 32) : FVec Ideal S262144 .f32 :=
  Host.scatterAdd (F := Ideal) scatter_S262144_S12582912x1_S12582912_n_0_0_1
    (broadcastInDim S262144 ![] bcast_S_S262144 (constant (F := Ideal) S_ .f32 0x00000000#32))
    (broadcastInDim S12582912x1 ![0] bcast_S12582912_S12582912x1_0 (corners b))
    (broadcastInDim S12582912 ![] bcast_S_S12582912 (constant (F := Ideal) S_ .f32 0x3F800000#32))

/-- "Exceeds the zero vector", read at an element of any vector of vertex values. -/
theorem ogt_zero_apply (c : FVec Ideal S262144 .f32) (i : S262144.Idx) :
    cmpf (F := Ideal) .ogt c (broadcastInDim S262144 ![] bcast_S_S262144 (constant (F := Ideal) S_ .f32 0x00000000#32)) i
      = Ideal.cmp .ogt (c i) (Ideal.ofBits .f32 0x00000000#32) := rfl

/-- The three reductions of the precondition, each read at an element: the magnitude of every coordinate is below +∞,
    every corner word is at least 0 and below 262144 as a signed word, and every count exceeds 0. -/
theorem decode (a : FVec Ideal S262144x3 .f32) (b : IVec S2097152x3 32) (h : fn (F := Ideal) a b = fun _ => 1#1) :
    (∀ i, Ideal.cmp .olt (max (a i) (-(a i))) (Ideal.ofBits .f32 0x7F800000#32) = 1#1)
      ∧ (∀ i, IntOp.cmpi .sge (b i) 0#32 = 1#1 ∧ IntOp.cmpi .slt (b i) 262144#32 = 1#1)
      ∧ (∀ i, Ideal.cmp .ogt (counts b i) (Ideal.ofBits .f32 0x00000000#32) = 1#1) := by
  have e := congrFun h ValueIdx.ix0
  dsimp only [fn, fn_part1] at e
  obtain ⟨e12, e3⟩ := IntOp.andi_eq_one.1 e
  obtain ⟨e1, e2⟩ := IntOp.andi_eq_one.1 e12
  refine ⟨fun i => ?_, fun i => ?_, fun i => ?_⟩
  · exact Host.reduce_andi_all _ _ _ _ _ e1 i
  · exact IntOp.andi_eq_one.1 (Host.reduce_andi_all _ _ _ _ _ e2 i)
  · have e3' : cmpf (F := Ideal) .ogt (counts b) (broadcastInDim S262144 ![] bcast_S_S262144 (constant (F := Ideal) S_ .f32 0x00000000#32)) i = 1#1 :=
      Host.reduce_andi_all _ _ _ _ _ e3 i
    exact (ogt_zero_apply (counts b) i).symm.trans e3'

end
/-- An extended real whose magnitude is below the float word of +∞ is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    simpa [Ideal.cmp, StableHlo.Predicate.ofBool_eq_one_iff] using h
  induction x using EReal.rec with
  | bot => simp at hlt
  | coe r => exact ⟨r, rfl⟩
  | top => simp at hlt

/-- A signed 32-bit word that is at least 0 and below 262144 is below 262144 as a natural number. -/
theorem toNat_lt_of_signed (w : BitVec 32) (h0 : IntOp.cmpi .sge w 0#32 = 1#1) (h1 : IntOp.cmpi .slt w 262144#32 = 1#1) :
    w.toNat < 262144 := by
  simp only [IntOp.cmpi, StableHlo.Predicate.ofBool_eq_one_iff, BitVec.sle, BitVec.slt, decide_eq_true_eq] at h0 h1
  have hz : (0#32 : BitVec 32).toInt = 0 := by decide
  have hn : (262144#32 : BitVec 32).toInt = 262144 := by decide
  rw [hz] at h0
  rw [hn] at h1
  have hw := w.isLt
  rw [BitVec.toInt_eq_toNat_cond] at h0 h1
  split at h0 <;> omega

section
variable [Facts]
open Facts

/-- Column o of the face array, taken as a vector, holds at face f the word at (f, o). -/
theorem column_apply (b : IVec S2097152x3 32) (o : Nat) (s : Fin 3) (hs : s.val = o)
    (h1 : S2097152x3.Slices ![0, o] S2097152x1) (h2 : S2097152x1.ShapeCasts S2097152) (f : Fin 2097152) :
    shapeCast S2097152 (extractStridedSlice S2097152x1 ![0, o] b h1) h2 (ix1 f) = b (ix2 f s) := by
  refine (shapeCast_apply _ h2 (ix1 f) (ix2 f (0 : Fin 1)) ?_).trans ?_
  · rw [Shape.rowMajor_val_two, Shape.rowMajor_val_one]
    show f.val * 1 + 0 = f.val
    omega
  · exact slice2_axis1_apply o b h1 f (0 : Fin 1) s (by rw [hs]; rfl)

/-- The listed corner words laid as a column hold, at row r, word r of the list. -/
theorem cornerCol_apply (b : IVec S2097152x3 32) (r : Fin 12582912) :
    broadcastInDim S12582912x1 ![0] bcast_S12582912_S12582912x1_0 (corners b) (ix2 r (0 : Fin 1)) = corners b (ix1 r) :=
  broadcastInDim_apply (s := S12582912) (t := S12582912x1) ![0] bcast_S12582912_S12582912x1_0 (corners b)
    (ix2 r (0 : Fin 1)) (ix1 r) (fun a => by
    match a with
    | ⟨0, _⟩ =>
      show r.val = if (12582912 : Nat) = 1 then 0 else r.val
      rw [if_neg (by decide)])

/-- Word j · 2097152 + f of the list is the word at face f and corner 0, 0, 1, 1, 2, 2 for j = 0, …, 5. -/
theorem corners_apply (b : IVec S2097152x3 32) (j : Fin 6) (f : Fin 2097152) (hq : j.val * 2097152 + f.val < 12582912) :
    corners b (ix1 ⟨j.val * 2097152 + f.val, hq⟩) = b (ix2 f ((![0, 0, 1, 1, 2, 2] : Fin 6 → Fin 3) j)) := by
  unfold corners
  rw [LibRead.concat6_vec_apply]
  fin_cases j
  · exact column_apply b 0 0 rfl slices_S2097152x3_S2097152x1_0_0 shapeCasts_S2097152x1_S2097152 f
  · exact column_apply b 0 0 rfl slices_S2097152x3_S2097152x1_0_0 shapeCasts_S2097152x1_S2097152 f
  · exact column_apply b 1 1 rfl slices_S2097152x3_S2097152x1_0_1 shapeCasts_S2097152x1_S2097152 f
  · exact column_apply b 1 1 rfl slices_S2097152x3_S2097152x1_0_1 shapeCasts_S2097152x1_S2097152 f
  · exact column_apply b 2 2 rfl slices_S2097152x3_S2097152x1_0_2 shapeCasts_S2097152x1_S2097152 f
  · exact column_apply b 2 2 rfl slices_S2097152x3_S2097152x1_0_2 shapeCasts_S2097152x1_S2097152 f

end

/-- The vertex a corner names is the corner word's unsigned value. -/
theorem idxOf_val (b : IVec S2097152x3 32) (hr : InRange b) (f : Fin NF) (s : Fin 3) :
    (idxOf b hr f s).val = (b (ix2 f s)).toNat := by
  unfold idxOf
  show (b _).toNat = (b (ix2 f s)).toNat
  refine congrArg (fun i => (b i).toNat) (funext fun d => ?_)
  match d with
  | ⟨0, _⟩ => rfl
  | ⟨1, _⟩ => rfl

/-- The total of ones over the faces whose corner s is vertex n, with the corner words read off the face array. -/
theorem slot_total (b : IVec S2097152x3 32) (hr : InRange b) (s : Fin 3) (n : Fin NV) :
    ssum (idxOf b hr) s (fun _ => cOne) n = ∑ f : Fin 2097152, if (b (ix2 f s)).toNat = n.val then cOne else 0 := by
  unfold ssum
  refine Finset.sum_congr rfl (fun f _ => ?_)
  have hv : (idxOf b hr f s).val = (b (ix2 f s)).toNat := idxOf_val b hr f s
  have hiff : (idxOf b hr f s = n) ↔ ((b (ix2 f s)).toNat = n.val) := by
    rw [← hv]
    exact Fin.ext_iff
  by_cases hc : (b (ix2 f s)).toNat = n.val
  · rw [if_pos hc, if_pos (hiff.2 hc)]
  · rw [if_neg hc, if_neg (fun h => hc (hiff.1 h))]

section
variable [Facts]
open Facts

/-- The count at vertex n is the zero word plus the six totals of the specification's contribution count. -/
theorem counts_apply (b : IVec S2097152x3 32) (hr : InRange b) (n : Fin NV) :
    counts b (ix1 n) = Ideal.ofBits .f32 0x00000000#32 + rcnt (idxOf b hr) n := by
  have hupd : ∀ r : S12582912.Idx,
      broadcastInDim S12582912 ![] bcast_S_S12582912 (constant (F := Ideal) S_ .f32 0x3F800000#32) r = cOne := fun _ => rfl
  have v0 : (![0, 0, 1, 1, 2, 2] : Fin 6 → Fin 3) 0 = 0 := rfl
  have v1 : (![0, 0, 1, 1, 2, 2] : Fin 6 → Fin 3) 1 = 0 := rfl
  have v2 : (![0, 0, 1, 1, 2, 2] : Fin 6 → Fin 3) 2 = 1 := rfl
  have v3 : (![0, 0, 1, 1, 2, 2] : Fin 6 → Fin 3) 3 = 1 := rfl
  have v4 : (![0, 0, 1, 1, 2, 2] : Fin 6 → Fin 3) 4 = 2 := rfl
  have v5 : (![0, 0, 1, 1, 2, 2] : Fin 6 → Fin 3) 5 = 2 := rfl
  unfold counts
  rw [LibRead.vecScatterAdd_apply_of_eq (by norm_num) _ rfl rfl rfl rfl]
  refine congrArg₂ (· + ·) rfl ?_
  have hcol := cornerCol_apply b
  have hcor := corners_apply b
  simp only [hcol, hupd]
  rw [LibRead.sum_fin_six_mul (R := 2097152) (by norm_num)]
  simp only [hcor]
  rw [Fin.sum_univ_six]
  simp only [v0, v1, v2, v3, v4, v5]
  rw [rcnt, slot_total b hr 0 n, slot_total b hr 1 n, slot_total b hr 2 n]

end

theorem of_pre [Cert.Pre_finite_inputs.Facts] (a : FVec Ideal Cert.Pre_finite_inputs.S262144x3 .f32) (b : IVec Cert.Pre_finite_inputs.S2097152x3 32)
    (h : Cert.Pre_finite_inputs.fn (F := Ideal) a b = fun _ => 1#1) :
    (∀ n k, ∃ r : ℝ, vtxOf a n k = (r : EReal)) ∧ ∃ hr : InRange b, ∀ n, 0 < rcnt (idxOf b hr) n := by
  obtain ⟨h1, h2, h3⟩ := decode a b h
  have hr : InRange b := fun i => toNat_lt_of_signed (b i) (h2 i).1 (h2 i).2
  refine ⟨fun n k => real_of_abs_lt _ (h1 _), hr, fun n => ?_⟩
  have e := h3 (ix1 n)
  rw [counts_apply b hr n, Ideal.ofBits_zero_f32, zero_add] at e
  simpa only [Ideal.cmp, StableHlo.Predicate.ofBool_eq_one_iff, decide_eq_true_eq] using e

end Cert.PreDecode

end
-- ==== Proof.Claims.lean ====
/-
  Three of the certificate's conjuncts assembled from the pieces. The idealized kernel program runs and leaves its
  argument arrays as launched; so does the idealized reference. At the extended reals the kernel program's result is the
  mean vertex error with the totals organised as pair sums, the reference's the same error with the totals organised in
  six passes, of argument arrays that agree; the precondition makes every vertex coordinate a real number, every face
  corner a vertex and every vertex a corner of some face, and under these the two organisations give one number.
-/
import proofs.«429528_j48808008352295_3_alg».proof.Defs
import proofs.«429528_j48808008352295_3_alg».proof.Proof.Gen.KernelIdeal
import proofs.«429528_j48808008352295_3_alg».proof.Proof.Gen.KernelIdeal.Regions
import proofs.«429528_j48808008352295_3_alg».proof.Proof.Gen.ReferenceIdeal
import proofs.«429528_j48808008352295_3_alg».proof.Proof.Gen.ReferenceIdeal.Run
import proofs.«429528_j48808008352295_3_alg».proof.Proof.Gen.ReferenceIdeal.Read
import proofs.«429528_j48808008352295_3_alg».proof.Proof.Gen.Pre_finite_inputs
import proofs.«429528_j48808008352295_3_alg».proof.Proof.KI.Args
import proofs.«429528_j48808008352295_3_alg».proof.Proof.KI.Run
import proofs.«429528_j48808008352295_3_alg».proof.Proof.KI.Region1
import proofs.«429528_j48808008352295_3_alg».proof.Proof.KI.ValueA0
import proofs.«429528_j48808008352295_3_alg».proof.Proof.KI.ValueA
import proofs.«429528_j48808008352295_3_alg».proof.Proof.KI.ValueB
import proofs.«429528_j48808008352295_3_alg».proof.Proof.KI.ValueC
import proofs.«429528_j48808008352295_3_alg».proof.Proof.Spec
import proofs.«429528_j48808008352295_3_alg».proof.Proof.Algebra
import proofs.«429528_j48808008352295_3_alg».proof.Proof.RefValue
import proofs.«429528_j48808008352295_3_alg».proof.Proof.PreDecode

set_option maxRecDepth 16384

noncomputable section

namespace Cert.Proof.Claims

open Idealize.ShloMosaic Idealize.ShloMosaic.TcCoe Idealize.SL.Sem
open Cert.Spec

section Kernel

open Cert.KernelIdeal Cert.KernelIdeal.Gen Cert.KernelIdeal.Hand

variable (m : (ℓ : Loc nD τ sig) → Buf (Elt Ideal) ℓ)

/-- The kernel program's result on core `c`, from its argument arrays (face corners in range): the pair-sum mean error. -/
theorem kernel_value (c : Dev nD) (hr : InRange (m ((c.tc : Thread nD τ).loc main_arg1))) :
    V8 m (outs m) c main_v47 = fun _ => kloss (vtxA m c) (idxA m c hr) := by
  have t0 := take0 m c hr
  have t1 := take1 m c hr
  have t2 := take2 m c hr
  have p0 := pos_band0 m c hr t0 t1 t2
  have p1 := pos_band1 m c hr t0 t1 t2
  have p2 := pos_band2 m c hr t0 t1 t2
  have e0 := edge_row0 m c hr t0 t1 t2
  have e1 := edge_row1 m c hr t0 t1 t2
  have e2 := edge_row2 m c hr t0 t1 t2
  exact res_eq m c hr (tot_eq m c hr p0 p1 p2 e0 e1 e2) (cnt_eq m c hr) (el_eq m c hr p0 p1 p2 e0 e1 e2)
    (vT_eq m c) (after1_3_last (E1 m) c)

end Kernel

theorem frame_ki : Cert.frame_KernelIdeal (hKernelIdeal := Cert.KernelIdeal.Gen.facts)
    (hPre_finite_inputs := Cert.Pre_finite_inputs.Gen.facts) := by
  intro m ρ _
  refine (θ_run _ _ _).mono (fun r h c => ?_) (Cert.KernelIdeal.Hand.run_all (F := Ideal) m ρ)
  exact ⟨(h c (Proc.devRef .tc Cert.KernelIdeal.main_arg0)
        (Finset.mem_filter.mpr ⟨StableHlo.devRef_mem_tcRefs Cert.KernelIdeal.main_arg0, by decide⟩)).trans
      (Cert.KernelIdeal.Gen.V8_main_arg0 m (Cert.KernelIdeal.Hand.outs m) c),
    (h c (Proc.devRef .tc Cert.KernelIdeal.main_arg1)
        (Finset.mem_filter.mpr ⟨StableHlo.devRef_mem_tcRefs Cert.KernelIdeal.main_arg1, by decide⟩)).trans
      (Cert.KernelIdeal.Gen.V8_main_arg1 m (Cert.KernelIdeal.Hand.outs m) c)⟩

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- At the extended reals the kernel program ends at the pair-sum mean error of its argument arrays and the reference at
    the six-pass mean error of arguments that agree; under the precondition the two are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hall : ∀ c : Dev Cert.KernelIdeal.nD,
      (∀ n k, ∃ r : ℝ, Cert.KernelIdeal.Hand.vtxA m c n k = (r : EReal))
        ∧ ∃ hr : InRange (m ((c.tc : Thread Cert.KernelIdeal.nD Cert.KernelIdeal.τ).loc Cert.KernelIdeal.main_arg1)),
            ∀ n, 0 < rcnt (Cert.KernelIdeal.Hand.idxA m c hr) n :=
    fun c => Cert.PreDecode.of_pre _ _ (hpre c)
  have hr : ∀ c : Dev Cert.KernelIdeal.nD,
      InRange (m ((c.tc : Thread Cert.KernelIdeal.nD Cert.KernelIdeal.τ).loc Cert.KernelIdeal.main_arg1)) :=
    fun c => (hall c).2.choose
  have hcnt : ∀ (c : Dev Cert.KernelIdeal.nD) n, 0 < rcnt (Cert.KernelIdeal.Hand.idxA m c (hr c)) n :=
    fun c => (hall c).2.choose_spec
  refine ⟨fun c => fun _ => kloss (Cert.KernelIdeal.Hand.vtxA m c) (Cert.KernelIdeal.Hand.idxA m c (hr c)), ?_, ?_⟩
  · refine (θ_run _ _ _).mono (fun r h c => ?_) (Cert.KernelIdeal.Hand.run_all (F := Ideal) m ρ)
    exact ⟨(h c (Proc.devRef .tc Cert.KernelIdeal.main_v47)
          (Finset.mem_filter.mpr ⟨StableHlo.devRef_mem_tcRefs Cert.KernelIdeal.main_v47, by decide⟩)).trans
        (kernel_value m c (hr c)),
      (h c (Proc.devRef .tc Cert.KernelIdeal.main_arg0)
          (Finset.mem_filter.mpr ⟨StableHlo.devRef_mem_tcRefs Cert.KernelIdeal.main_arg0, by decide⟩)).trans
        (Cert.KernelIdeal.Gen.V8_main_arg0 m (Cert.KernelIdeal.Hand.outs m) c),
      (h c (Proc.devRef .tc Cert.KernelIdeal.main_arg1)
          (Finset.mem_filter.mpr ⟨StableHlo.devRef_mem_tcRefs Cert.KernelIdeal.main_arg1, by decide⟩)).trans
        (Cert.KernelIdeal.Gen.V8_main_arg1 m (Cert.KernelIdeal.Hand.outs m) c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v71_eq, (hagree c).1, (hagree c).2]
    refine (Cert.RefValue.ref_value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (hr c)).trans ?_
    funext _
    exact (kloss_eq_rloss (Cert.KernelIdeal.Hand.vtxA m c) (Cert.KernelIdeal.Hand.idxA m c (hr c)) (hall c).1 (hcnt c)).symm

end Cert.Proof.Claims

end
-- ==== Proof.K.Defs0.lean ====
/-
  Region 0 (the per-face pair-sum kernel): the input blocks at a grid point, the rectangles the body loads and stores
  through, and what the two output blocks hold after the body as functions of the three input blocks. The output block
  of nine rows is three bands of three rows, each band one store (the sum of two input blocks); the output block of three
  rows is three single rows, each one store (the sum of two edge-length rows).
-/
import proofs.«429528_j48808008352295_3_alg».proof.Proof.Gen.Kernel.Launch
import proofs.«429528_j48808008352295_3_alg».proof.Proof.Gen.Kernel.Skeleton
import proofs.«429528_j48808008352295_3_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- An input block, whole. -/
abbrev rIn0 : Rect S3x32768 := Rect.unit (s := S3x32768) ![0, 0] S3x32768.size inb_S3x32768_S3x32768_0_0
/-- The three bands of the nine-row output block. -/
abbrev rPos0 : Rect S9x32768 := Rect.unit (s := S9x32768) ![0, 0] S3x32768.size inb_S9x32768_S3x32768_0_0
abbrev rPos3 : Rect S9x32768 := Rect.unit (s := S9x32768) ![3, 0] S3x32768.size inb_S9x32768_S3x32768_3_0
abbrev rPos6 : Rect S9x32768 := Rect.unit (s := S9x32768) ![6, 0] S3x32768.size inb_S9x32768_S3x32768_6_0
/-- The three rows of the three-row output block. -/
abbrev rEdge0 : Rect S3x32768 := Rect.unit (s := S3x32768) ![0, 0] S1x32768.size inb_S3x32768_S1x32768_0_0
abbrev rEdge1 : Rect S3x32768 := Rect.unit (s := S3x32768) ![1, 0] S1x32768.size inb_S3x32768_S1x32768_1_0
abbrev rEdge2 : Rect S3x32768 := Rect.unit (s := S3x32768) ![2, 0] S1x32768.size inb_S3x32768_S1x32768_2_0

/-! ## What the body leaves in each output window's buffer -/

/-- The nine-row output block after the body: its three band stores as pieces, last first. -/
def out0_3 (x0 x1 x2 : Vec F S3x32768 .f32) : Vec F S9x32768 .f32 :=
  View.canon [⟨rPos6, k0_pay9 (View.ld x0 rIn0) (View.ld x1 rIn0)⟩,
    ⟨rPos3, k0_pay8 (View.ld x0 rIn0) (View.ld x2 rIn0)⟩,
    ⟨rPos0, k0_pay7 (View.ld x1 rIn0) (View.ld x2 rIn0)⟩]

/-- The three-row output block after the body: its three row stores as pieces, last first. -/
def out0_4 (x0 x1 x2 : Vec F S3x32768 .f32) : Vec F S3x32768 .f32 :=
  View.canon [⟨rEdge2, k0_pay12 (View.ld x0 rIn0) (View.ld x1 rIn0) (View.ld x2 rIn0)⟩,
    ⟨rEdge1, k0_pay11 (View.ld x0 rIn0) (View.ld x1 rIn0) (View.ld x2 rIn0)⟩,
    ⟨rEdge0, k0_pay10 (View.ld x0 rIn0) (View.ld x1 rIn0) (View.ld x2 rIn0)⟩]

end Cert.Kernel.Hand

end
-- ==== Proof.K.Region0.lean ====
/-
  Region 0 (the per-face pair-sum kernel), at any float instance: what its two output blocks hold after the body
  at a grid point, as functions of the three input blocks; the body's triple; the pipeline's proof data and the body
  obligation. The output block of nine rows is three bands of three rows, each band one store (the sum of two input
  blocks); the output block of three rows is three single rows, each one store (the sum of two edge-length rows).
-/
import proofs.«429528_j48808008352295_3_alg».proof.Proof.K.Defs0
import proofs.«429528_j48808008352295_3_alg».proof.Proof.Gen.Kernel.Launch
import proofs.«429528_j48808008352295_3_alg».proof.Proof.Gen.Kernel.Skeleton
import proofs.«429528_j48808008352295_3_alg».proof.Proof.Gen.Kernel.Points
import proofs.«429528_j48808008352295_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The pipeline's proof data -/

/-- The proof data of pipeline 0 on core `c`: the arrays as the region finds them; after the body at point `t` each
    input's buffer at its block and each output's at `out0_W` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The inputs' staging buffers before the body -/

/-- Input window 0's current staging buffer holds its block at every point, fetched there or not, for any proof
    data whose array is the region-entry contents and whose body leaves the block in place: the window is uncut and
    never idle, so an unfetched point finds the block the point before left, which is the same block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The stores tile the output blocks -/

/-- The three bands of three rows tile the nine-row block, so they cover it. -/
theorem cover0_3 (p0 p1 p2 : Vec F S3x32768 .f32) (y : S9x32768.Idx) :
    ∃ pc ∈ ([⟨rPos6, p0⟩, ⟨rPos3, p1⟩, ⟨rPos0, p2⟩] : List (View.Piece (Elt F) S9x32768 .f32)), y ∈ pc.1.set :=
  View.cover_of_tiled [⟨rPos6, p0⟩, ⟨rPos3, p1⟩, ⟨rPos0, p2⟩] S3x32768.size (by rfl) y

/-- The three single rows tile the three-row block, so they cover it. -/
theorem cover0_4 (p0 p1 p2 : Vec F S1x32768 .f32) (y : S3x32768.Idx) :
    ∃ pc ∈ ([⟨rEdge2, p0⟩, ⟨rEdge1, p1⟩, ⟨rEdge0, p2⟩] : List (View.Piece (Elt F) S3x32768 .f32)), y ∈ pc.1.set :=
  View.cover_of_tiled [⟨rEdge2, p0⟩, ⟨rEdge1, p1⟩, ⟨rEdge0, p2⟩] S1x32768.size (by rfl) y

/-! ## The body's triple -/

set_option maxHeartbeats 4000000 in
/-- The kernel body on whole staging memrefs, the inputs' at read contents `x0 x1 x2` and the outputs' at anything,
    runs to the continuation holding the inputs' as they were and each output's at `out0_W` of the inputs': the body
    loads the three input blocks whole, and stores each band and each row once, so each output block reads as the
    canon of its three stores. -/
theorem sound_kernel0 (c : Dev nD) (E : Set ℕ) (i : grid0.Coords)
    (arg1 : Memref sig .tc .vmem S3x32768 .f32) (harg1 : arg1.IsWhole) (arg2 : Memref sig .tc .vmem S3x32768 .f32) (harg2 : arg2.IsWhole)
    (arg3 : Memref sig .tc .vmem S3x32768 .f32) (harg3 : arg3.IsWhole) (arg4 : Memref sig .tc .vmem S9x32768 .f32) (harg4 : arg4.IsWhole)
    (arg5 : Memref sig .tc .vmem S3x32768 .f32) (harg5 : arg5.IsWhole)
    (x0 x1 x2 : Vec F S3x32768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__face_kernel i arg1 harg1 arg2 harg2 arg3 harg3 arg4 harg4 arg5 harg5) K := by
  simp only [cc0__face_kernel_eq_skeleton]; unfold cc0__face_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _ _ _)
  iexists _; isplitr
  swap; · iexact H4
  ipureintro
  exact View.read_writes_eq_canon _ _ _ (cover0_4 _ _ _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Defs1.lean ====
/-
  Region 1 (the per-vertex error kernel with its running total): the input blocks at a grid point, the rectangles the
  body loads through, one point's step of the running total, the total after each point, and the scaled total the last
  point stores into the one-word output block.
-/
import proofs.«429528_j48808008352295_3_alg».proof.Proof.Gen.Kernel.Launch
import proofs.«429528_j48808008352295_3_alg».proof.Proof.Gen.Kernel.Skeleton
import proofs.«429528_j48808008352295_3_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- A three-row input block, whole. -/
abbrev rIn1 : Rect S3x32768 := Rect.unit (s := S3x32768) ![0, 0] S3x32768.size inb_S3x32768_S3x32768_0_0
/-- The two rows of the two-row input block (counts; edge totals). -/
abbrev rRow0 : Rect S2x32768 := Rect.unit (s := S2x32768) ![0, 0] S1x32768.size inb_S2x32768_S1x32768_0_0
abbrev rRow1 : Rect S2x32768 := Rect.unit (s := S2x32768) ![1, 0] S1x32768.size inb_S2x32768_S1x32768_1_0
/-- The one word of the scratch total and of the output block. -/
abbrev rWord : Rect S1x1 := Rect.unit (s := S1x1) ![0, 0] S1x1.size inb_S1x1_S1x1_0_0

/-! ## The running total -/

/-- One point's step: the total `a` found in the scratch plus the point's partial sum of vertex errors. -/
def step1 (x0 x1 : Vec F S3x32768 .f32) (x2 : Vec F S2x32768 .f32) (a : Vec F S1x1 .f32) : Vec F S1x1 .f32 :=
  k1_pay2 (View.ld x0 rIn1) (View.ld x1 rIn1) (View.ld x2 rRow0) (View.ld x2 rRow1) a

/-- The scratch total after point `n`: cleared before the first point's step, carried between points. -/
def accC (c : Dev nD) : (n : ℕ) → n < cfg1.N → Vec F S1x1 .f32
  | 0, h => step1 (iblk1 V c 0 ⟨0, h⟩) (iblk1 V c 1 ⟨0, h⟩) (iblk1 V c 2 ⟨0, h⟩) (k1_pay1 (F := F))
  | n + 1, h => step1 (iblk1 V c 0 ⟨n + 1, h⟩) (iblk1 V c 1 ⟨n + 1, h⟩) (iblk1 V c 2 ⟨n + 1, h⟩) (accC c n (Nat.lt_of_succ_lt h))

/-- What the last point stores into the output block: the final total, scaled. -/
def finC (c : Dev nD) : Vec F S1x1 .f32 := k1_pay3 (accC V c 7 (by rw [show cfg1.N = 8 from N_1]; decide))

end Cert.Kernel.Hand

end
-- ==== Proof.K.Region1.lean ====
/-
  Region 1 (the per-vertex error kernel with its running total), at any float instance. The kernel keeps a one-word
  scratch total across its eight grid points: cleared at the first point, increased at every point by the point's
  partial sum of vertex errors, and at the last point scaled into the one-word output block, which is written back
  only there. The proof data carries the scratch's contents after each point in the region invariant.
-/
import proofs.«429528_j48808008352295_3_alg».proof.Proof.K.Defs1
import proofs.«429528_j48808008352295_3_alg».proof.Proof.Gen.Kernel.Launch
import proofs.«429528_j48808008352295_3_alg».proof.Proof.Gen.Kernel.Skeleton
import proofs.«429528_j48808008352295_3_alg».proof.Proof.Gen.Kernel.Points
import proofs.«429528_j48808008352295_3_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The zero offsets of a whole-shape rectangle of rank two, as a function. -/
theorem hz2 : (![0, 0] : Fin 2 → Nat) = fun _ => 0 := funext fun a => by fin_cases a <;> rfl

/-- A store of the whole word, made last, leaves its payload there, regardless of the earlier stores and of what the
    buffer held before them. -/
theorem read_word_store {κ : Kind} {sp : Space} (v : View sig κ sp S1x1 .f32) (f : v.ty.Contents (Elt F)) (w : Vec F S1x1 .f32)
    (L : List (View.Piece (Elt F) S1x1 .f32)) :
    v.read (Elt F) (v.writes (Elt F) f ((⟨rWord, w⟩ : View.Piece (Elt F) S1x1 .f32) :: L)) = w := by
  have hcov : ∀ y : S1x1.Idx, ∃ p ∈ ((⟨rWord, w⟩ : View.Piece (Elt F) S1x1 .f32) :: L), y ∈ p.1.set :=
    fun y => ⟨⟨rWord, w⟩, List.mem_cons_self, View.mem_set_unit_zero (S := S1x1) hz2 inb_S1x1_S1x1_0_0 y⟩
  rw [View.read_writes_eq_canon v f _ hcov]
  exact View.canon_cons_unit_zero (S := S1x1) hz2 inb_S1x1_S1x1_0_0 w L

/-- The first conditional's test, from the grid coordinate: the point is the first. -/
abbrev cond1_0 (i : grid1.Coords) : Prop := (Scalar.cmpi .ne (Scalar.extui (Scalar.cmpi .eq (BitVec.ofNat 32 (i 0).val) 0#32)) 0#32) = 1#1

/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The second conditional's test holds at point 7 only. -/
theorem hcond1_1 : ∀ t : Fin cfg1.N, k1_cond2 (grid1.coords t) = 1#1 ↔ t.val = 7 :=
  (by decide +kernel : ∀ t : Fin grid1.N, k1_cond2 (grid1.coords t) = 1#1 ↔ t.val = 7)

/-! ## The body on any whole memrefs, case by case -/

set_option maxHeartbeats 1600000 in
/-- A middle point: neither conditional taken. The scratch total `a` becomes `step1 x0 x1 x2 a`; the inputs stay. -/
theorem run_mid (c : Dev nD) (i : grid1.Coords)
    (arg1 : Memref sig .tc .vmem S3x32768 .f32) (harg1 : arg1.IsWhole) (arg2 : Memref sig .tc .vmem S3x32768 .f32) (harg2 : arg2.IsWhole)
    (arg3 : Memref sig .tc .vmem S2x32768 .f32) (harg3 : arg3.IsWhole) (arg4 : Memref sig .tc .vmem S1x1 .f32) (harg4 : arg4.IsWhole)
    (arg5 : Memref sig .tc .vmem S1x1 .f32) (harg5 : arg5.IsWhole)
    (hc0 : ¬ cond1_0 i) (hc1 : ¬ k1_cond2 i = 1#1)
    (x0 x1 : Vec F S3x32768 .f32) (x2 : Vec F S2x32768 .f32) (a : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg5 fullShare (step1 x0 x1 x2 a)) -∗ K ⟨⟩))
      ⊢ wp frame (wpE (defs₀ (F := F)) Variants.none c none) E (cc1__final_kernel i arg1 harg1 arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_word_store]
  unfold step1
  simp only [View.readAt_eq_ld, harg1.read_unread, harg2.read_unread, harg3.read_unread, harg5.read_unread, View.ld_unit_zero (S := S1x1) hz2]

set_option maxHeartbeats 1600000 in
/-- The first point: the first conditional taken, the second not. The scratch, whatever it held, is cleared and
    becomes `step1 x0 x1 x2 k1_pay1`. -/
theorem run_first (c : Dev nD) (i : grid1.Coords)
    (arg1 : Memref sig .tc .vmem S3x32768 .f32) (harg1 : arg1.IsWhole) (arg2 : Memref sig .tc .vmem S3x32768 .f32) (harg2 : arg2.IsWhole)
    (arg3 : Memref sig .tc .vmem S2x32768 .f32) (harg3 : arg3.IsWhole) (arg4 : Memref sig .tc .vmem S1x1 .f32) (harg4 : arg4.IsWhole)
    (arg5 : Memref sig .tc .vmem S1x1 .f32) (harg5 : arg5.IsWhole)
    (hc0 : cond1_0 i) (hc1 : ¬ k1_cond2 i = 1#1)
    (x0 x1 : Vec F S3x32768 .f32) (x2 : Vec F S2x32768 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (step1 x0 x1 x2 (k1_pay1 (F := F)))) -∗ K ⟨⟩))
      ⊢ wp frame (wpE (defs₀ (F := F)) Variants.none c none) E (cc1__final_kernel i arg1 harg1 arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%d, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_word_store]
  sl_unfold_words
  unfold step1
  simp only [View.readAt_eq_ld, harg1.read_unread, harg2.read_unread, harg3.read_unread, View.readCov_unit_zero (S := S1x1) _ hz2]

set_option maxHeartbeats 1600000 in
/-- The last point: the first conditional not taken, the second taken. The scratch total `a` becomes
    `step1 x0 x1 x2 a`, and the output block, whatever it held, that total scaled. -/
theorem run_last (c : Dev nD) (i : grid1.Coords)
    (arg1 : Memref sig .tc .vmem S3x32768 .f32) (harg1 : arg1.IsWhole) (arg2 : Memref sig .tc .vmem S3x32768 .f32) (harg2 : arg2.IsWhole)
    (arg3 : Memref sig .tc .vmem S2x32768 .f32) (harg3 : arg3.IsWhole) (arg4 : Memref sig .tc .vmem S1x1 .f32) (harg4 : arg4.IsWhole)
    (arg5 : Memref sig .tc .vmem S1x1 .f32) (harg5 : arg5.IsWhole)
    (hc0 : ¬ cond1_0 i) (hc1 : k1_cond2 i = 1#1)
    (x0 x1 : Vec F S3x32768 .f32) (x2 : Vec F S2x32768 .f32) (a : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 (step1 x0 x1 x2 a))
            ∗ owns (c : Thread nD τ) arg5 fullShare (step1 x0 x1 x2 a)) -∗ K ⟨⟩))
      ⊢ wp frame (wpE (defs₀ (F := F)) Variants.none c none) E (cc1__final_kernel i arg1 harg1 arg2 harg2 arg3 harg3 arg4 harg4 arg5 harg5) K := by
  simp only [cc1__final_kernel_eq_skeleton]; unfold cc1__final_kernel_skel
  unfold owns
  iintro ⟨⟨%f0, %hf0, H0⟩, ⟨%f1, %hf1, H1⟩, ⟨%f2, %hf2, H2⟩, ⟨%d, %fo, -, HO⟩, ⟨%fs, %hfs, HS⟩, Hk⟩
  obtain rfl := harg1.eq_unread hf0; obtain rfl := harg2.eq_unread hf1; obtain rfl := harg3.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr
    swap; · iexact HO
    ipureintro
    rw [read_word_store]
    sl_unfold_words
    unfold step1
    simp only [View.readAt_eq_ld, harg1.read_unread, harg2.read_unread, harg3.read_unread, harg5.read_unread, View.ld_unit_zero (S := S1x1) hz2, View.readCov_unit_zero (S := S1x1) _ hz2]
  iexists _; isplitr
  swap; · iexact HS
  ipureintro
  sl_unfold_words
  rw [read_word_store]
  unfold step1
  simp only [View.readAt_eq_ld, harg1.read_unread, harg2.read_unread, harg3.read_unread, harg5.read_unread, View.ld_unit_zero (S := S1x1) hz2]

/-! ## Where the windows are idle, and where the output is written back -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second conditional is not taken the output window is idle, -/
theorem idleAt1_3 : ∀ t : Fin cfg1.N, ¬ k1_cond2 (grid1.coords t) = 1#1 → cfg1.idle 3 (grid1.coords t) = true := by decide +kernel
/-- and its block is not written back; -/
theorem noFlush1_3 : ∀ t : Fin cfg1.N, ¬ k1_cond2 (grid1.coords t) = 1#1 → (cfg1.win 3).flush t = false := by decide +kernel
/-- where it is taken the window is live. -/
theorem liveAt1_3 : ∀ t : Fin cfg1.N, k1_cond2 (grid1.coords t) = 1#1 → cfg1.idle 3 (grid1.coords t) = false := by decide +kernel

/-! ## The memrefs the body is passed -/

/-- Each window's current staging memref at point `t`, and its wholeness. -/
abbrev ms1_0 (t : Fin cfg1.N) : Memref sig .tc .vmem S3x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x32768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x32768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch operand holding the running total: a whole scoped buffer of the kernel's own. -/
abbrev scM1 : Memref sig .tc .vmem S1x1 .f32 := Memref.whole cc1_scratch0

/-! ## The region invariant -/

/-- The core's scoped buffers that are neither staging buffers of this region nor its scratch total (they are the
    other region's staging buffers), each whole at some contents: the body never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The class invariant hands out the scratch total as a memref owned at some contents, beside the other scoped
    buffers and the generator register, -/
theorem PhiA1_split (c : Dev nD) :
    (Pipeline.ΦA spec1 c : sProp 𝕄)
      ⊢ iprop((others1 (F := F) c ∗ (∃ d, owns (c : Thread nD τ) scM1 fullShare d)) ∗ (∃ r, prngReg c r)) := by
  unfold Pipeline.ΦA others1; rw [scopedRest1_eq]; simp only [scM1, owns_whole]
  iintro ⟨⟨H0, H1, H2, H3, H4, H5, H6, H7, H8, H9, HS⟩, Hg⟩
  isplitr [Hg]
  · isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · iexact Hg

/-- and takes them back. -/
theorem PhiA1_join (c : Dev nD) :
    iprop((others1 (F := F) c ∗ (∃ d, owns (c : Thread nD τ) scM1 fullShare d)) ∗ (∃ r, prngReg c r))
      ⊢ (Pipeline.ΦA spec1 c : sProp 𝕄) := by
  unfold Pipeline.ΦA others1; rw [scopedRest1_eq]; simp only [scM1, owns_whole]
  iintro ⟨⟨⟨H0, H1, H2, H3, H4, H5, H6, H7, H8, H9⟩, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  · iexact Hg

/-- So the class invariant is the scratch total at some contents beside the rest. -/
theorem PhiA1_eq (c : Dev nD) :
    (Pipeline.ΦA spec1 c : sProp 𝕄)
      = iprop((others1 (F := F) c ∗ (∃ d, owns (c : Thread nD τ) scM1 fullShare d)) ∗ (∃ r, prngReg c r)) :=
  BI.equiv_iff.mp ⟨PhiA1_split c, PhiA1_join c⟩

/-- The invariant before position `n`: before the first point the class invariant (the scratch at anything);
    afterwards the scratch total at what the point before left in it, the other scoped buffers at anything and the
    generator register at some state. -/
def PhiS (c : Dev nD) : (n : ℕ) → n ≤ cfg1.N → sProp 𝕄
  | 0, _ => Pipeline.ΦA spec1 c
  | n + 1, hn => iprop((others1 (F := F) c ∗ owns (c : Thread nD τ) scM1 fullShare (accC V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((others1 (F := F) c ∗ owns (c : Thread nD τ) scM1 fullShare (accC V c n hn)) ∗ (∃ r, prngReg c r)) := rfl

theorem PhiS_pos (c : Dev nD) (n : ℕ) (h : n ≤ cfg1.N) (hz : n ≠ 0) :
    PhiS V c n h = iprop((others1 (F := F) c ∗ owns (c : Thread nD τ) scM1 fullShare (accC V c (n - 1) (by omega))) ∗ (∃ r, prngReg c r)) := by
  cases n with
  | zero => exact absurd rfl hz
  | succ n => rfl

/-! ## The running total, point by point -/

/-- The total after the first point: the cleared word stepped once. -/
theorem accC_zero (c : Dev nD) (t : Fin cfg1.N) (h : t.val = 0) :
    accC V c t.val t.isLt = step1 (iblk1 V c 0 t) (iblk1 V c 1 t) (iblk1 V c 2 t) (k1_pay1 (F := F)) := by
  obtain ⟨n, hn⟩ := t
  cases n with
  | zero => rfl
  | succ n => exact absurd h (Nat.succ_ne_zero n)

/-- The total after a later point: the total the point before left, stepped by this point's blocks. -/
theorem accC_pos (c : Dev nD) (t : Fin cfg1.N) (h : t.val ≠ 0) :
    accC V c t.val t.isLt = step1 (iblk1 V c 0 t) (iblk1 V c 1 t) (iblk1 V c 2 t) (accC V c (t.val - 1) (Nat.lt_of_le_of_lt (Nat.sub_le _ _) t.isLt)) := by
  obtain ⟨n, hn⟩ := t
  cases n with
  | zero => exact absurd rfl h
  | succ n => rfl

/-- What the last point stores is the scaled total after the last point. -/
theorem finC_eq (c : Dev nD) (t : Fin cfg1.N) (h : t.val = 7) : finC V c = k1_pay3 (accC V c t.val t.isLt) := by
  obtain ⟨n, hn⟩ := t
  obtain rfl : n = 7 := h
  rfl

/-! ## The pipeline's proof data -/

/-- The proof data of pipeline 1 on core `c`: the arrays as the region finds them; after the body each input's
    buffer at its block, the output's at the scaled final total (it is looked at only where the block is written
    back, the last point); the invariant carries the scratch total. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => finC V c
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q1 (c : Dev nD) (w : Fin cfg1.W) : (dat1 V c).q w = fullShare := rfl

theorem owed1 (c : Dev nD) (t) : (dat1 V c).owed t = 0 := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = finC V c := by dsimp only [dat1]

/-- What the output's buffer holds after the last point: the final total, scaled. -/
theorem after1_3_last (c : Dev nD) : (dat1 V c).after 3 t1_7 = finC V c := after1_3 V c t1_7

theorem PhiS_castSucc (c : Dev nD) (t : Fin cfg1.N) :
    (dat1 V c).Φ t.castSucc = PhiS V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' memrefs hold their blocks. At the first point the invariant hands over the
    scratch at anything and the body clears it before its step; at a later point it hands over the total the point
    before left. Except at the last point the output window is idle and its buffer goes back as found; at the last
    point the body stores the scaled total into it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 8 := lt_of_lt_of_eq t.isLt (show cfg1.N = 8 from N_1)
  by_cases h0 : t.val = 0
  · have hc0 : cond1_0 (grid1.coords t) := (hcond1_0 t).mpr h0
    have hc1 : ¬ k1_cond2 (grid1.coords t) = 1#1 := fun h => by have := (hcond1_1 t).mp h; omega
    rw [Dat.leavesExact_idle (dat1 V c) 3 t (idleAt1_3 t hc1) (noFlush1_3 t hc1)]
    rw [accC_zero V c t h0]
    rw [PhiS_castSucc V c t, PhiS_zero V c _ _ h0, PhiA1_eq]
    iintro ⟨⟨⟨Hr, HS⟩, Hg⟩, Ho, ⟨%d0, H0⟩, ⟨%d1, H1⟩, ⟨%d2, H2⟩, H3⟩
    iapply (run_first c (grid1.coords t) (ms1_0 t) (hs1_0 t) (ms1_1 t) (hs1_1 t) (ms1_2 t) (hs1_2 t) (ms1_3 t) (hs1_3 t)
      scM1 (Memref.isWhole_whole _) hc0 hc1 (iblk1 V c 0 t) (iblk1 V c 1 t) (iblk1 V c 2 t) Set.univ _)
    isplitl [H0]; · iexact H0
    isplitl [H1]; · iexact H1
    isplitl [H2]; · iexact H2
    isplitl [HS]; · iexact HS
    iintro ⟨H0, H1, H2, HS⟩
    isplitl [Hr HS Hg]
    · isplitr [Hg]
      · isplitl [Hr]; · iexact Hr
        iexact HS
      · iexact Hg
    isplitl [Ho]; · iexact Ho
    isplitl [H0]; · iexact H0
    isplitl [H1]; · iexact H1
    isplitl [H2]; · iexact H2
    iexact H3
  · by_cases h7 : t.val = 7
    · have hc0 : ¬ cond1_0 (grid1.coords t) := fun h => h0 ((hcond1_0 t).mp h)
      have hc1 : k1_cond2 (grid1.coords t) = 1#1 := (hcond1_1 t).mpr h7
      rw [show (dat1 V c).leavesExact 3 t = owns (c : Thread nD τ) (ms1_3 t) fullShare ((dat1 V c).after 3 t) from by
        unfold Dat.leavesExact; rw [liveAt1_3 t hc1], after1_3]
      rw [finC_eq V c t h7, accC_pos V c t h0]
      rw [PhiS_castSucc V c t, PhiS_pos V c _ _ h0]
      iintro ⟨⟨⟨Hr, HS⟩, Hg⟩, Ho, ⟨%d0, H0⟩, ⟨%d1, H1⟩, ⟨%d2, H2⟩, ⟨%d3, H3⟩⟩
      iapply (run_last c (grid1.coords t) (ms1_0 t) (hs1_0 t) (ms1_1 t) (hs1_1 t) (ms1_2 t) (hs1_2 t) (ms1_3 t) (hs1_3 t)
        scM1 (Memref.isWhole_whole _) hc0 hc1 (iblk1 V c 0 t) (iblk1 V c 1 t) (iblk1 V c 2 t)
        (accC V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      iexact H3
    · have hc0 : ¬ cond1_0 (grid1.coords t) := fun h => h0 ((hcond1_0 t).mp h)
      have hc1 : ¬ k1_cond2 (grid1.coords t) = 1#1 := fun h => h7 ((hcond1_1 t).mp h)
      rw [Dat.leavesExact_idle (dat1 V c) 3 t (idleAt1_3 t hc1) (noFlush1_3 t hc1)]
      rw [accC_pos V c t h0]
      rw [PhiS_castSucc V c t, PhiS_pos V c _ _ h0]
      iintro ⟨⟨⟨Hr, HS⟩, Hg⟩, Ho, ⟨%d0, H0⟩, ⟨%d1, H1⟩, ⟨%d2, H2⟩, H3⟩
      iapply (run_mid c (grid1.coords t) (ms1_0 t) (hs1_0 t) (ms1_1 t) (hs1_1 t) (ms1_2 t) (hs1_2 t) (ms1_3 t) (hs1_3 t)
        scM1 (Memref.isWhole_whole _) hc0 hc1 (iblk1 V c 0 t) (iblk1 V c 1 t) (iblk1 V c 2 t)
        (accC V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- The invariant after the last point gives the class invariant back: the total's named contents are forgotten. -/
theorem hout1 (c : Dev nD) : (dat1 V c).Φ (Fin.last cfg1.N) ⊢ Pipeline.ΦA spec1 c := by
  have hN : cfg1.N = 8 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨Hr, HS⟩, Hg⟩
  isplitr [Hg]
  · isplitl [Hr]; · iexact Hr
    iexists _; iexact HS
  · iexact Hg

end Cert.Kernel.Hand

end
-- ==== Proof.K.Run.lean ====
/-
  The run of the whole program at any float instance: what the two regions leave in the buffers they write, the
  pipelines' proof data at each region's entry contents, each region as a segment between the host stretches, and the
  launch: every weakly fair execution terminates with every unscoped buffer at the last boundary's contents.
-/
import proofs.«429528_j48808008352295_3_alg».proof.Proof.K.Region0
import proofs.«429528_j48808008352295_3_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's entry contents, read at the TensorCore's references. -/
abbrev E0 : (c : Dev nD) → (b : Ref sig .tc) → Buf (Elt F) ((c : Thread nD τ).loc b) := fun c b => V4 m c b

/-- What region 0 leaves in its two output arrays (every other reference: what was there). -/
def outsA : Outs (F := F) := fun _ r c =>
  if h : r = main_v10_0 then
    cast (by rw [h]) ((dat0 (E0 m) c).arrAt 3 cfg0.N : Buf (Elt F) ((c : Thread nD τ).loc main_v10_0))
  else if h : r = main_v10_1 then
    cast (by rw [h]) ((dat0 (E0 m) c).arrAt 4 cfg0.N : Buf (Elt F) ((c : Thread nD τ).loc main_v10_1))
  else V4 m c r

/-- Region 1's entry contents, read at the TensorCore's references. -/
abbrev E1 : (c : Dev nD) → (b : Ref sig .tc) → Buf (Elt F) ((c : Thread nD τ).loc b) := fun c b => V6 m (outsA m) c b

/-- What the two regions leave in the arrays they write. -/
def outs : Outs (F := F) := fun j r c =>
  if h : r = main_v46 then
    cast (by rw [h]) ((dat1 (E1 m) c).arrAt 3 cfg1.N : Buf (Elt F) ((c : Thread nD τ).loc main_v46))
  else outsA m j r c

theorem outs_eq_A (j : ℕ) (r : Ref sig .tc) (c : Dev nD) (h : r ≠ main_v46) : outs m j r c = outsA m j r c := by
  unfold outs; rw [dif_neg h]
theorem outs_v10_0 (c : Dev nD) : outs m 5 main_v10_0 c = (dat0 (E0 m) c).arrAt 3 cfg0.N := by
  rw [outs_eq_A m 5 main_v10_0 c (by decide)]; unfold outsA; rw [dif_pos rfl]; exact cast_eq _ _
theorem outs_v10_1 (c : Dev nD) : outs m 5 main_v10_1 c = (dat0 (E0 m) c).arrAt 4 cfg0.N := by
  rw [outs_eq_A m 5 main_v10_1 c (by decide)]; unfold outsA; rw [dif_neg (by decide), dif_pos rfl]; exact cast_eq _ _
theorem outs_v46 (c : Dev nD) : outs m 7 main_v46 c = (dat1 (E1 m) c).arrAt 3 cfg1.N := by
  unfold outs; rw [dif_pos rfl]; exact cast_eq _ _
theorem V5_outs (c : Dev nD) : V5 m (outs m) c = V5 m (outsA m) c := by
  show Function.update (Function.update (V4 m c) main_v10_0 (outs m 5 main_v10_0 c)) main_v10_1 (outs m 5 main_v10_1 c)
    = Function.update (Function.update (V4 m c) main_v10_0 (outsA m 5 main_v10_0 c)) main_v10_1 (outsA m 5 main_v10_1 c)
  rw [outs_eq_A m 5 main_v10_0 c (by decide), outs_eq_A m 5 main_v10_1 c (by decide)]
/-- Region 1 is entered from the contents its proof data are stated at. -/
theorem V6_outs (c : Dev nD) : V6 m (outs m) c = V6 m (outsA m) c := by
  show StableHlo.after hostOps1 (V5 m (outs m) c) = StableHlo.after hostOps1 (V5 m (outsA m) c)
  rw [V5_outs]

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-! ## Region 0's arrays at its exit -/

theorem V5_v10_0 (c : Dev nD) : V5 m (outs m) c main_v10_0 = outs m 5 main_v10_0 c := by
  show Function.update (Function.update (V4 m c) main_v10_0 (outs m 5 main_v10_0 c)) main_v10_1 (outs m 5 main_v10_1 c) main_v10_0 = _
  rw [Function.update_of_ne (StableHlo.devRef_ne_of_ne (by decide)), Function.update_self]
theorem V5_v10_1 (c : Dev nD) : V5 m (outs m) c main_v10_1 = outs m 5 main_v10_1 c := by
  show Function.update (Function.update (V4 m c) main_v10_0 (outs m 5 main_v10_0 c)) main_v10_1 (outs m 5 main_v10_1 c) main_v10_1 = _
  rw [Function.update_self]

theorem hF0_in (c : Dev nD) (w : Fin cfg0.W) (hw : (cfg0.win w).isOut = false)
    (hne : Pipeline.arrRef spec0 w ∉ ([main_v10_0, main_v10_1] : List (Ref sig .tc))) :
    (dat0 (E0 m) c).arrAt w cfg0.N = V5 m (outs m) c (Pipeline.arrRef spec0 w) :=
  ((dat0 (E0 m) c).arrAt_in w hw _).trans ((A_eq0 (E0 m) c w).trans (V5_of m (outs m) c (Pipeline.arrRef spec0 w) hne).symm)
theorem hF0_3 (c : Dev nD) : (dat0 (E0 m) c).arrAt 3 cfg0.N = V5 m (outs m) c (Pipeline.arrRef spec0 3) :=
  (outs_v10_0 m c).symm.trans (V5_v10_0 m c).symm
theorem hF0_4 (c : Dev nD) : (dat0 (E0 m) c).arrAt 4 cfg0.N = V5 m (outs m) c (Pipeline.arrRef spec0 4) :=
  (outs_v10_1 m c).symm.trans (V5_v10_1 m c).symm
theorem hF0 (c : Dev nD) (w : Fin cfg0.W) : (dat0 (E0 m) c).arrAt w cfg0.N = V5 m (outs m) c (Pipeline.arrRef spec0 w) := by
  match w with
  | ⟨0, _⟩ => exact hF0_in m c 0 rfl (by decide)
  | ⟨1, _⟩ => exact hF0_in m c 1 rfl (by decide)
  | ⟨2, _⟩ => exact hF0_in m c 2 rfl (by decide)
  | ⟨3, _⟩ => exact hF0_3 m c
  | ⟨4, _⟩ => exact hF0_4 m c

theorem hrest0 (c : Dev nD) : ∀ b, b ∉ Finset.univ.image (Pipeline.arrRef spec0) → V5 m (outs m) c b = V4 m c b :=
  fun b hb => V5_of m (outs m) c b (fun hmem => by
    rcases List.mem_cons.mp hmem with h | h
    · exact hb (Finset.mem_image.mpr ⟨3, Finset.mem_univ _, h.symm⟩)
    · rcases List.mem_cons.mp h with h | h
      · exact hb (Finset.mem_image.mpr ⟨4, Finset.mem_univ _, h.symm⟩)
      · cases h)

/-! ## Region 1's arrays at its exit -/

theorem V7_v46 (c : Dev nD) : V7 m (outs m) c main_v46 = outs m 7 main_v46 c := by
  show Function.update (V6 m (outs m) c) main_v46 (outs m 7 main_v46 c) main_v46 = _
  rw [Function.update_self]

theorem E1_eq (c : Dev nD) (b : Ref sig .tc) : E1 m c b = V6 m (outs m) c b := by
  show V6 m (outsA m) c b = V6 m (outs m) c b
  rw [V6_outs]

theorem hF1_in (c : Dev nD) (w : Fin cfg1.W) (hw : (cfg1.win w).isOut = false)
    (hne : Pipeline.arrRef spec1 w ∉ ([main_v46] : List (Ref sig .tc))) :
    (dat1 (E1 m) c).arrAt w cfg1.N = V7 m (outs m) c (Pipeline.arrRef spec1 w) :=
  ((dat1 (E1 m) c).arrAt_in w hw _).trans ((A_eq1 (E1 m) c w).trans ((E1_eq m c _).trans (V7_of m (outs m) c (Pipeline.arrRef spec1 w) hne).symm))
theorem hF1_3 (c : Dev nD) : (dat1 (E1 m) c).arrAt 3 cfg1.N = V7 m (outs m) c (Pipeline.arrRef spec1 3) :=
  (outs_v46 m c).symm.trans (V7_v46 m c).symm
theorem hF1 (c : Dev nD) (w : Fin cfg1.W) : (dat1 (E1 m) c).arrAt w cfg1.N = V7 m (outs m) c (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_3 m c

theorem hrest1 (c : Dev nD) : ∀ b, b ∉ Finset.univ.image (Pipeline.arrRef spec1) → V7 m (outs m) c b = E1 m c b :=
  fun b hb => (V7_of m (outs m) c b (fun hmem => by
    rcases List.mem_cons.mp hmem with h | h
    · exact hb (Finset.mem_image.mpr ⟨3, Finset.mem_univ _, h.symm⟩)
    · cases h)).trans (E1_eq m c b).symm

/-! ## The class invariant of region 1 taken in and given back -/

theorem hin_A1 (c : Dev nD) (Pf : sProp 𝕄) :
    iprop((∃ r, prngReg c r) ∗ Pf ∗ Pipeline.scopedRest spec1 c) ⊢ (Pipeline.ΦA spec1 c : sProp 𝕄) := by
  unfold Pipeline.ΦA
  iintro ⟨Hp, -, Hr⟩
  isplitl [Hr]; · iexact Hr
  iexact Hp

theorem hout_A1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at its entry contents, left at the next
    boundary's contents. Its arrays split out of the unscoped buffers and put back at the exit contents; the generator
    register into the region invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [show (pdats m 0 c).Φ (Fin.last _) = Pipeline.ΦA spec0 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at its entry contents, left at the next
    boundary's contents. Its arrays split out of the unscoped buffers and put back at the exit contents; the generator
    register into the region invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V6 m (outsA m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (hin_A1 c _).trans (hin1 (E1 m) c)
  hout c := by
    rw [Pipeline.ownSems0_none]
    exact (hout1 (E1 m) c).trans (hout_A1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN: every weakly fair execution of @main terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Pipeline.Seg.run_eq_chain,
        show (segs m (outs m) 𝒱₀ L lv (fun _ c => R c) () (pdats m) (reg0 m) (reg1 m) c).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, .rfl,
      (by
        show iprop(StableHlo.held (c : Thread nD τ) (Pipeline.ucRefs τ sig) (V6 m (outs m) c) ∗ R c)
          ⊢ iprop(StableHlo.held (c : Thread nD τ) (Pipeline.ucRefs τ sig) (V6 m (outsA m) c) ∗ R c)
        rw [V6_outs]), .rfl,
      sep_mono .rfl (by iintro ⟨-, HO⟩; iexact HO)⟩)
    (hinit := ?_) (QY := fun c s => ∀ b ∈ Pipeline.ucRefs τ sig, s.mem (((c : Thread nD τ)).1, b) = V8 m (outs m) c b)
    (hfin := fun c s' => ?_) (hQ := fun _ h => h)
  · -- the launch: the unscoped buffers are held at the launch contents; the generator register and the core's owes ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => (((c : Thread nD τ)).1, b)) (V8 m (outs m) c) s')
    isplitl [Hh] <;> iassumption

end Cert.Kernel.Hand

end
-- ==== Proof.ClaimsK.lean ====
/-
  The word-level kernel program runs — every weakly fair execution terminates, nothing faulting — and leaves its two
  argument arrays as launched: no host operation writes an argument, and the two pipelined regions write only their
  own output arrays.
-/
import proofs.«429528_j48808008352295_3_alg».proof.Defs
import proofs.«429528_j48808008352295_3_alg».proof.Proof.Gen.Kernel
import proofs.«429528_j48808008352295_3_alg».proof.Proof.Gen.Kernel.Regions
import proofs.«429528_j48808008352295_3_alg».proof.Proof.Gen.Pre_finite_inputs
import proofs.«429528_j48808008352295_3_alg».proof.Proof.K.Run

set_option maxRecDepth 16384

noncomputable section

namespace Cert.Proof.ClaimsK

open Idealize.ShloMosaic Idealize.ShloMosaic.TcCoe Idealize.SL.Sem

theorem frame_k : Cert.frame_Kernel (hKernel := Cert.Kernel.Gen.facts)
    (hPre_finite_inputs := Cert.Pre_finite_inputs.Gen.facts) := by
  intro m ρ _
  refine (θ_run _ _ _).mono (fun r h c => ?_) (Cert.Kernel.Hand.run_all (F := Bits) m ρ)
  exact ⟨(h c (Proc.devRef .tc Cert.Kernel.main_arg0)
        (Finset.mem_filter.mpr ⟨StableHlo.devRef_mem_tcRefs Cert.Kernel.main_arg0, by decide⟩)).trans
      (Cert.Kernel.Gen.V8_main_arg0 m (Cert.Kernel.Hand.outs m) c),
    (h c (Proc.devRef .tc Cert.Kernel.main_arg1)
        (Finset.mem_filter.mpr ⟨StableHlo.devRef_mem_tcRefs Cert.Kernel.main_arg1, by decide⟩)).trans
      (Cert.Kernel.Gen.V8_main_arg1 m (Cert.Kernel.Hand.outs m) c)⟩

end Cert.Proof.ClaimsK

end
-- ==== Proof.lean ====
/-
  A triangle mesh's Laplacian smoothing loss, computed two ways, is one number.

  Each corner of a face receives the other two corners' positions and the lengths of the two edges that meet at it;
  per vertex these are totalled over all faces with a count of the contributions; a vertex's error is the norm of its
  offset from its neighbours' mean in units of its mean edge length, and the loss is the mean error over the vertices.
  The kernel program totals, slot by slot, a face's pair sums (two positions added, a count of two, two edge lengths
  added) in three accumulating scatters and forms (v · count − total) / edgeTotal; the reference totals single
  contributions in accumulating scatters over six-fold concatenations and forms (v − total / count) / (edgeTotal /
  edgeCount). On the extended reals the totals agree because addition is commutative and associative; the two
  quotients agree for a positive real count — by real arithmetic when the edge total is positive, and when it is zero
  because both numerators have one sign; the closing product with 2^-18 is the quotient by 2^18. The precondition
  makes every coordinate a real number, every face corner a vertex (so the kernel's out-of-range fill is never
  selected and the reference's gather never clamps) and every vertex a corner of some face (so no count is zero).

  Beside the value claim: each of the three programs runs to the end without a fault and leaves its argument arrays
  as launched, and the idealized kernel is the word-level kernel's text read on the extended reals with no rewrite.
-/
import proofs.«429528_j48808008352295_3_alg».proof.Defs
import proofs.«429528_j48808008352295_3_alg».proof.Proof.Gen.Kernel
import proofs.«429528_j48808008352295_3_alg».proof.Proof.Gen.KernelIdeal
import proofs.«429528_j48808008352295_3_alg».proof.Proof.Gen.ReferenceIdeal
import proofs.«429528_j48808008352295_3_alg».proof.Proof.Gen.Pre_finite_inputs
import proofs.«429528_j48808008352295_3_alg».proof.Proof.Claims
import proofs.«429528_j48808008352295_3_alg».proof.Proof.ClaimsK

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.ClaimsK.frame_k, Cert.Proof.Claims.frame_ki, Cert.Proof.Claims.frame_ri, trivial,
    Cert.Proof.Claims.algebraic⟩

end Cert.Proof

end
